-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S11x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x4x1024x1024 .f32) (main_arg1 : IVec S8x1x1024x1024 32) (main_arg2 : FVec F S8x1024x1024 .f32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_c_2 : IVec S_ 32 := constantI S_ 32 0#32
  let main_v9 : IVec S8x1x1024x1024 32 := broadcastInDim S8x1x1024x1024 ![] bcast_S_S8x1x1024x1024 main_c_2
  let main_v10 : IVec S8x1x1024x1024 1 := cmpi .sge main_arg1 main_v9
  let main_c_3 : IVec S_ 1 := constantI S_ 1 1#1
  let main_v11 : IVec S_ 1 := (fun x v => Host.reduce IntOp.andi x v reducesTo_S8x1x1024x1024_S_d0_1_2_3 h_S_) main_v10 main_c_3
  let main_v12 : IVec S_ 1 := andi main_v8 main_v11
  let main_c_4 : IVec S_ 32 := constantI S_ 32 1025#32
  let main_v13 : IVec S8x1x1024x1024 32 := broadcastInDim S8x1x1024x1024 ![] bcast_S_S8x1x1024x1024 main_c_4
  let main_v14 : IVec S8x1x1024x1024 1 := cmpi .slt main_arg1 main_v13
  let main_c_5 : IVec S_ 1 := constantI S_ 1 1#1
  let main_v15 : IVec S_ 1 := (fun x v => Host.reduce IntOp.andi x v reducesTo_S8x1x1024x1024_S_d0_1_2_3 h_S_) main_v14 main_c_5
  fn_part1 (F := F) main_v12 main_v15
-- ==== Kernel.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S8x4x1048576 : Shape := ⟨3, ![8, 4, 1048576]⟩
abbrev S8x1x1048576 : Shape := ⟨3, ![8, 1, 1048576]⟩
abbrev S8x11x1280 : Shape := ⟨3, ![8, 11, 1280]⟩
abbrev S1x4x8192 : Shape := ⟨3, ![1, 4, 8192]⟩
abbrev S1x1x8192 : Shape := ⟨3, ![1, 1, 8192]⟩
abbrev S1x11x1280 : Shape := ⟨3, ![1, 11, 1280]⟩
abbrev S4x8192 : Shape := ⟨2, ![4, 8192]⟩
abbrev S8192 : Shape := ⟨1, ![8192]⟩
abbrev S1x8192 : Shape := ⟨2, ![1, 8192]⟩
abbrev S11x8192 : Shape := ⟨2, ![11, 8192]⟩
abbrev S22x8192 : Shape := ⟨2, ![22, 8192]⟩
abbrev S256x1 : Shape := ⟨2, ![256, 1]⟩
abbrev S256x8192 : Shape := ⟨2, ![256, 8192]⟩
abbrev S22x256 : Shape := ⟨2, ![22, 256]⟩
abbrev S11x256 : Shape := ⟨2, ![11, 256]⟩
abbrev S1x11x256 : Shape := ⟨3, ![1, 11, 256]⟩
abbrev S8x1x1280 : Shape := ⟨3, ![8, 1, 1280]⟩
abbrev S8x1280 : Shape := ⟨2, ![8, 1280]⟩
abbrev S8x4x1280 : Shape := ⟨3, ![8, 4, 1280]⟩
abbrev S_ : Shape := ⟨0, ![]⟩
abbrev S1 : Shape := ⟨1, ![1]⟩
abbrev S8x4 : Shape := ⟨2, ![8, 4]⟩

abbrev nBuf : Space → Nat
  | .hbm => 42
  | .vmem => 8
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .i32⟩
  | .hbm, ⟨2, _⟩ => ⟨S8x1024x1024, .f32⟩
  | .hbm, ⟨3, _⟩ => ⟨S8x4x1048576, .f32⟩
  | .hbm, ⟨4, _⟩ => ⟨S8x1x1048576, .i32⟩
  | .hbm, ⟨5, _⟩ => ⟨S8x1x1048576, .f32⟩
  | .hbm, ⟨6, _⟩ => ⟨S8x11x1280, .f32⟩
  | .hbm, ⟨7, _⟩ => ⟨S8x1x1280, .f32⟩
  | .hbm, ⟨8, _⟩ => ⟨S8x1280, .f32⟩
  | .hbm, ⟨9, _⟩ => ⟨S8x4x1280, .f32⟩
  | .hbm, ⟨10, _⟩ => ⟨S8x1x1280, .f32⟩
  | .hbm, ⟨11, _⟩ => ⟨S8x1280, .f32⟩
  | .hbm, ⟨12, _⟩ => ⟨S8x4x1280, .f32⟩
  | .hbm, ⟨13, _⟩ => ⟨S8x1x1280, .f32⟩
  | .hbm, ⟨14, _⟩ => ⟨S8x1280, .f32⟩
  | .hbm, ⟨15, _⟩ => ⟨S_, .f32⟩
  | .hbm, ⟨16, _⟩ => ⟨S8x1280, .f32⟩
  | .hbm, ⟨17, _⟩ => ⟨S8x1280, .f32⟩
  | .hbm, ⟨18, _⟩ => ⟨S8x1x1280, .f32⟩
  | .hbm, ⟨19, _⟩ => ⟨S8x4x1280, .f32⟩
  | .hbm, ⟨20, _⟩ => ⟨S8x4x1280, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S8x4, .f32⟩
  | .hbm, ⟨25, _⟩ => ⟨S8x4x1280, .f32⟩
  | .hbm, ⟨26, _⟩ => ⟨S8x4x1280, .f32⟩
  | .hbm, ⟨27, _⟩ => ⟨S_, .f32⟩
  | .hbm, ⟨28, _⟩ => ⟨S8x1280, .f32⟩
  | .hbm, ⟨29, _⟩ => ⟨S_, .f32⟩
  | .hbm, ⟨30, _⟩ => ⟨S8x1280, .f32⟩
  | .hbm, ⟨31, _⟩ => ⟨S8x1280, .f32⟩
  | .hbm, ⟨32, _⟩ => ⟨S8x1280, .f32⟩
  | .hbm, ⟨33, _⟩ => ⟨S8x4x1280, .f32⟩
  | .hbm, ⟨34, _⟩ => ⟨S_, .f32⟩
  | .hbm, ⟨35, _⟩ => ⟨S8x1280, .f32⟩
  | .hbm, ⟨36, _⟩ => ⟨S8x1280, .f32⟩
  | .hbm, ⟨37, _⟩ => ⟨S8x1280, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1x4x8192, .f32⟩
  | .local _ .vmem, ⟨1, _⟩ => ⟨S1x4x8192, .f32⟩
  | .local _ .vmem, ⟨2, _⟩ => ⟨S1x1x8192, .i32⟩
  | .local _ .vmem, ⟨3, _⟩ => ⟨S1x1x8192, .i32⟩
  | .local _ .vmem, ⟨4, _⟩ => ⟨S1x1x8192, .f32⟩
  | .local _ .vmem, ⟨5, _⟩ => ⟨S1x1x8192, .f32⟩
  | .local _ .vmem, ⟨6, _⟩ => ⟨S1x11x1280, .f32⟩
  | .local _ .vmem, ⟨7, _⟩ => ⟨S1x11x1280, .f32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 128], ![false, false]⟩

@[reducible] def k0_t1_loop : Scf.Loop 32 :=
  let c0_i32_13 : BitVec 32 := 0#32
  let c5_i32 : BitVec 32 := 5#32
  let v29 : BitVec 32 := Scalar.addi c0_i32_13 c5_i32
  let c1_i32 : BitVec 32 := 1#32
  ⟨c0_i32_13, v29, c1_i32⟩
def k0_mult1 (k0_t1 : Fin k0_t1_loop.trips) : BitVec 32 :=
  let c0_i32_13 : BitVec 32 := 0#32
  let c1_i32 : BitVec 32 := 1#32
  let arg6 : BitVec 32 := Scf.iv c0_i32_13 c1_i32 k0_t1
  let c256_i32 : BitVec 32 := 256#32
  let v30 : BitVec 32 := Scalar.muli arg6 c256_i32
  v30
def k0_off1 (k0_t1 : Fin k0_t1_loop.trips) : Fin 3 → Nat :=
  let c0_16 : Index := 0#32
  let c0_17 : Index := 0#32
  let c0_i32_13 : BitVec 32 := 0#32
  let c1_i32 : BitVec 32 := 1#32
  let arg6 : BitVec 32 := Scf.iv c0_i32_13 c1_i32 k0_t1
  let c256_i32 : BitVec 32 := 256#32
  let v30 : BitVec 32 := Scalar.muli arg6 c256_i32
  let v31 : BitVec 32 := v30
  let v44 : Index := Scalar.indexCast v31
  ![0, 0, v44.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x11x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x4x1024x1024_S8x4x1048576 : S8x4x1024x1024.ShapeCasts S8x4x1048576
  shapeCasts_S8x1x1024x1024_S8x1x1048576 : S8x1x1024x1024.ShapeCasts S8x1x1048576
  shapeCasts_S8x1024x1024_S8x1x1048576 : S8x1024x1024.ShapeCasts S8x1x1048576
  inb_S1x11x1280_S1x11x1280_0_0_0 : ∀ a, (![0, 0, 0] : Fin 3 → Nat) a + S1x11x1280.size a ≤ S1x11x1280.size a
  h_S1x11x1280 : 0 < S1x11x1280.numel
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x8192 : S8192.ShapeCasts S1x8192
  broadcasts_S1x8192_S4x8192 : S1x8192.Broadcasts S4x8192
  reduces_S4x8192_S8192 : S4x8192.Reduces [0] S8192
  concatenates_S1x8192_S4x8192_S1x8192_S4x8192_S1x8192_S11x8192_d0 : Shape.Concatenates [S1x8192, S4x8192, S1x8192, S4x8192, S1x8192] S11x8192 0
  bitsLt_bf16_f32 : FTy.bits .bf16 < FTy.bits .f32
  concatenates_S11x8192_S11x8192_S22x8192_d0 : Shape.Concatenates [S11x8192, S11x8192] S22x8192 0
  iota_S256x1_d0_w32 : S256x1.Iotas .tc 32 [0]
  broadcasts_S256x1_S256x8192 : S256x1.Broadcasts S256x8192
  broadcasts_S1x8192_S256x8192 : S1x8192.Broadcasts S256x8192
  natLt_1_32 : 1 < 32
  slices_S22x256_o0_0_S11x256 : S22x256.Slices ![0, 0] S11x256
  slices_S22x256_o11_0_S11x256 : S22x256.Slices ![11, 0] S11x256
  h_S1x11x256 : 0 < S1x11x256.numel
  shapeCasts_S1x11x256_S11x256 : S1x11x256.ShapeCasts S11x256
  shapeCasts_S11x256_S1x11x256 : S11x256.ShapeCasts S1x11x256
  slices_S8x11x1280_S8x1x1280_0_0_0 : S8x11x1280.Slices ![0, 0, 0] S8x1x1280
  shapeCasts_S8x1x1280_S8x1280 : S8x1x1280.ShapeCasts S8x1280
  slices_S8x11x1280_S8x4x1280_0_1_0 : S8x11x1280.Slices ![0, 1, 0] S8x4x1280
  slices_S8x11x1280_S8x1x1280_0_5_0 : S8x11x1280.Slices ![0, 5, 0] S8x1x1280
  slices_S8x11x1280_S8x4x1280_0_6_0 : S8x11x1280.Slices ![0, 6, 0] S8x4x1280
  slices_S8x11x1280_S8x1x1280_0_10_0 : S8x11x1280.Slices ![0, 10, 0] S8x1x1280
  bcast_S_S8x1280 : S_.BroadcastsInDim S8x1280 (![] : Fin 0 → Fin S8x1280.rank)
  bcast_S8x1280_S8x1x1280_0_2 : S8x1280.BroadcastsInDim S8x1x1280 (![0, 2] : Fin 2 → Fin S8x1x1280.rank)
  bcast_S8x1x1280_S8x4x1280_0_1_2 : S8x1x1280.BroadcastsInDim S8x4x1280 (![0, 1, 2] : Fin 3 → Fin S8x4x1280.rank)
  bcast_S_S1 : S_.BroadcastsInDim S1 (![] : Fin 0 → Fin S1.rank)
  bcast_S_S8x4 : S_.BroadcastsInDim S8x4 (![] : Fin 0 → Fin S8x4.rank)
  reducesTo_S8x4x1280_S8x1280_d1 : S8x4x1280.ReducesTo [1] S8x1280
  h_S_ : 0 < S_.numel
  reducesTo_S8x1280_S_d0_1 : S8x1280.ReducesTo [0, 1] S_
  dot_S22x8192_S256x8192_S22x256_1_1_0_0_n_n_wf : DotDims.WF S22x8192 S256x8192 S22x256 [1] [1] [0] [0] [] []
  scatter_S8x4x1280_S1_S8x4_01_2_2_0_wf : ScatterDims.WF S8x4x1280 S1 S8x4 [0, 1] [2] [2] 0
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x11x256.size a ≤ S1x11x1280.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x8192.size a ≤ S8x4x1048576.size a
  hwx0_0 : ∀ i : grid0.Coords, EltTy.bits .f32 = 32 ∨ (Rect.block (s := S8x4x1048576) S1x4x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S8x1x1048576.size a
  hwx0_1 : ∀ i : grid0.Coords, EltTy.bits .i32 = 32 ∨ (Rect.block (s := S8x1x1048576) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S8x1x1048576.size a
  hwx0_2 : ∀ i : grid0.Coords, EltTy.bits .f32 = 32 ∨ (Rect.block (s := S8x1x1048576) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x11x1280.size a ≤ S8x11x1280.size a
  hwx0_3 : ∀ i : grid0.Coords, EltTy.bits .f32 = 32 ∨ (Rect.block (s := S8x11x1280) S1x11x1280.size (cc0_transform_3 i) (hinb0_3 i)).WholeWords (EltTy.packing .f32)

variable [Facts₀]

def dot_S22x8192_S256x8192_S22x256_1_1_0_0_n_n : DotDims S22x8192 S256x8192 S22x256 where
  lhsContracting := [1]
  rhsContracting := [1]
  lhsNonContracting := [0]
  rhsNonContracting := [0]
  lhsBatch := []
  rhsBatch := []
  wf := dot_S22x8192_S256x8192_S22x256_1_1_0_0_n_n_wf
def scatter_S8x4x1280_S1_S8x4_01_2_2_0 : ScatterDims S8x4x1280 S1 S8x4 where
  updateWindowDims := [0, 1]
  insertedWindowDims := [2]
  scatterDimsToOperandDims := [2]
  indexVectorDim := 0
  wf := scatter_S8x4x1280_S1_S8x4_01_2_2_0_wf

abbrev win0_0 : Pipeline.Window sig grid0 :=
  Pipeline.Window.ofSpec (Memref.whole main_v0) S1x4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x11x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4x1024x1024 : Shape := ⟨4, ![8, 4, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S8 : Shape := ⟨1, ![8]⟩
abbrev S8x1x1 : Shape := ⟨3, ![8, 1, 1]⟩
abbrev S8388608 : Shape := ⟨1, ![8388608]⟩
abbrev S8x1024x1024x4 : Shape := ⟨4, ![8, 1024, 1024, 4]⟩
abbrev S8388608x4 : Shape := ⟨2, ![8388608, 4]⟩
abbrev S8200x4 : Shape := ⟨2, ![8200, 4]⟩
abbrev S8388608x1 : Shape := ⟨2, ![8388608, 1]⟩
abbrev S8200 : Shape := ⟨1, ![8200]⟩
abbrev S8200x1 : Shape := ⟨2, ![8200, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1x1024x1024, .i32⟩
  | .hbm, ⟨2, _⟩ => ⟨S8x1024x1024, .f32⟩
  | .hbm, ⟨3, _⟩ => ⟨S_, .f32⟩
  | .hbm, ⟨4, _⟩ => ⟨S8x1024x1024, .f32⟩
  | .hbm, ⟨5, _⟩ => ⟨S8x1024x1024, .i1⟩
  | .hbm, ⟨6, _⟩ => ⟨S_, .f32⟩
  | .hbm, ⟨7, _⟩ => ⟨S_, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S8x1024x1024, .i32⟩
  | .hbm, ⟨12, _⟩ => ⟨S8, .i32⟩
  | .hbm, ⟨13, _⟩ => ⟨S8x1x1, .i32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S8x1024x1024, .i32⟩
  | .hbm, ⟨18, _⟩ => ⟨S8x1024x1024, .i32⟩
  | .hbm, ⟨19, _⟩ => ⟨S8388608, .i32⟩
  | .hbm, ⟨20, _⟩ => ⟨S8x1024x1024x4, .f32⟩
  | .hbm, ⟨21, _⟩ => ⟨S8388608x4, .f32⟩
  | .hbm, ⟨22, _⟩ => ⟨S_, .f32⟩
  | .hbm, ⟨23, _⟩ => ⟨S8200x4, .f32⟩
  | .hbm, ⟨24, _⟩ => ⟨S8388608x1, .i32⟩
  | .hbm, ⟨25, _⟩ => ⟨S8200x4, .f32⟩
  | .hbm, ⟨26, _⟩ => ⟨S_, .f32⟩
  | .hbm, ⟨27, _⟩ => ⟨S8388608, .f32⟩
  | .hbm, ⟨28, _⟩ => ⟨S_, .f32⟩
  | .hbm, ⟨29, _⟩ => ⟨S8200, .f32⟩
  | .hbm, ⟨30, _⟩ => ⟨S8388608x1, .i32⟩
  | .hbm, ⟨31, _⟩ => ⟨S8200, .f32⟩
  | .hbm, ⟨32, _⟩ => ⟨S_, .f32⟩
  | .hbm, ⟨33, _⟩ => ⟨S8200, .f32⟩
  | .hbm, ⟨34, _⟩ => ⟨S8200, .f32⟩
  | .hbm, ⟨35, _⟩ => ⟨S8200x1, .f32⟩
  | .hbm, ⟨36, _⟩ => ⟨S8200x4, .f32⟩
  | .hbm, ⟨37, _⟩ => ⟨S8200x4, .f32⟩
  | .hbm, ⟨38, _⟩ => ⟨S_, .i32⟩
  | .hbm, ⟨39, _⟩ => ⟨S8388608, .i32⟩
  | .hbm, ⟨40, _⟩ => ⟨S8388608, .i1⟩
  | .hbm, ⟨41, _⟩ => ⟨S_, .i32⟩
  | .hbm, ⟨42, _⟩ => ⟨S8388608, .i32⟩
  | .hbm, ⟨43, _⟩ => ⟨S8388608, .i32⟩
  | .hbm, ⟨44, _⟩ => ⟨S8388608, .i32⟩
  | .hbm, ⟨45, _⟩ => ⟨S8388608x1, .i32⟩
  | .hbm, ⟨46, _⟩ => ⟨S8388608x4, .f32⟩
  | .hbm, ⟨47, _⟩ => ⟨S8x1024x1024x4, .f32⟩
  | .hbm, ⟨48, _⟩ => ⟨S8x4x1024x1024, .f32⟩
  | .hbm, ⟨49, _⟩ => ⟨S_, .i32⟩
  | .hbm, ⟨50, _⟩ => ⟨S8x1x1024x1024, .i32⟩
  | .hbm, ⟨51, _⟩ => ⟨S8x1x1024x1024, .i1⟩
  | .hbm, ⟨52, _⟩ => ⟨S_, .f32⟩
  | .hbm, ⟨53, _⟩ => ⟨S8x4x1024x1024, .i1⟩
  | .hbm, ⟨54, _⟩ => ⟨S8x4x1024x1024, .f32⟩
  | .hbm, ⟨55, _⟩ => ⟨S8x4x1024x1024, .f32⟩
  | .hbm, ⟨56, _⟩ => ⟨S8x4x1024x1024, .f32⟩
  | .hbm, ⟨57, _⟩ => ⟨S8x4x1024x1024, .f32⟩
  | .hbm, ⟨58, _⟩ => ⟨S_, .f32⟩
  | .hbm, ⟨59, _⟩ => ⟨S8x1024x1024, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  shapeCasts_S8x1x1024x1024_S8x1024x1024 : S8x1x1024x1024.ShapeCasts S8x1024x1024
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x1024x1024_0_1_2 : S8x1x1.BroadcastsInDim S8x1024x1024 (![0, 1, 2] : Fin 3 → Fin S8x1024x1024.rank)
  shapeCasts_S8x1024x1024_S8388608 : S8x1024x1024.ShapeCasts S8388608
  transposes_S8x4x1024x1024_S8x1024x1024x4_0_2_3_1 : S8x4x1024x1024.Transposes [0, 2, 3, 1] S8x1024x1024x4
  shapeCasts_S8x1024x1024x4_S8388608x4 : S8x1024x1024x4.ShapeCasts S8388608x4
  bcast_S_S8200x4 : S_.BroadcastsInDim S8200x4 (![] : Fin 0 → Fin S8200x4.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  bcast_S_S8200 : S_.BroadcastsInDim S8200 (![] : Fin 0 → Fin S8200.rank)
  bcast_S8200_S8200x1_0 : S8200.BroadcastsInDim S8200x1 (![0] : Fin 1 → Fin S8200x1.rank)
  bcast_S8200x1_S8200x4_0_1 : S8200x1.BroadcastsInDim S8200x4 (![0, 1] : Fin 2 → Fin S8200x4.rank)
  shapeCasts_S8388608x4_S8x1024x1024x4 : S8388608x4.ShapeCasts S8x1024x1024x4
  transposes_S8x1024x1024x4_S8x4x1024x1024_0_3_1_2 : S8x1024x1024x4.Transposes [0, 3, 1, 2] S8x4x1024x1024
  bcast_S_S8x1x1024x1024 : S_.BroadcastsInDim S8x1x1024x1024 (![] : Fin 0 → Fin S8x1x1024x1024.rank)
  bcast_S8x1x1024x1024_S8x4x1024x1024_0_1_2_3 : S8x1x1024x1024.BroadcastsInDim S8x4x1024x1024 (![0, 1, 2, 3] : Fin 4 → Fin S8x4x1024x1024.rank)
  bcast_S_S8x4x1024x1024 : S_.BroadcastsInDim S8x4x1024x1024 (![] : Fin 0 → Fin S8x4x1024x1024.rank)
  reducesTo_S8x4x1024x1024_S8x1024x1024_d1 : S8x4x1024x1024.ReducesTo [1] S8x1024x1024
  h_S_ : 0 < S_.numel
  reducesTo_S8x1024x1024_S_d0_1_2 : S8x1024x1024.ReducesTo [0, 1, 2] S_
  scatter_S8200x4_S8388608x1_S8388608x4_1_0_0_1_wf : ScatterDims.WF S8200x4 S8388608x1 S8388608x4 [1] [0] [0] 1
  scatter_S8200_S8388608x1_S8388608_n_0_0_1_wf : ScatterDims.WF S8200 S8388608x1 S8388608 [] [0] [0] 1
  gather_S8200x4_S8388608x1_S8388608x4_1_0_n_n_0_1_14_wf : GatherDims.WF S8200x4 S8388608x1 S8388608x4 [1] [0] [] [0] [] 1 ![1, 4]

variable [Facts₀]

def scatter_S8200x4_S8388608x1_S8388608x4_1_0_0_1 : ScatterDims S8200x4 S8388608x1 S8388608x4 where
  updateWindowDims := [1]
  insertedWindowDims := [0]
  scatterDimsToOperandDims := [0]
  indexVectorDim := 1
  wf := scatter_S8200x4_S8388608x1_S8388608x4_1_0_0_1_wf
def scatter_S8200_S8388608x1_S8388608_n_0_0_1 : ScatterDims S8200 S8388608x1 S8388608 where
  updateWindowDims := []
  insertedWindowDims := [0]
  scatterDimsToOperandDims := [0]
  indexVectorDim := 1
  wf := scatter_S8200_S8388608x1_S8388608_n_0_0_1_wf
def gather_S8200x4_S8388608x1_S8388608x4_1_0_n_n_0_1_14 : GatherDims S8200x4 S8388608x1 S8388608x4 where
  offsetDims := [1]
  collapsedSliceDims := [0]
  operandBatchingDims := []
  startIndicesBatchingDims := []
  startIndexMap := [0]
  indexVectorDim := 1
  sliceSizes := ![1, 4]
  wf := gather_S8200x4_S8388608x1_S8388608x4_1_0_n_n_0_1_14_wf

class Facts : Prop extends Facts₀ where

variable [Facts]
-- ==== Proof.Spec.lean ====
import Mathlib.Data.EReal.Basic
import Mathlib.Algebra.BigOperators.Group.Finset.Basic
import Idealize.ShloMosaic.PureOps.Ideal
import Idealize.ShloMosaic.Lib.ValueIdx

/-!
# The two computations as functions of the three input arrays

A batch of 8 images of 4 channels and 1024 x 1024 = 1048576 pixels `x b c q`, a label `lab b q` per pixel and a
line value `v b q` per pixel.  The pixel's line weight is `1` where the line value exceeds the threshold and `0`
elsewhere.

One side first sums, per image and per label `g`, eleven quantities over the pixels carrying that label (a count,
the four channel values, the weight, the four weighted channel values, and the weighted sum of squared channel
values), forms the label's channel means from the first five, and evaluates
`S2 - 2 * sum_c mean_c * S1_c + (sum_c mean_c ^ 2) * S0` per label, summed over images and labels.

The other side forms, per pixel, the mean of its own segment (image `b`, label `g` numbered `b * 1025 + g`), zero for
label `0`, and sums the weighted squared distances to that mean over all pixels and channels.

Both end by the same division by the number of pixels, so the statement compared is the one before it.
-/

open scoped BigOperators
open Idealize.ShloMosaic Idealize.ShloMosaic.ValueIdx

noncomputable section

namespace Cert.SegSpread

/-- The line threshold, 63.75, as the word both programs carry. -/
def thr : EReal := Ideal.ofBits .f32 0x427F0000#32

/-- The divisor both programs end with: the number of pixels of the batch, 2 ^ 23, as the word both carry. -/
def npix : EReal := Ideal.ofBits .f32 0x4B000000#32

/-- A pixel's line weight: one above the threshold, zero elsewhere. -/
def lineW (t : EReal) : EReal := if thr < t then 1 else 0

/-! ## The input arrays by image, channel and pixel number -/

/-- Channel `c` of pixel `q` (row `q / 1024`, column `q % 1024`) of image `b`. -/
def chan (A : (⟨4, ![8, 4, 1024, 1024]⟩ : Shape).Idx → EReal) (b : Fin 8) (c : Fin 4) (q : Fin 1048576) : EReal :=
  A (ix4 b c ⟨q.val / 1024, by omega⟩ ⟨q.val % 1024, by omega⟩)

/-- The label word of pixel `q` of image `b`. -/
def labelWord (A : (⟨4, ![8, 1, 1024, 1024]⟩ : Shape).Idx → BitVec 32) (b : Fin 8) (q : Fin 1048576) : BitVec 32 :=
  A (ix4 b 0 ⟨q.val / 1024, by omega⟩ ⟨q.val % 1024, by omega⟩)

/-- The label of pixel `q` of image `b`, as a natural number (the word read unsigned). -/
def labelOf (A : (⟨4, ![8, 1, 1024, 1024]⟩ : Shape).Idx → BitVec 32) (b : Fin 8) (q : Fin 1048576) : ℕ :=
  (labelWord A b q).toNat

/-- The line value of pixel `q` of image `b`. -/
def lineOf (A : (⟨3, ![8, 1024, 1024]⟩ : Shape).Idx → EReal) (b : Fin 8) (q : Fin 1048576) : EReal :=
  A (ix3 b ⟨q.val / 1024, by omega⟩ ⟨q.val % 1024, by omega⟩)

section Both

variable (x : Fin 8 → Fin 4 → Fin 1048576 → EReal) (lab : Fin 8 → Fin 1048576 → ℕ) (v : Fin 8 → Fin 1048576 → EReal)

/-! ## Grouping by label first -/

/-- The eleven quantities of a pixel: `1`; the four channels; the weight; the four weighted channels; the weighted
    sum of squares over the channels. -/
def row (b : Fin 8) (r : Fin 11) (q : Fin 1048576) : EReal :=
  if r.val = 0 then 1
  else if h : r.val < 5 then x b ⟨r.val - 1, by omega⟩ q
  else if r.val = 5 then lineW (v b q)
  else if h : r.val < 10 then lineW (v b q) * x b ⟨r.val - 6, by omega⟩ q
  else ∑ c : Fin 4, lineW (v b q) * x b c q * x b c q

/-- Quantity `r` summed over the pixels of image `b` that carry label `g`. -/
def stat (b : Fin 8) (r : Fin 11) (g : Fin 1280) : EReal :=
  ∑ q : Fin 1048576, if lab b q = g.val then row x v b r q else 0

/-- The mean of channel `c` over label `g` of image `b` (the sum over at least one), forced to zero at label `0`. -/
def meanG (b : Fin 8) (c : Fin 4) (g : Fin 1280) : EReal :=
  if g.val = 0 then 0
  else Ideal.div (stat x lab v b ⟨c.val + 1, by omega⟩ g) (max (stat x lab v b 0 g) 1)

/-- A label's contribution: `S2 - 2 * sum_c mean_c * S1_c + (sum_c mean_c * mean_c) * S0`. -/
def spreadG (b : Fin 8) (g : Fin 1280) : EReal :=
  (stat x lab v b 10 g
      - 2 * (0 + ∑ c : Fin 4, meanG x lab v b c g * stat x lab v b ⟨c.val + 6, by omega⟩ g))
    + (0 + ∑ c : Fin 4, meanG x lab v b c g * meanG x lab v b c g) * stat x lab v b 5 g

/-- The contributions of all labels of all images. -/
def totalG : EReal := 0 + ∑ b : Fin 8, ∑ g : Fin 1280, spreadG x lab v b g

/-! ## Pixel by pixel -/

/-- Channel `c` summed over every pixel of the batch whose segment number `b' * 1025 + label` is `s`. -/
def segSum (s : ℕ) (c : Fin 4) : EReal :=
  0 + ∑ b' : Fin 8, ∑ q' : Fin 1048576, if b'.val * 1025 + lab b' q' = s then x b' c q' else 0

/-- The number of pixels of the batch whose segment number is `s`. -/
def segCnt (s : ℕ) : EReal :=
  0 + ∑ b' : Fin 8, ∑ q' : Fin 1048576, if b'.val * 1025 + lab b' q' = s then (1 : EReal) else 0

/-- The mean of channel `c` over segment `s`. -/
def segMean (s : ℕ) (c : Fin 4) : EReal := Ideal.div (segSum x lab s c) (max (segCnt lab s) 1)

/-- The value a pixel is compared with: its segment's mean, and zero where its label is `0`. -/
def pixMean (b : Fin 8) (c : Fin 4) (q : Fin 1048576) : EReal :=
  if 0 < lab b q then segMean x lab (b.val * 1025 + lab b q) c else 0

/-- A pixel's squared distance to its segment's mean, summed over the channels. -/
def pixSpread (b : Fin 8) (q : Fin 1048576) : EReal :=
  0 + ∑ c : Fin 4, (x b c q - pixMean x lab b c q) * (x b c q - pixMean x lab b c q)

/-- The weighted distances of all pixels of all images. -/
def totalP : EReal := 0 + ∑ b : Fin 8, ∑ q : Fin 1048576, lineW (v b q) * pixSpread x lab b q

end Both

end Cert.SegSpread

end
-- ==== Proof.TileSpec.lean ====
import proofs.«411571_j13408887898282_3_alg».proof.Proof.Spec

/-!
# One tile of 8192 pixels

The grouped sums are accumulated tile by tile: 128 tiles of 8192 consecutive pixels per image.  A tile contributes,
to quantity `r` of label `g`, the sum over its pixels of the quantity times the indicator that the pixel carries
the label.  The quantity is entered twice, once as itself and once as its difference from itself (a high and a low
part whose low part vanishes on finite values).
-/

open scoped BigOperators
open Idealize.ShloMosaic Idealize.ShloMosaic.ValueIdx

noncomputable section

namespace Cert.SegSpread

/-- The eleven quantities of pixel `p` of a tile, from the tile's channel block `x0` and line block `x2`. -/
def tileRow (x0 : (⟨3, ![1, 4, 8192]⟩ : Shape).Idx → EReal) (x2 : (⟨3, ![1, 1, 8192]⟩ : Shape).Idx → EReal)
    (r : Fin 11) (p : Fin 8192) : EReal :=
  if r.val = 0 then 1
  else if h : r.val < 5 then x0 (ix3 0 ⟨r.val - 1, by omega⟩ p)
  else if r.val = 5 then lineW (x2 (ix3 0 0 p))
  else if h : r.val < 10 then lineW (x2 (ix3 0 0 p)) * x0 (ix3 0 ⟨r.val - 6, by omega⟩ p)
  else ∑ c : Fin 4, lineW (x2 (ix3 0 0 p)) * x0 (ix3 0 c p) * x0 (ix3 0 c p)

/-- One where pixel `p` of the tile carries label `g`, zero elsewhere. -/
def tileHit (x1 : (⟨3, ![1, 1, 8192]⟩ : Shape).Idx → BitVec 32) (g : ℕ) (p : Fin 8192) : EReal :=
  if (x1 (ix3 0 0 p)).toNat = g then 1 else 0

/-- The tile's contribution to quantity `r` of label `g`: the quantity over the hit pixels, plus the same sum of
    the quantity's difference from itself. -/
def tilePart (x0 : (⟨3, ![1, 4, 8192]⟩ : Shape).Idx → EReal) (x1 : (⟨3, ![1, 1, 8192]⟩ : Shape).Idx → BitVec 32)
    (x2 : (⟨3, ![1, 1, 8192]⟩ : Shape).Idx → EReal) (r : Fin 11) (g : ℕ) : EReal :=
  (∑ p : Fin 8192, tileRow x0 x2 r p * tileHit x1 g p)
    + ∑ p : Fin 8192, (tileRow x0 x2 r p - tileRow x0 x2 r p) * tileHit x1 g p

/-- The table of grouped sums after a tile, over the table `prev` before it. -/
def tileAcc (x0 : (⟨3, ![1, 4, 8192]⟩ : Shape).Idx → EReal) (x1 : (⟨3, ![1, 1, 8192]⟩ : Shape).Idx → BitVec 32)
    (x2 : (⟨3, ![1, 1, 8192]⟩ : Shape).Idx → EReal) (prev : (⟨3, ![1, 11, 1280]⟩ : Shape).Idx → EReal) :
    (⟨3, ![1, 11, 1280]⟩ : Shape).Idx → EReal :=
  fun y => prev y + tilePart x0 x1 x2 ⟨(y 1).val, (y 1).isLt⟩ (y 2).val

/-! ## The tiles of an image -/

/-- Tile `n` of image `b`'s channels: pixel `p` of the tile is pixel `n * 8192 + p` of the image. -/
def blkX (x : Fin 8 → Fin 4 → Fin 1048576 → EReal) (b : Fin 8) (n : ℕ) :
    (⟨3, ![1, 4, 8192]⟩ : Shape).Idx → EReal :=
  fun y => if h : n * 8192 + (y 2).val < 1048576 then x b ⟨(y 1).val, (y 1).isLt⟩ ⟨n * 8192 + (y 2).val, h⟩ else 0

/-- Tile `n` of image `b`'s label words. -/
def blkW (lw : Fin 8 → Fin 1048576 → BitVec 32) (b : Fin 8) (n : ℕ) :
    (⟨3, ![1, 1, 8192]⟩ : Shape).Idx → BitVec 32 :=
  fun y => if h : n * 8192 + (y 2).val < 1048576 then lw b ⟨n * 8192 + (y 2).val, h⟩ else 0

/-- Tile `n` of image `b`'s line values. -/
def blkV (v : Fin 8 → Fin 1048576 → EReal) (b : Fin 8) (n : ℕ) :
    (⟨3, ![1, 1, 8192]⟩ : Shape).Idx → EReal :=
  fun y => if h : n * 8192 + (y 2).val < 1048576 then v b ⟨n * 8192 + (y 2).val, h⟩ else 0

/-- The contributions of tiles `0 … n` of image `b` to quantity `r` of label `g`. -/
def tileSumUpTo (x : Fin 8 → Fin 4 → Fin 1048576 → EReal) (lw : Fin 8 → Fin 1048576 → BitVec 32)
    (v : Fin 8 → Fin 1048576 → EReal) (b : Fin 8) (n : ℕ) (r : Fin 11) (g : ℕ) : EReal :=
  ∑ i ∈ Finset.range (n + 1), tilePart (blkX x b i) (blkW lw b i) (blkV v b i) r g

end Cert.SegSpread

end
-- ==== Proof.KPay.lean ====
import proofs.«411571_j13408887898282_3_alg».proof.Proof.Gen.KernelIdeal.Skeleton
import proofs.«411571_j13408887898282_3_alg».proof.Proof.TileSpec
import Idealize.ShloMosaic.Lib.ValueIdx
import Idealize.ShloMosaic.Lib.ValueLayout
import Idealize.ShloMosaic.Lib.Pipeline.Value
import Idealize.ShloMosaic.PureOps.Ideal.Laws

/-!
# The stored value of one pass over 256 labels, read at an entry

Pass `k` of a tile handles labels `256 k … 256 k + 255`.  Its stored block is the block found there plus, for
quantity `r` and label `256 k + j`, the tile's contribution: the product of the 22 x 8192 table of quantities (high
parts, then low parts) with the 256 x 8192 table of label indicators, its two halves added.

The table of quantities has eleven rows per pixel: the constant one, the four channels, the line weight, the four
weighted channels and the weighted sum of the squared channels.  The indicator table has, in row `j` and column `p`,
one where the label word of pixel `p` less `256 k` is the word `j`, which for `k < 5` and `j < 256` says that the
label, read unsigned, is `256 k + j`.  An entry of the product is the sum over the 8192 pixels of the products of
the two tables' entries.
-/

set_option maxRecDepth 16384

open scoped BigOperators
open Idealize.ShloMosaic Idealize.ShloMosaic.TcCoe Idealize.ShloMosaic.ValueIdx Idealize.SL.Sem
open Cert.KernelIdeal Cert.KernelIdeal.Gen Cert.SegSpread

noncomputable section

namespace Cert.KernelIdeal.KV

namespace Pay

/-! ## The stored value in named stages -/

/-- The word `0x3F800000` denotes one: sign clear, exponent field 127, fraction zero. -/
theorem one_f32 : Ideal.ofBits .f32 0x3F800000#32 = 1 := by
  simp [Ideal.ofBits, Ideal.ieee]
  rw [← EReal.coe_mul]
  norm_num

/-- The row of line weights: one where the line value exceeds the threshold, zero elsewhere. -/
def wRow (x2 : Vec Ideal S1x1x8192 .f32) : FVec Ideal S1x8192 .f32 :=
  select (cmpf .ogt (shapeCast S1x8192 (shapeCast S8192 x2 shapeCasts_S1x1x8192_S8192 : FVec Ideal S8192 .f32) shapeCasts_S8192_S1x8192 : FVec Ideal S1x8192 .f32)
      (broadcast S1x8192 (Scalar.ofBits .f32 0x427F0000#32)))
    (broadcast S1x8192 (Scalar.ofBits .f32 0x3F800000#32)) (broadcast S1x8192 (Scalar.ofBits .f32 0x00000000#32))

/-- The channel block as a 4 x 8192 matrix. -/
def xMat (x0 : Vec Ideal S1x4x8192 .f32) : FVec Ideal S4x8192 .f32 := shapeCast S4x8192 x0 shapeCasts_S1x4x8192_S4x8192

/-- The weighted channels: each channel row times the row of weights. -/
def wxMat (x0 : Vec Ideal S1x4x8192 .f32) (x2 : Vec Ideal S1x1x8192 .f32) : FVec Ideal S4x8192 .f32 :=
  mulf (broadcastTo S4x8192 (wRow x2) broadcasts_S1x8192_S4x8192) (xMat x0)

/-- The weighted sum of squares: the weighted channels times the channels, summed over the four channels. -/
def sqRow (x0 : Vec Ideal S1x4x8192 .f32) (x2 : Vec Ideal S1x1x8192 .f32) : FVec Ideal S1x8192 .f32 :=
  shapeCast S1x8192 (multiReduction .add [0] S8192 (mulf (wxMat x0 x2) (xMat x0)) 0x00000000#32 reduces_S4x8192_S8192 (.inl rfl) rfl : FVec Ideal S8192 .f32) shapeCasts_S8192_S1x8192

/-- The 11 x 8192 table of quantities: ones, channels, weights, weighted channels, weighted squares, stacked. -/
def qTab (x0 : Vec Ideal S1x4x8192 .f32) (x2 : Vec Ideal S1x1x8192 .f32) : FVec Ideal S11x8192 .f32 :=
  concatenate S11x8192 0 [⟨S1x8192, (broadcast S1x8192 (Scalar.ofBits .f32 0x3F800000#32) : FVec Ideal S1x8192 .f32)⟩, ⟨S4x8192, xMat x0⟩, ⟨S1x8192, wRow x2⟩, ⟨S4x8192, wxMat x0 x2⟩, ⟨S1x8192, sqRow x0 x2⟩] concatenates_S1x8192_S4x8192_S1x8192_S4x8192_S1x8192_S11x8192_d0

/-- The row of label words. -/
def labRow (x1 : Vec Ideal S1x1x8192 .i32) : IVec S1x8192 32 :=
  shapeCast S1x8192 (shapeCast S8192 x1 shapeCasts_S1x1x8192_S8192 : IVec S8192 32) shapeCasts_S8192_S1x8192

/-- The 256 x 8192 indicator table of pass `k`: entry `(j, p)` compares the word `j` with pixel `p`'s label word less
    `256 k`, and converts the bit to a number. -/
def hitTab (x1 : Vec Ideal S1x1x8192 .i32) (k : Fin k0_t1_loop.trips) : FVec Ideal S256x8192 .bf16 :=
  truncf .bf16 (sitofp .f32 (extui 32 (cmpi .eq
    (broadcastTo S256x8192 (iota .tc S256x1 32 [0] iota_S256x1_d0_w32 : IVec S256x1 32) broadcasts_S256x1_S256x8192 : IVec S256x8192 32)
    (broadcastTo S256x8192 (subi (labRow x1)
      (broadcast S1x8192 (Scalar.muli (Scf.iv 0#32 1#32 k) 256#32)) : IVec S1x8192 32) broadcasts_S1x8192_S256x8192 : IVec S256x8192 32)) natLt_1_32 : IVec S256x8192 32) : FVec Ideal S256x8192 .f32) bitsLt_bf16_f32

/-- The 22 x 256 product: the quantities (rows 0 … 10) and their differences from themselves (rows 11 … 21), each row
    multiplied into the indicator table along the pixels. -/
def prodTab (x0 : Vec Ideal S1x4x8192 .f32) (x1 : Vec Ideal S1x1x8192 .i32) (x2 : Vec Ideal S1x1x8192 .f32) (k : Fin k0_t1_loop.trips) : FVec Ideal S22x256 .f32 :=
  matmul dot_S22x8192_S256x8192_S22x256_1_1_0_0_n_n none
    (concatenate S22x8192 0 [⟨S11x8192, (truncf .bf16 (qTab x0 x2) bitsLt_bf16_f32 : FVec Ideal S11x8192 .bf16)⟩, ⟨S11x8192, (truncf .bf16 (subf (qTab x0 x2) (qTab x0 x2)) bitsLt_bf16_f32 : FVec Ideal S11x8192 .bf16)⟩] concatenates_S11x8192_S11x8192_S22x8192_d0)
    (hitTab x1 k) (constant S22x256 .f32 0x00000000#32)

set_option maxHeartbeats 400000 in
/-- The stored block is the block found plus the sum of the product's upper and lower halves. -/
theorem pay2_eq (x0 : Vec Ideal S1x4x8192 .f32) (x1 : Vec Ideal S1x1x8192 .i32) (x2 : Vec Ideal S1x1x8192 .f32)
    (k : Fin k0_t1_loop.trips) (v45 : Vec Ideal S1x11x256 .f32) :
    k0_pay2 (F := Ideal) x0 x1 x2 k v45
      = shapeCast S1x11x256 (addf (shapeCast S11x256 v45 shapeCasts_S1x11x256_S11x256 : FVec Ideal S11x256 .f32)
          (addf (extractStridedSlice S11x256 ![0, 0] (prodTab x0 x1 x2 k) slices_S22x256_o0_0_S11x256)
            (extractStridedSlice S11x256 ![11, 0] (prodTab x0 x1 x2 k) slices_S22x256_o11_0_S11x256))) shapeCasts_S11x256_S1x11x256 := rfl

/-! ## Words and bits -/

/-- A select on the bit of `T < a` is the choice by that comparison. -/
theorem select_cmp_ogt (a T one zero : EReal) :
    Scalar.select (Ideal.cmp .ogt a T) one zero = if T < a then one else zero := by
  unfold Scalar.select Ideal.cmp
  by_cases h : T < a <;> simp [h]

/-- A one-bit word widened without sign and read as a signed integer is the number one or zero. -/
theorem sitofp_bit (b : Bool) :
    (FloatOps.sitofp (F := Ideal) .f32 ((BitVec.ofBool b).setWidth 32) : EReal) = if b = true then 1 else 0 := by
  cases b
  · show (((((BitVec.ofBool false).setWidth 32).toInt : ℤ) : ℝ) : EReal) = _
    have e : ((BitVec.ofBool false).setWidth 32).toInt = 0 := by decide
    rw [e]; simp
  · show (((((BitVec.ofBool true).setWidth 32).toInt : ℤ) : ℝ) : EReal) = _
    have e : ((BitVec.ofBool true).setWidth 32).toInt = 1 := by decide
    rw [e]; simp

/-- For `k < 5` and `j < 256`: the word `j` equals the label word less `256 k` (in 32-bit arithmetic, which wraps around)
    exactly when the label, read unsigned, is `256 k + j`; no wrap-around can make two such numbers meet, since `256 k + j < 2 ^ 32`. -/
theorem hit_iff (L : BitVec 32) (k j : Nat) (hk : k < 5) (hj : j < 256) :
    BitVec.ofNat 32 j = L - (0#32 + BitVec.ofNat 32 k * 1#32) * 256#32 ↔ L.toNat = k * 256 + j := by
  constructor
  · intro h; bv_omega
  · intro h; bv_omega

/-! ## Re-laid blocks read at an entry -/

/-- Entry `(c, p)` of the channel matrix is entry `(0, c, p)` of the block. -/
theorem xMat_apply (x0 : Vec Ideal S1x4x8192 .f32) (c : Fin 4) (p : Fin 8192) : xMat x0 (ix2 c p) = x0 (ix3 0 c p) :=
  shapeCast_1ab_ab_apply x0 shapeCasts_S1x4x8192_S4x8192 c p

/-- A `1 x 1 x 8192` block flattened and viewed as one row: entry `(0, p)` is entry `(0, 0, p)` of the block (both have
    row-major position `p`). -/
theorem row_apply {α : Type} (x : S1x1x8192.Idx → α) (u : Fin 1) (p : Fin 8192) :
    shapeCast S1x8192 (shapeCast S8192 x shapeCasts_S1x1x8192_S8192) shapeCasts_S8192_S1x8192 (ix2 u p) = x (ix3 0 0 p) := by
  refine (shapeCast_a_1a_apply _ _ u p).trans ?_
  exact shapeCast_apply x _ (ix1 p) (ix3 0 0 p) (by
    rw [Shape.rowMajor_val_three, Shape.rowMajor_val_one]
    show (0 * 1 + 0) * 8192 + p.val = p.val
    omega)

/-- A `256 x 1` column repeated along 8192 columns: entry `(j, p)` is the column's entry `j`. -/
theorem col_apply {α : Type} (v : S256x1.Idx → α) (j : Fin 256) (p : Fin 8192) :
    broadcastTo S256x8192 v broadcasts_S256x1_S256x8192 (ix2 j p) = v (ix2 j 0) := by
  refine broadcastTo_apply v _ (ix2 j p) (ix2 j 0) fun ax => ?_
  match ax with
  | ⟨0, _⟩ => rfl
  | ⟨1, _⟩ => rfl

/-! ## The eleven rows of quantities -/

/-- The weight of pixel `p`. -/
theorem wRow_apply (x2 : Vec Ideal S1x1x8192 .f32) (u : Fin 1) (p : Fin 8192) :
    wRow x2 (ix2 u p) = lineW (x2 (ix3 0 0 p)) := by
  unfold wRow
  show Scalar.select (Ideal.cmp .ogt
      (shapeCast S1x8192 (shapeCast S8192 x2 shapeCasts_S1x1x8192_S8192) shapeCasts_S8192_S1x8192 (ix2 u p))
      (Ideal.ofBits .f32 0x427F0000#32)) (Ideal.ofBits .f32 0x3F800000#32) (Ideal.ofBits .f32 0x00000000#32) = _
  rw [row_apply, select_cmp_ogt, one_f32, Ideal.ofBits_zero_f32]
  rfl

/-- Weighted channel `c` of pixel `p`. -/
theorem wxMat_apply (x0 : Vec Ideal S1x4x8192 .f32) (x2 : Vec Ideal S1x1x8192 .f32) (c : Fin 4) (p : Fin 8192) :
    wxMat x0 x2 (ix2 c p) = lineW (x2 (ix3 0 0 p)) * x0 (ix3 0 c p) := by
  unfold wxMat
  show broadcastTo S4x8192 (wRow x2) broadcasts_S1x8192_S4x8192 (ix2 c p) * xMat x0 (ix2 c p) = _
  rw [broadcastTo_1b_ab_apply, wRow_apply, xMat_apply]

/-- The weighted sum of squares of pixel `p`: the sum over the reduced axis is the sum over the four channels. -/
theorem sqRow_apply (x0 : Vec Ideal S1x4x8192 .f32) (x2 : Vec Ideal S1x1x8192 .f32) (u : Fin 1) (p : Fin 8192) :
    sqRow x0 x2 (ix2 u p) = ∑ c : Fin 4, lineW (x2 (ix3 0 0 p)) * x0 (ix3 0 c p) * x0 (ix3 0 c p) := by
  unfold sqRow
  refine (shapeCast_a_1a_apply _ _ u p).trans ?_
  refine (Ideal.multiReduction_add_single (mulf (wxMat x0 x2) (xMat x0)) 0x00000000#32 reduces_S4x8192_S8192 (.inl rfl) rfl (ix1 p)).trans ?_
  show ∑ c : Fin 4, (mulf (wxMat x0 x2) (xMat x0)) (reduces_S4x8192_S8192.lift (ix1 p) c) = _
  refine Finset.sum_congr rfl fun c _ => ?_
  have e : reduces_S4x8192_S8192.lift (ix1 p) c = ix2 c p := by
    funext ax; apply Fin.ext
    match ax with
    | ⟨0, _⟩ => rfl
    | ⟨1, _⟩ => rfl
  rw [e]
  show wxMat x0 x2 (ix2 c p) * xMat x0 (ix2 c p) = _
  rw [wxMat_apply, xMat_apply]

section Cat5
variable (a0 : FVec Ideal S1x8192 .f32) (a1 : FVec Ideal S4x8192 .f32) (a2 : FVec Ideal S1x8192 .f32)
  (a3 : FVec Ideal S4x8192 .f32) (a4 : FVec Ideal S1x8192 .f32)

/-- Five pieces of 1, 4, 1, 4 and 1 rows stacked: rows 0; 1 … 4; 5; 6 … 9; 10. -/
abbrev cat5 : FVec Ideal S11x8192 .f32 :=
  concatenate S11x8192 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0

/-- Row 0 is the first piece's row. -/
theorem cat5_0 (r : Fin 11) (p : Fin 8192) (hr : r.val = 0) : cat5 a0 a1 a2 a3 a4 (ix2 r p) = a0 (ix2 0 p) :=
  concatenate_apply_piece (α := EReal) (t := S11x8192) 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0 (ix2 r p) 0 (by show 0 < 5; omega)
    S1x8192 a0 rfl rfl 0 rfl (ix2 0 p)
    (fun b => match b with
      | ⟨0, _⟩ => fun hb => absurd (Fin.ext rfl) hb
      | ⟨1, _⟩ => fun _ => rfl)
    (by show 0 + 0 = r.val; omega)

/-- Row `1 + c` is row `c` of the second piece. -/
theorem cat5_1 (r : Fin 11) (c : Fin 4) (p : Fin 8192) (hr : r.val = 1 + c.val) : cat5 a0 a1 a2 a3 a4 (ix2 r p) = a1 (ix2 c p) :=
  concatenate_apply_piece (α := EReal) (t := S11x8192) 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0 (ix2 r p) 1 (by show 1 < 5; omega)
    S4x8192 a1 rfl rfl 1 rfl (ix2 c p)
    (fun b => match b with
      | ⟨0, _⟩ => fun hb => absurd (Fin.ext rfl) hb
      | ⟨1, _⟩ => fun _ => rfl)
    (by show 1 + c.val = r.val; omega)

/-- Row 5 is the third piece's row. -/
theorem cat5_2 (r : Fin 11) (p : Fin 8192) (hr : r.val = 5) : cat5 a0 a1 a2 a3 a4 (ix2 r p) = a2 (ix2 0 p) :=
  concatenate_apply_piece (α := EReal) (t := S11x8192) 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0 (ix2 r p) 2 (by show 2 < 5; omega)
    S1x8192 a2 rfl rfl 5 rfl (ix2 0 p)
    (fun b => match b with
      | ⟨0, _⟩ => fun hb => absurd (Fin.ext rfl) hb
      | ⟨1, _⟩ => fun _ => rfl)
    (by show 5 + 0 = r.val; omega)

/-- Row `6 + c` is row `c` of the fourth piece. -/
theorem cat5_3 (r : Fin 11) (c : Fin 4) (p : Fin 8192) (hr : r.val = 6 + c.val) : cat5 a0 a1 a2 a3 a4 (ix2 r p) = a3 (ix2 c p) :=
  concatenate_apply_piece (α := EReal) (t := S11x8192) 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0 (ix2 r p) 3 (by show 3 < 5; omega)
    S4x8192 a3 rfl rfl 6 rfl (ix2 c p)
    (fun b => match b with
      | ⟨0, _⟩ => fun hb => absurd (Fin.ext rfl) hb
      | ⟨1, _⟩ => fun _ => rfl)
    (by show 6 + c.val = r.val; omega)

/-- Row 10 is the fifth piece's row. -/
theorem cat5_4 (r : Fin 11) (p : Fin 8192) (hr : r.val = 10) : cat5 a0 a1 a2 a3 a4 (ix2 r p) = a4 (ix2 0 p) :=
  concatenate_apply_piece (α := EReal) (t := S11x8192) 0 [⟨S1x8192, a0⟩, ⟨S4x8192, a1⟩, ⟨S1x8192, a2⟩, ⟨S4x8192, a3⟩, ⟨S1x8192, a4⟩]
    concatenates_S1x8192_S4x8192_S1x8192_S4x8192_S1x8192_S11x8192_d0 (ix2 r p) 4 (by show 4 < 5; omega)
    S1x8192 a4 rfl rfl 10 rfl (ix2 0 p)
    (fun b => match b with
      | ⟨0, _⟩ => fun hb => absurd (Fin.ext rfl) hb
      | ⟨1, _⟩ => fun _ => rfl)
    (by show 10 + 0 = r.val; omega)

end Cat5

/-- Row `r` of the table of quantities at pixel `p` is the tile's quantity `r` of that pixel: by the five ranges of `r`. -/
theorem qTab_apply (x0 : Vec Ideal S1x4x8192 .f32) (x2 : Vec Ideal S1x1x8192 .f32) (r : Fin 11) (p : Fin 8192) :
    qTab x0 x2 (ix2 r p) = tileRow x0 x2 r p := by
  unfold qTab tileRow
  by_cases h0 : r.val = 0
  · rw [if_pos h0]
    refine (cat5_0 _ _ _ _ _ r p h0).trans ?_
    show Ideal.ofBits .f32 0x3F800000#32 = 1
    exact one_f32
  rw [if_neg h0]
  by_cases h1 : r.val < 5
  · rw [dif_pos h1]
    refine (cat5_1 _ _ _ _ _ r ⟨r.val - 1, by omega⟩ p (by show r.val = 1 + (r.val - 1); omega)).trans ?_
    exact xMat_apply x0 _ p
  rw [dif_neg h1]
  by_cases h2 : r.val = 5
  · rw [if_pos h2]
    refine (cat5_2 _ _ _ _ _ r p h2).trans ?_
    exact wRow_apply x2 0 p
  rw [if_neg h2]
  by_cases h3 : r.val < 10
  · rw [dif_pos h3]
    refine (cat5_3 _ _ _ _ _ r ⟨r.val - 6, by omega⟩ p (by show r.val = 6 + (r.val - 6); omega)).trans ?_
    exact wxMat_apply x0 x2 _ p
  rw [dif_neg h3]
  refine (cat5_4 _ _ _ _ _ r p (by have := r.isLt; omega)).trans ?_
  exact sqRow_apply x0 x2 0 p

/-! ## The indicator table -/

/-- Entry `(j, p)` of pass `k`'s indicator table is one where pixel `p` carries label `256 k + j`, zero elsewhere. -/
theorem hitTab_apply (x1 : Vec Ideal S1x1x8192 .i32) (k : Fin k0_t1_loop.trips) (j : Fin 256) (p : Fin 8192) :
    hitTab x1 k (ix2 j p) = tileHit x1 (k.val * 256 + j.val) p := by
  have e1 : broadcastTo S256x8192 (iota .tc S256x1 32 [0] iota_S256x1_d0_w32 : IVec S256x1 32) broadcasts_S256x1_S256x8192 (ix2 j p)
      = BitVec.ofNat 32 j.val := by
    rw [col_apply, iota_single_apply]
  have e2 : broadcastTo S256x8192 (subi (labRow x1) (broadcast S1x8192 (Scalar.muli (Scf.iv 0#32 1#32 k) 256#32)) : IVec S1x8192 32)
        broadcasts_S1x8192_S256x8192 (ix2 j p)
      = x1 (ix3 0 0 p) - (0#32 + BitVec.ofNat 32 k.val * 1#32) * 256#32 := by
    rw [broadcastTo_1b_ab_apply]
    show labRow x1 (ix2 0 p) - _ = _
    unfold labRow
    rw [row_apply]
    rfl
  have hk5 : k.val < 5 := lt_of_lt_of_le k.isLt k0_t1_abs.2.1
  unfold hitTab tileHit
  show FloatOps.sitofp (F := Ideal) .f32 ((BitVec.ofBool
      (broadcastTo S256x8192 (iota .tc S256x1 32 [0] iota_S256x1_d0_w32 : IVec S256x1 32) broadcasts_S256x1_S256x8192 (ix2 j p)
        == broadcastTo S256x8192 (subi (labRow x1) (broadcast S1x8192 (Scalar.muli (Scf.iv 0#32 1#32 k) 256#32)) : IVec S1x8192 32)
          broadcasts_S1x8192_S256x8192 (ix2 j p))).setWidth 32) = _
  rw [e1, e2, sitofp_bit]
  by_cases h : (x1 (ix3 0 0 p)).toNat = k.val * 256 + j.val
  · rw [if_pos h, if_pos]
    exact beq_iff_eq.2 ((hit_iff _ _ _ hk5 j.isLt).2 h)
  · rw [if_neg h, if_neg]
    intro hb
    exact h ((hit_iff _ _ _ hk5 j.isLt).1 (beq_iff_eq.1 hb))

/-! ## The product table -/

/-- The product of a `22 x 8192` and a `256 x 8192` table along their second axes, into zeros: entry `(i, j)` is the sum
    over the 8192 positions of the products of row `i` of the first and row `j` of the second. -/
theorem prod_apply (A : FVec Ideal S22x8192 .bf16) (B : FVec Ideal S256x8192 .bf16) (i : Fin 22) (j : Fin 256) :
    matmul dot_S22x8192_S256x8192_S22x256_1_1_0_0_n_n none A B (constant S22x256 .f32 0x00000000#32) (ix2 i j)
      = ∑ p : Fin 8192, A (ix2 i p) * B (ix2 j p) := by
  show FloatOps.matmul dot_S22x8192_S256x8192_S22x256_1_1_0_0_n_n none A B (constant (F := Ideal) S22x256 .f32 0x00000000#32) (ix2 i j) = _
  rw [Ideal.matmul_constant_zero_apply,
    ← Equiv.sum_comp (contrEquiv1 dot_S22x8192_S256x8192_S22x256_1_1_0_0_n_n 8192 rfl rfl).symm]
  refine Finset.sum_congr rfl fun c _ => ?_
  have c2 := contrEquiv1_symm_val dot_S22x8192_S256x8192_S22x256_1_1_0_0_n_n 8192 rfl rfl c
  have l2 : dot_S22x8192_S256x8192_S22x256_1_1_0_0_n_n.lhsIdx (ix2 i j) ((contrEquiv1 _ 8192 rfl rfl).symm c) = ix2 i c := by
    funext ax; apply Fin.ext
    match ax with
    | ⟨0, _⟩ => simp [DotDims.lhsIdx, dot_S22x8192_S256x8192_S22x256_1_1_0_0_n_n]; rfl
    | ⟨1, _⟩ => simp [DotDims.lhsIdx, dot_S22x8192_S256x8192_S22x256_1_1_0_0_n_n]; exact c2
  have r2 : dot_S22x8192_S256x8192_S22x256_1_1_0_0_n_n.rhsIdx (ix2 i j) ((contrEquiv1 _ 8192 rfl rfl).symm c) = ix2 j c := by
    funext ax; apply Fin.ext
    match ax with
    | ⟨0, _⟩ => simp [DotDims.rhsIdx, dot_S22x8192_S256x8192_S22x256_1_1_0_0_n_n]; rfl
    | ⟨1, _⟩ => simp [DotDims.rhsIdx, dot_S22x8192_S256x8192_S22x256_1_1_0_0_n_n]; exact c2
  rw [l2, r2]

section Cat2
variable (a b : FVec Ideal S11x8192 .bf16)

/-- Two pieces of 11 rows stacked: row `r < 11` is the first piece's row `r`. -/
theorem cat2_left (i : Fin 22) (r : Fin 11) (p : Fin 8192) (hi : i.val = r.val) :
    concatenate S22x8192 0 [⟨S11x8192, a⟩, ⟨S11x8192, b⟩] concatenates_S11x8192_S11x8192_S22x8192_d0 (ix2 i p) = a (ix2 r p) :=
  concatenate_pair_apply_left (α := EReal) (t := S22x8192) 0 a b concatenates_S11x8192_S11x8192_S22x8192_d0 (ix2 i p) rfl (ix2 r p)
    (fun ax => match ax with
      | ⟨0, _⟩ => hi.symm
      | ⟨1, _⟩ => rfl)

/-- Two pieces of 11 rows stacked: row `11 + r` is the second piece's row `r`. -/
theorem cat2_right (i : Fin 22) (r : Fin 11) (p : Fin 8192) (hi : i.val = 11 + r.val) :
    concatenate S22x8192 0 [⟨S11x8192, a⟩, ⟨S11x8192, b⟩] concatenates_S11x8192_S11x8192_S22x8192_d0 (ix2 i p) = b (ix2 r p) :=
  concatenate_pair_apply_right (α := EReal) (t := S22x8192) 0 a b concatenates_S11x8192_S11x8192_S22x8192_d0 (ix2 i p) rfl rfl (ix2 r p)
    (fun ax => match ax with
      | ⟨0, _⟩ => fun hb => absurd (Fin.ext rfl) hb
      | ⟨1, _⟩ => fun _ => rfl)
    (by show r.val + 11 = i.val; omega)

end Cat2

/-- Row `r` of the product's upper half at label column `j`: quantity `r` summed over the pixels carrying label `256 k + j`. -/
theorem prodTab_hi (x0 : Vec Ideal S1x4x8192 .f32) (x1 : Vec Ideal S1x1x8192 .i32) (x2 : Vec Ideal S1x1x8192 .f32)
    (k : Fin k0_t1_loop.trips) (r : Fin 11) (j : Fin 256) (i : Fin 22) (hi : i.val = r.val) :
    prodTab x0 x1 x2 k (ix2 i j) = ∑ p : Fin 8192, tileRow x0 x2 r p * tileHit x1 (k.val * 256 + j.val) p := by
  unfold prodTab
  rw [prod_apply]
  refine Finset.sum_congr rfl fun p _ => ?_
  rw [cat2_left _ _ i r p hi, hitTab_apply]
  show qTab x0 x2 (ix2 r p) * _ = _
  rw [qTab_apply]

/-- Row `r` of the product's lower half: the same sum of the quantity's difference from itself. -/
theorem prodTab_lo (x0 : Vec Ideal S1x4x8192 .f32) (x1 : Vec Ideal S1x1x8192 .i32) (x2 : Vec Ideal S1x1x8192 .f32)
    (k : Fin k0_t1_loop.trips) (r : Fin 11) (j : Fin 256) (i : Fin 22) (hi : i.val = 11 + r.val) :
    prodTab x0 x1 x2 k (ix2 i j)
      = ∑ p : Fin 8192, (tileRow x0 x2 r p - tileRow x0 x2 r p) * tileHit x1 (k.val * 256 + j.val) p := by
  unfold prodTab
  rw [prod_apply]
  refine Finset.sum_congr rfl fun p _ => ?_
  rw [cat2_right _ _ i r p hi, hitTab_apply]
  show (qTab x0 x2 (ix2 r p) - qTab x0 x2 (ix2 r p)) * _ = _
  rw [qTab_apply]

end Pay

open Pay

/-- The cleared table is zero at every entry. -/
theorem pay1_apply (y : S1x11x1280.Idx) : k0_pay1 (F := Ideal) y = 0 := by
  show Ideal.ofBits .f32 0x00000000#32 = 0
  exact Ideal.ofBits_zero_f32

/-- Entry `(r, j)` of the block pass `k` stores: what it found there plus the tile's contribution to quantity `r` of
    label `256 k + j`. -/
theorem pay2_apply (x0 : Vec Ideal S1x4x8192 .f32) (x1 : Vec Ideal S1x1x8192 .i32) (x2 : Vec Ideal S1x1x8192 .f32)
    (k : Fin k0_t1_loop.trips) (v45 : Vec Ideal S1x11x256 .f32) (r : Fin 11) (j : Fin 256) :
    k0_pay2 (F := Ideal) x0 x1 x2 k v45 (ix3 0 r j)
      = v45 (ix3 0 r j) + tilePart x0 x1 x2 r (k.val * 256 + j.val) := by
  have hr := r.isLt
  rw [pay2_eq]
  refine (shapeCast_ab_1ab_apply _ _ 0 r j).trans ?_
  show shapeCast S11x256 v45 shapeCasts_S1x11x256_S11x256 (ix2 r j)
      + (extractStridedSlice S11x256 ![0, 0] (prodTab x0 x1 x2 k) slices_S22x256_o0_0_S11x256 (ix2 r j)
        + extractStridedSlice S11x256 ![11, 0] (prodTab x0 x1 x2 k) slices_S22x256_o11_0_S11x256 (ix2 r j)) = _
  rw [shapeCast_1ab_ab_apply,
    slice2_axis0_apply 0 (prodTab x0 x1 x2 k) slices_S22x256_o0_0_S11x256 r j ⟨r.val, by omega⟩ (by show r.val = 0 + r.val; omega),
    slice2_axis0_apply 11 (prodTab x0 x1 x2 k) slices_S22x256_o11_0_S11x256 r j ⟨11 + r.val, by omega⟩ rfl,
    prodTab_hi x0 x1 x2 k r j _ rfl, prodTab_lo x0 x1 x2 k r j _ rfl]
  rfl

end Cert.KernelIdeal.KV

end
-- ==== Proof.KTrip.lean ====
import proofs.«411571_j13408887898282_3_alg».proof.Proof.Gen.KernelIdeal.Frame
import proofs.«411571_j13408887898282_3_alg».proof.Proof.KPay
import Idealize.ShloMosaic.Lib.Pipeline.CanonAppend

/-!
# What one grid point leaves in the table of grouped sums

A grid point makes five passes, one per block of 256 labels, each adding the tile's contribution to its block of the
table; at the first tile of an image the table is cleared first.  So the table after the point is the table before
it (zero at a first tile) plus the tile's contribution, entry by entry.
-/

set_option maxRecDepth 16384

open scoped BigOperators
open Idealize.ShloMosaic Idealize.ShloMosaic.TcCoe Idealize.ShloMosaic.ValueIdx Idealize.SL.Sem
open Cert.KernelIdeal Cert.KernelIdeal.Gen Cert.SegSpread

noncomputable section

namespace Cert.KernelIdeal.KV

/-! ## The passes: how many, and where each one stores -/

/-- There are five passes. -/
theorem trips_eq : k0_t1_loop.trips = 5 := by decide

/-- A pass's number is below five. -/
theorem pass_lt (k : Fin k0_t1_loop.trips) : k.val < 5 := Nat.lt_of_lt_of_le k.isLt k0_t1_abs.2.1

/-- An entry is in pass `k`'s block exactly when its label is one of `256 k … 256 k + 255`. -/
theorem mem_passRect (k : Fin k0_t1_loop.trips) (y : (⟨3, ![1, 11, 1280]⟩ : Shape).Idx) :
    y ∈ (Rect.unit (s := S1x11x1280) (k0_off1 k) S1x11x256.size (k0_off1_inb k)).set
      ↔ 256 * k.val ≤ (y 2).val ∧ (y 2).val < 256 * k.val + 256 := by
  rw [Rect.mem_set_unit, k0_off1_eq]
  constructor
  · intro h
    exact h 2
  · rintro ⟨h1, h2⟩ a
    have h0 : (y 0).val < 1 := (y 0).isLt
    have h11 : (y 1).val < 11 := (y 1).isLt
    match a with
    | ⟨0, _⟩ => exact ⟨Nat.zero_le _, by show (y 0).val < 0 + 1; omega⟩
    | ⟨1, _⟩ => exact ⟨Nat.zero_le _, by show (y 1).val < 0 + 11; omega⟩
    | ⟨2, _⟩ => exact ⟨h1, h2⟩

/-- Entry `(r, j)` of pass `k`'s block is entry `(r, 256 k + j)` of the table. -/
theorem passRect_emb (k : Fin k0_t1_loop.trips) (r : Fin 11) (j : Fin 256) :
    (Rect.unit (s := S1x11x1280) (k0_off1 k) S1x11x256.size (k0_off1_inb k)).emb (ix3 0 r j)
      = ix3 0 r ⟨k.val * 256 + j.val, by have := pass_lt k; omega⟩ := by
  have e := k0_off1_eq k
  funext a
  apply Fin.ext
  rw [Rect.emb_apply]
  show k0_off1 k a + 1 * ((ix3 (0 : Fin 1) r j : (⟨3, ![1, 11, 256]⟩ : Shape).Idx) a).val = _
  rw [e]
  match a with
  | ⟨0, _⟩ => show 0 + 1 * 0 = 0; rfl
  | ⟨1, _⟩ => show 0 + 1 * r.val = r.val; omega
  | ⟨2, _⟩ => show 256 * k.val + 1 * j.val = k.val * 256 + j.val; omega

/-! ## One pass -/

/-- An entry of a table with one image is its quantity and its label. -/
theorem exists_ix3 {n1 n2 : ℕ} (x : (⟨3, ![1, n1, n2]⟩ : Shape).Idx) :
    ∃ (r : Fin n1) (j : Fin n2), x = ix3 0 r j := by
  refine ⟨⟨(x 1).val, (x 1).isLt⟩, ⟨(x 2).val, (x 2).isLt⟩, ?_⟩
  funext a
  match a with
  | ⟨0, _⟩ =>
    apply Fin.ext
    have h : (x 0).val < 1 := (x 0).isLt
    show (x 0).val = 0
    omega
  | ⟨1, _⟩ => rfl
  | ⟨2, _⟩ => rfl

/-- Pass `k` makes one store: through its block, of the payload computed from the block it found there. -/
theorem tripL_eq {F : FTy → Type} [FloatOps F] (𝒱 : Variants) (c : Dev nD) (bd : Option 𝒱.V) (i : grid0.Coords)
    (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole)
    (x0 : Vec F S1x4x8192 .f32) (x1 : Vec F S1x1x8192 .i32) (x2 : Vec F S1x1x8192 .f32)
    (k : Fin k0_t1_loop.trips) (f : BufTy.Contents (Elt F) arg5.view.ty) :
    tripL_k0_t1 (F := F) 𝒱 c bd i arg2 harg2 arg3 harg3 arg4 harg4 arg5 harg5 x0 x1 x2 k f
      = [(⟨(Rect.unit (s := S1x11x1280) (k0_off1 k) S1x11x256.size (k0_off1_inb k)),
           k0_pay2 x0 x1 x2 k (arg5.view.readAt (Elt F) (Rect.unit (s := S1x11x1280) (k0_off1 k) S1x11x256.size (k0_off1_inb k)).toLoadRect f)⟩ :
            View.Piece (Elt F) S1x11x1280 .f32)] := by
  unfold tripL_k0_t1 trip_k0_t1
  rfl

/-- The stored block of pass `k`, when the block it found is the table `prev` at the block's entries: the table after
    the tile, at the block's entries. -/
theorem pass_payload (x0 : Vec Ideal S1x4x8192 .f32) (x1 : Vec Ideal S1x1x8192 .i32) (x2 : Vec Ideal S1x1x8192 .f32)
    (k : Fin k0_t1_loop.trips) (W : Vec Ideal S1x11x256 .f32) (prev : (⟨3, ![1, 11, 1280]⟩ : Shape).Idx → EReal)
    (hW : ∀ (r : Fin 11) (j : Fin 256), W (ix3 0 r j) = prev ((Rect.unit (s := S1x11x1280) (k0_off1 k) S1x11x256.size (k0_off1_inb k)).emb (ix3 0 r j)))
    (x : (⟨3, ![1, 11, 256]⟩ : Shape).Idx) :
    k0_pay2 (F := Ideal) x0 x1 x2 k W x = tileAcc x0 x1 x2 prev ((Rect.unit (s := S1x11x1280) (k0_off1 k) S1x11x256.size (k0_off1_inb k)).emb x) := by
  obtain ⟨r, j, rfl⟩ := exists_ix3 x
  rw [pay2_apply, hW, passRect_emb]
  rfl

/-! ## The passes one after another -/

/-- After `n` passes over a table holding `prev`: every store made lies in the first `256 n` labels and holds the
    table after the tile at its entries, and every entry of the first `256 n` labels is in some store. -/
theorem passes_inv (𝒱 : Variants) (c : Dev nD) (bd : Option 𝒱.V) (i : grid0.Coords)
    (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole)
    (x0 : Vec Ideal S1x4x8192 .f32) (x1 : Vec Ideal S1x1x8192 .i32) (x2 : Vec Ideal S1x1x8192 .f32)
    (G : BufTy.Contents (Elt Ideal) arg5.view.ty) :
    ∀ n : ℕ, n ≤ k0_t1_loop.trips →
      (∀ p ∈ pb_k0_t1 (F := Ideal) 𝒱 c bd i arg2 harg2 arg3 harg3 arg4 harg4 arg5 harg5 x0 x1 x2 G n,
          (∀ y : (⟨3, ![1, 11, 1280]⟩ : Shape).Idx, y ∈ p.1.set → (y 2).val < 256 * n) ∧
          ∀ x : p.1.shape.Idx, p.2 x = tileAcc x0 x1 x2 (arg5.view.read (Elt Ideal) G) (p.1.emb x)) ∧
      (∀ y : (⟨3, ![1, 11, 1280]⟩ : Shape).Idx, (y 2).val < 256 * n →
          ∃ p ∈ pb_k0_t1 (F := Ideal) 𝒱 c bd i arg2 harg2 arg3 harg3 arg4 harg4 arg5 harg5 x0 x1 x2 G n, y ∈ p.1.set) := by
  intro n
  induction n with
  | zero =>
    intro _
    refine ⟨fun p hp => ?_, fun y hy => ?_⟩
    · exact absurd hp List.not_mem_nil
    · exact absurd hy (by omega)
  | succ n ih =>
    intro hn
    have hn' : n < k0_t1_loop.trips := hn
    obtain ⟨ihP, ihC⟩ := ih (Nat.le_of_lt hn')
    have e : pb_k0_t1 (F := Ideal) 𝒱 c bd i arg2 harg2 arg3 harg3 arg4 harg4 arg5 harg5 x0 x1 x2 G (n + 1)
        = tripL_k0_t1 (F := Ideal) 𝒱 c bd i arg2 harg2 arg3 harg3 arg4 harg4 arg5 harg5 x0 x1 x2 ⟨n, hn'⟩
            (arg5.view.writes (Elt Ideal) G (pb_k0_t1 (F := Ideal) 𝒱 c bd i arg2 harg2 arg3 harg3 arg4 harg4 arg5 harg5 x0 x1 x2 G n))
          ++ pb_k0_t1 (F := Ideal) 𝒱 c bd i arg2 harg2 arg3 harg3 arg4 harg4 arg5 harg5 x0 x1 x2 G n :=
      pb_k0_t1_succ (F := Ideal) 𝒱 c bd i arg2 harg2 arg3 harg3 arg4 harg4 arg5 harg5 x0 x1 x2 G ⟨n, hn'⟩
    rw [e, tripL_eq]
    generalize pb_k0_t1 (F := Ideal) 𝒱 c bd i arg2 harg2 arg3 harg3 arg4 harg4 arg5 harg5 x0 x1 x2 G n = L at ihP ihC ⊢
    generalize hk : (⟨n, hn'⟩ : Fin k0_t1_loop.trips) = k
    have hkv : k.val = n := by rw [← hk]
    refine ⟨fun p hp => ?_, fun y hy => ?_⟩
    · rcases List.mem_append.mp hp with hp | hp
      · obtain rfl := List.mem_singleton.mp hp
        refine ⟨fun y hy => ?_, fun x => ?_⟩
        · have := (mem_passRect k y).mp hy
          omega
        · refine pass_payload x0 x1 x2 k _ _ (fun r j => ?_) x
          rw [View.readAt_apply]
          refine View.read_writes_apply_of_forall_not_mem _ _ _ L (fun q hq hy => ?_)
          have h1 := (ihP q hq).1 _ hy
          have h2 : (((Rect.unit (s := S1x11x1280) (k0_off1 k) S1x11x256.size (k0_off1_inb k)).emb (ix3 0 r j)) 2).val = k.val * 256 + j.val := by
            rw [passRect_emb]
          have h3 : ((Rect.unit (s := S1x11x1280) (k0_off1 k) S1x11x256.size (k0_off1_inb k)).toLoadRect.idx (ix3 0 r j)) = (Rect.unit (s := S1x11x1280) (k0_off1 k) S1x11x256.size (k0_off1_inb k)).emb (ix3 0 r j) := rfl
          rw [h3, h2] at h1
          omega
      · obtain ⟨h1, h2⟩ := ihP p hp
        exact ⟨fun y hy => by have := h1 y hy; omega, h2⟩
    · by_cases hy' : (y 2).val < 256 * n
      · obtain ⟨p, hp, hyp⟩ := ihC y hy'
        exact ⟨p, List.mem_append_right _ hp, hyp⟩
      · exact ⟨_, List.mem_append_left _ (List.mem_singleton_self _), (mem_passRect k y).mpr (by omega)⟩

/-! ## The stores of a grid point -/

/-- The zero offsets, as the constant function. -/
theorem off3_zero : (![0, 0, 0] : Fin 3 → ℕ) = fun _ => 0 := by
  funext a
  match a with
  | ⟨0, _⟩ => rfl
  | ⟨1, _⟩ => rfl
  | ⟨2, _⟩ => rfl

/-- At a later tile the stores are those of the five passes over the table the tile before left. -/
theorem runB_list (c : Dev nD) (i : grid0.Coords)
    (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole) (hc0 : ¬cond0_0 i)
    (x0 : Vec Ideal S1x4x8192 .f32) (x1 : Vec Ideal S1x1x8192 .i32) (x2 : Vec Ideal S1x1x8192 .f32)
    (xo3 : Vec Ideal S1x11x1280 .f32) :
    (kernelRun0_B (F := Ideal) c i arg2 harg2 arg3 harg3 arg4 harg4 arg5 harg5 hc0 x0 x1 x2 xo3).1
      = pb_k0_t1 (F := Ideal) Variants.none c none i arg2 harg2 arg3 harg3 arg4 harg4 arg5 harg5 x0 x1 x2 (harg5.unread xo3)
          k0_t1_loop.trips := by
  unfold kernelRun0_B
  dsimp only
  simp only [View.readAt_eq_ld, harg2.read_unread, harg3.read_unread, harg4.read_unread,
    View.ld_unit_zero (S := S1x4x8192) off3_zero, View.ld_unit_zero (S := S1x1x8192) off3_zero]

open Idealize.ShloMosaic.Tactic in
/-- At a first tile the stores are the clearing store, then those of the five passes over the cleared table. -/
theorem runA_list (c : Dev nD) (i : grid0.Coords)
    (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole) (hc0 : cond0_0 i)
    (x0 : Vec Ideal S1x4x8192 .f32) (x1 : Vec Ideal S1x1x8192 .i32) (x2 : Vec Ideal S1x1x8192 .f32) :
    (kernelRun0_A (F := Ideal) c i arg2 harg2 arg3 harg3 arg4 harg4 arg5 harg5 hc0 x0 x1 x2).1
      = pb_k0_t1 (F := Ideal) Variants.none c none i arg2 harg2 arg3 harg3 arg4 harg4 arg5 harg5 x0 x1 x2
          (arg5.view.writes (Elt Ideal) arg5.view.junk
            [(⟨Rect.unit (s := S1x11x1280) ![0, 0, 0] S1x11x1280.size inb_S1x11x1280_S1x11x1280_0_0_0, k0_pay1 (F := Ideal)⟩ :
            View.Piece (Elt Ideal) S1x11x1280 .f32)])
          k0_t1_loop.trips
        ++ [(⟨Rect.unit (s := S1x11x1280) ![0, 0, 0] S1x11x1280.size inb_S1x11x1280_S1x11x1280_0_0_0, k0_pay1 (F := Ideal)⟩ :
            View.Piece (Elt Ideal) S1x11x1280 .f32)] := by
  unfold kernelRun0_A
  dsimp only
  sl_unfold_words
  simp only [View.readAt_eq_ld, harg2.read_unread, harg3.read_unread, harg4.read_unread,
    View.ld_unit_zero (S := S1x4x8192) off3_zero, View.ld_unit_zero (S := S1x1x8192) off3_zero]

/-- Every label is below `256` times the number of passes. -/
theorem label_lt (y : (⟨3, ![1, 11, 1280]⟩ : Shape).Idx) : (y 2).val < 256 * k0_t1_loop.trips := by
  have h : (y 2).val < 1280 := (y 2).isLt
  rw [trips_eq]
  omega

/-- At a first tile: the cleared table plus the tile's contribution. -/
theorem out0_A_3_eq (c : Dev nD) (i : grid0.Coords) (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole) (hc0 : cond0_0 i)
    (x0 : Vec Ideal S1x4x8192 .f32) (x1 : Vec Ideal S1x1x8192 .i32) (x2 : Vec Ideal S1x1x8192 .f32) :
    out0_A_3 (F := Ideal) c i arg2 harg2 arg3 harg3 arg4 harg4 arg5 harg5 hc0 x0 x1 x2
      = tileAcc x0 x1 x2 (fun _ => 0) := by
  unfold out0_A_3
  rw [runA_list, View.writes_append]
  obtain ⟨hP, hC⟩ := passes_inv Variants.none c none i arg2 harg2 arg3 harg3 arg4 harg4 arg5 harg5 x0 x1 x2
    (arg5.view.writes (Elt Ideal) arg5.view.junk
      [(⟨Rect.unit (s := S1x11x1280) ![0, 0, 0] S1x11x1280.size inb_S1x11x1280_S1x11x1280_0_0_0, k0_pay1 (F := Ideal)⟩ :
            View.Piece (Elt Ideal) S1x11x1280 .f32)])
    k0_t1_loop.trips le_rfl
  have hprev : arg5.view.read (Elt Ideal) (arg5.view.writes (Elt Ideal) arg5.view.junk
      [(⟨Rect.unit (s := S1x11x1280) ![0, 0, 0] S1x11x1280.size inb_S1x11x1280_S1x11x1280_0_0_0, k0_pay1 (F := Ideal)⟩ :
            View.Piece (Elt Ideal) S1x11x1280 .f32)]) = fun _ => 0 := by
    rw [View.read_writes_junk_eq_canon, View.canon_unit_zero off3_zero]
    funext y
    exact pay1_apply y
  rw [hprev] at hP
  funext y
  exact View.read_writes_apply_of_pieces VO0_3 _ (tileAcc x0 x1 x2 (fun _ => 0)) _ (fun p hp => (hP p hp).2) y
    (hC y (label_lt y))

/-- At a later tile: the table the tile before left plus the tile's contribution. -/
theorem out0_B_3_eq (c : Dev nD) (i : grid0.Coords) (arg2 : Memref sig .tc .vmem S1x4x8192 .f32) (harg2 : arg2.IsWhole)
    (arg3 : Memref sig .tc .vmem S1x1x8192 .i32) (harg3 : arg3.IsWhole) (arg4 : Memref sig .tc .vmem S1x1x8192 .f32)
    (harg4 : arg4.IsWhole) (arg5 : Memref sig .tc .vmem S1x11x1280 .f32) (harg5 : arg5.IsWhole) (hc0 : ¬cond0_0 i)
    (x0 : Vec Ideal S1x4x8192 .f32) (x1 : Vec Ideal S1x1x8192 .i32) (x2 : Vec Ideal S1x1x8192 .f32)
    (xo3 : Vec Ideal S1x11x1280 .f32) :
    out0_B_3 (F := Ideal) c i arg2 harg2 arg3 harg3 arg4 harg4 arg5 harg5 hc0 x0 x1 x2 xo3
      = tileAcc x0 x1 x2 xo3 := by
  unfold out0_B_3
  rw [runB_list]
  obtain ⟨hP, hC⟩ := passes_inv Variants.none c none i arg2 harg2 arg3 harg3 arg4 harg4 arg5 harg5 x0 x1 x2 (harg5.unread xo3)
    k0_t1_loop.trips le_rfl
  rw [harg5.read_unread] at hP
  funext y
  exact View.read_writes_apply_of_pieces VO0_3 _ (tileAcc x0 x1 x2 xo3) _ (fun p hp => (hP p hp).2) y
    (hC y (label_lt y))

end Cert.KernelIdeal.KV

end
-- ==== Proof.KAccum.lean ====
import proofs.«411571_j13408887898282_3_alg».proof.Proof.Gen.KernelIdeal.Frame
import proofs.«411571_j13408887898282_3_alg».proof.Proof.KTrip

/-!
# The table of grouped sums after each grid point

Grid point `t` is tile `t % 128` of image `t / 128`.  After it the table holds the contributions of the image's
tiles `0 … t % 128`: cleared at the image's first tile, then one contribution added per tile.
-/

set_option maxRecDepth 16384

open scoped BigOperators
open Idealize.ShloMosaic Idealize.ShloMosaic.TcCoe Idealize.ShloMosaic.ValueIdx Idealize.SL.Sem
open Cert.KernelIdeal Cert.KernelIdeal.Gen Cert.SegSpread

noncomputable section

namespace Cert.KernelIdeal.KV

variable (m : (ℓ : Loc nD τ sig) → Buf (Elt Ideal) ℓ)

/-- The contribution of the tile at grid point `n` to quantity `r` of label `g`, from the blocks the point is given
    (zero past the grid). -/
def partAt (c : Dev nD) (n : ℕ) (r : Fin 11) (g : ℕ) : EReal :=
  if h : n < cfg0.N then
    tilePart (iblk (F := Ideal) m c 0 ⟨n, h⟩) (iblk (F := Ideal) m c 1 ⟨n, h⟩) (iblk (F := Ideal) m c 2 ⟨n, h⟩) r g
  else 0

/-- Within the grid the contribution is the tile's, from the point's own blocks. -/
theorem partAt_fin (c : Dev nD) (t : Fin cfg0.N) (r : Fin 11) (g : ℕ) :
    partAt m c t.val r g
      = tilePart (iblk (F := Ideal) m c 0 t) (iblk (F := Ideal) m c 1 t) (iblk (F := Ideal) m c 2 t) r g := by
  unfold partAt
  rw [dif_pos t.isLt]

/-- At an image's first tile the table is the tile's contribution alone. -/
theorem outsAt0_first (c : Dev nD) (t : Fin cfg0.N) (h0 : t.val % 128 = 0) (y : S1x11x1280.Idx) :
    outsAt0 (F := Ideal) m c t.val t.isLt y = partAt m c t.val ⟨(y 1).val, (y 1).isLt⟩ (y 2).val := by
  rw [outsAt0_A m c t h0,
    out0_A_3_eq c (grid0.coords t) (ms0_0 t) (hs0_0 t) (ms0_1 t) (hs0_1 t) (ms0_2 t) (hs0_2 t) (ms0_3 t) (hs0_3 t)
      ((hcond0_0 t).mpr h0) (iblk (F := Ideal) m c 0 t) (iblk (F := Ideal) m c 1 t) (iblk (F := Ideal) m c 2 t),
    partAt_fin m c t]
  exact zero_add _

/-- At a later tile the table is the one the tile before left plus the tile's contribution. -/
theorem outsAt0_later (c : Dev nD) (t : Fin cfg0.N) (h0 : ¬t.val % 128 = 0) (y : S1x11x1280.Idx) :
    outsAt0 (F := Ideal) m c t.val t.isLt y
      = outsAt0 (F := Ideal) m c (t.val - 1) (Nat.lt_of_le_of_lt (Nat.sub_le _ _) t.isLt) y
        + partAt m c t.val ⟨(y 1).val, (y 1).isLt⟩ (y 2).val := by
  rw [outsAt0_B m c t h0,
    out0_B_3_eq c (grid0.coords t) (ms0_0 t) (hs0_0 t) (ms0_1 t) (hs0_1 t) (ms0_2 t) (hs0_2 t) (ms0_3 t) (hs0_3 t)
      (fun h => h0 ((hcond0_0 t).mp h)) (iblk (F := Ideal) m c 0 t) (iblk (F := Ideal) m c 1 t)
      (iblk (F := Ideal) m c 2 t) (outsAt0 (F := Ideal) m c (t.val - 1) (Nat.lt_of_le_of_lt (Nat.sub_le _ _) t.isLt)),
    partAt_fin m c t]
  rfl

/-- The closed form over the point's number: by induction, a first tile starting the sum afresh and a later tile
    adding one term to the sum of the tile before (same image, remainder one less). -/
theorem outsAt0_closed_nat (c : Dev nD) (y : S1x11x1280.Idx) : ∀ (n : ℕ) (hn : n < cfg0.N),
    outsAt0 (F := Ideal) m c n hn y
      = ∑ i ∈ Finset.range (n % 128 + 1), partAt m c (n / 128 * 128 + i) ⟨(y 1).val, (y 1).isLt⟩ (y 2).val := by
  intro n
  induction n with
  | zero =>
    intro hn
    rw [outsAt0_first m c ⟨0, hn⟩ (Nat.zero_mod _) y]
    simp
  | succ n ih =>
    intro hn
    by_cases h0 : (n + 1) % 128 = 0
    · rw [outsAt0_first m c ⟨n + 1, hn⟩ h0 y, h0, Finset.sum_range_one]
      have h1 : (n + 1) / 128 * 128 + 0 = n + 1 := by omega
      rw [h1]
    · rw [outsAt0_later m c ⟨n + 1, hn⟩ h0 y]
      have h1 : (n + 1) % 128 = n % 128 + 1 := by omega
      have h2 : (n + 1) / 128 = n / 128 := by omega
      have h3 : n / 128 * 128 + (n % 128 + 1) = n + 1 := by omega
      rw [h1, h2, Finset.sum_range_succ, h3, ← ih (Nat.lt_of_succ_lt hn)]
      rfl

/-- After grid point `t` the table holds the contributions of its image's tiles up to its own. -/
theorem outsAt0_closed (c : Dev nD) (t : Fin cfg0.N) (y : S1x11x1280.Idx) :
    outsAt0 (F := Ideal) m c t.val t.isLt y
      = ∑ i ∈ Finset.range (t.val % 128 + 1), partAt m c (t.val / 128 * 128 + i) ⟨(y 1).val, (y 1).isLt⟩ (y 2).val :=
  outsAt0_closed_nat m c y t.val t.isLt

end Cert.KernelIdeal.KV

end
-- ==== Proof.LibMoments.lean ====
import Mathlib.Data.EReal.Inv
import Mathlib.Data.Fintype.BigOperators
import Mathlib.Algebra.BigOperators.Fin
import Mathlib.Algebra.Order.BigOperators.Group.Finset
import Mathlib.Logic.Equiv.Fin.Basic
import Mathlib.Tactic.FieldSimp
import Mathlib.Tactic.Ring
import Mathlib.Tactic.Positivity
import Idealize.ShloMosaic.PureOps.Ideal

/-!
# Batch-norm moments on the extended reals

A batch normalisation needs the mean and the (biased) variance of a finite family
of numbers. One program computes the variance as E[f²] − E[f]², multiplying the two
sums by the reciprocal 1/n; the other computes it as E[(f − E f)²], dividing by n.
On the extended reals the two agree only where nothing is infinite (at an infinity
one side meets ∞ − ∞), so the identity is proved for finite families: real witnesses
are chosen, the coercion ℝ → EReal is pushed outwards through products, differences
and finite sums, and the statement is closed in ℝ.

Also here: the variance is a finite real ≥ 0, so adding a positive ε and taking the
reciprocal square root stays finite and positive; and a sum over n = nb · bk indices
is the sum, over nb blocks, of the bk-term block sums, which is what a running
accumulator carried over the blocks holds at the end.
-/

open scoped BigOperators
open Idealize.ShloMosaic

noncomputable section

namespace Cert.Moments

/-! ### The coercion ℝ → EReal through a finite sum -/

/-- The sum of the coercions of finitely many reals is the coercion of their sum:
    the coercion is additive, by induction on the index set. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-! ### The mean -/

/-- A sum times the reciprocal of a nonzero real n is the sum divided by n, at the
    infinities too (no finiteness is needed). -/
theorem mean_mul_eq_div {ι : Type*} [Fintype ι] (f : ι → EReal) {n : ℝ} (hn : n ≠ 0) :
    (∑ i, f i) * ((1 / n : ℝ) : EReal) = Ideal.div (∑ i, f i) (n : EReal) :=
  (Ideal.div_coe hn _).symm

/-- The same for any extended real in place of the sum. -/
theorem mul_inv_eq_div (x : EReal) {n : ℝ} (hn : n ≠ 0) :
    x * ((1 / n : ℝ) : EReal) = Ideal.div x (n : EReal) :=
  (Ideal.div_coe hn x).symm

/-! ### The variance identity, in ℝ -/

/-- E[r²] − E[r]² = E[(r − E r)²] for n = |ι| real numbers, with every mean written
    as a product with 1/n. Expanding the square, the cross term is −2·m·S and the
    constant term is n·m², and S/n = m. -/
theorem real_variance_identity {ι : Type*} [Fintype ι] (r : ι → ℝ) {n : ℝ}
    (hcard : (Fintype.card ι : ℝ) = n) (hn : n ≠ 0) :
    (∑ i, r i * r i) * (1 / n) - ((∑ i, r i) * (1 / n)) * ((∑ i, r i) * (1 / n))
      = (∑ i, (r i - (∑ i, r i) * (1 / n)) * (r i - (∑ i, r i) * (1 / n))) * (1 / n) := by
  generalize hS : (∑ i, r i) = S
  generalize hm : S * (1 / n) = m
  have hexp : ∑ i, (r i - m) * (r i - m) = (∑ i, r i * r i) - 2 * m * S + n * (m * m) := by
    have h1 : ∀ i, (r i - m) * (r i - m) = r i * r i - 2 * m * r i + m * m := fun i => by ring
    simp only [h1, Finset.sum_add_distrib, Finset.sum_sub_distrib, ← Finset.mul_sum,
      Finset.sum_const, Finset.card_univ, nsmul_eq_mul, hcard, hS]
    ring
  rw [hexp, ← hm]
  field_simp
  ring

/-- The centred second moment of real numbers, divided by a positive n, is ≥ 0:
    a sum of squares times a positive number. -/
theorem real_centred_moment_nonneg {ι : Type*} [Fintype ι] (r : ι → ℝ) (m : ℝ) {n : ℝ} (hn : 0 < n) :
    0 ≤ (∑ i, (r i - m) * (r i - m)) * (1 / n) :=
  mul_nonneg (Finset.sum_nonneg fun i _ => mul_self_nonneg _) (by positivity)

/-! ### The variance identity, on the extended reals -/

/-- THE VARIANCE IDENTITY. For a family f of n = |ι| FINITE extended reals and
    m := (∑ f) · (1/n):  (∑ f²) · (1/n) − m · m = (∑ (f − m) · (f − m)) / n.
    Left: the mean of squares minus the squared mean, each mean a product with the
    reciprocal 1/n. Right: the mean of the squared deviations, a division by n, the
    square written as the product of the deviation with itself. False at an
    infinity (the left side meets ∞ − ∞), hence the finiteness. -/
theorem variance_identity {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - (∑ i, f i) * ((1 / n : ℝ) : EReal))
                        * (f i - (∑ i, f i) * ((1 / n : ℝ) : EReal))) (n : EReal) := by
  choose r hr using hf
  obtain rfl : f = fun i => (r i : EReal) := funext hr
  rw [Ideal.div_coe hn]
  simp only [← EReal.coe_mul, coe_sum, ← EReal.coe_sub]
  exact congrArg _ (real_variance_identity r hcard hn)

/-- The variance identity with the mean on the right written as a DIVISION by n, as a
    program that divides (rather than multiplies by a reciprocal) writes it:
    (∑ f²)·(1/n) − m·m = (∑ (f − μ)·(f − μ)) / n  with m = (∑ f)·(1/n), μ = (∑ f)/n. -/
theorem variance_identity_div {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        - ((∑ i, f i) * ((1 / n : ℝ) : EReal)) * ((∑ i, f i) * ((1 / n : ℝ) : EReal))
      = Ideal.div (∑ i, (f i - Ideal.div (∑ i, f i) (n : EReal))
                        * (f i - Ideal.div (∑ i, f i) (n : EReal))) (n : EReal) := by
  rw [← mean_mul_eq_div f hn]
  exact variance_identity f hf hcard hn

/-- The same identity with every subtraction written as the addition of a negation
    (x − y = x + −y on the extended reals, by definition). -/
theorem variance_identity_add_neg {ι : Type*} [Fintype ι] (f : ι → EReal)
    (hf : ∀ i, ∃ r : ℝ, f i = (r : EReal)) {n : ℝ} (hcard : (Fintype.card ι : ℝ) = n) (hn : n ≠ 0) :
    (∑ i, f i * f i) * ((1 / n : ℝ) : EReal)
        + -(((∑ i, f i) * ((1 / n : ℝ) : EReal)) * ((∑ i, f i) * ((1 / n : ℝ) : EReal)))
      = Ideal.div (∑ i, (f i + -((∑ i, f i) * ((1 / n : ℝ) : EReal)))
                        * (f i + -((∑ i, f i) * ((1 / n : ℝ) : EReal)))) (n : EReal) := by
  simpa only [sub_eq_add_neg] using variance_identity f hf hcard hn

/-! ### The variance is a finite real ≥ 0 -/

/-- n = |ι| as a real, if nonzero, is positive. -/
theorem card_pos_of_ne_zero {ι : Type*} [Fintype ι] {n : ℝ} (hcard : (Fintype.card ι : ℝ) = n) (hn : n ≠ 0) :
    0 < n :=
  lt_of_le_of_ne (hcard ▸ Nat.cast_nonneg _) (Ne.symm hn)

/-- The mean of a finite family is finite. -/
theorem mean_finite {ι : Type*} [Fintype ι] (f : ι → EReal)
    (hf : ∀ i, ∃ r : ℝ, f i = (r : EReal)) (n : ℝ) :
    ∃ m : ℝ, (∑ i, f i) * ((1 / n : ℝ) : EReal) = (m : EReal) := by
  choose r hr using hf
  obtain rfl : f = fun i => (r i : EReal) := funext hr
  exact ⟨(∑ i, r i) * (1 / n), by rw [coe_sum, ← EReal.coe_mul]⟩

/-- The centred form of the variance of a finite family — the right-hand side of the
    variance identity — is a finite real ≥ 0. -/
theorem var_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - (∑ i, f i) * ((1 / n : ℝ) : EReal))
                      * (f i - (∑ i, f i) * ((1 / n : ℝ) : EReal))) (n : EReal) = (v : EReal) := by
  choose r hr using hf
  obtain rfl : f = fun i => (r i : EReal) := funext hr
  refine ⟨(∑ i, (r i - (∑ i, r i) * (1 / n)) * (r i - (∑ i, r i) * (1 / n))) * (1 / n),
    real_centred_moment_nonneg r _ (card_pos_of_ne_zero hcard hn), ?_⟩
  rw [Ideal.div_coe hn]
  simp only [← EReal.coe_mul, coe_sum, ← EReal.coe_sub]

/-- The same with the inner mean written as a division by n. -/
theorem var_nonneg_finite_div {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      Ideal.div (∑ i, (f i - Ideal.div (∑ i, f i) (n : EReal))
                      * (f i - Ideal.div (∑ i, f i) (n : EReal))) (n : EReal) = (v : EReal) := by
  rw [← mean_mul_eq_div f hn]
  exact var_nonneg_finite f hf hcard hn

/-- The moment form of the variance — the left-hand side of the variance identity —
    is the same finite real ≥ 0. -/
theorem var_moment_nonneg_finite {ι : Type*} [Fintype ι] (f : ι → EReal)
    (hf : ∀ i, ∃ r : ℝ, f i = (r : EReal)) {n : ℝ} (hcard : (Fintype.card ι : ℝ) = n) (hn : n ≠ 0) :
    ∃ v : ℝ, 0 ≤ v ∧
      (∑ i, f i * f i) * ((1 / n : ℝ) : EReal)
        - ((∑ i, f i) * ((1 / n : ℝ) : EReal)) * ((∑ i, f i) * ((1 / n : ℝ) : EReal)) = (v : EReal) := by
  rw [variance_identity f hf hcard hn]
  exact var_nonneg_finite f hf hcard hn

/-! ### The reciprocal square root of variance plus ε -/

/-- The reciprocal square root of a positive real is the real 1/√x, which is positive. -/
theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

/-- A finite real ≥ 0 plus a positive real ε has a finite, positive reciprocal square root. -/
theorem rsqrt_nonneg_add_pos_finite {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  exact ⟨(Real.sqrt (v + ε))⁻¹, (rsqrt_coe_of_pos hpos).2, by
    rw [← EReal.coe_add]; exact (rsqrt_coe_of_pos hpos).1⟩

/-- So the reciprocal square root of (centred variance + ε), ε > 0, of a finite family
    is a finite positive real. -/
theorem rsqrt_var_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt (Ideal.div (∑ i, (f i - (∑ i, f i) * ((1 / n : ℝ) : EReal))
                                  * (f i - (∑ i, f i) * ((1 / n : ℝ) : EReal))) (n : EReal)
                    + (ε : EReal)) = (s : EReal) := by
  obtain ⟨v, hv, hveq⟩ := var_nonneg_finite f hf hcard hn
  rw [hveq]
  exact rsqrt_nonneg_add_pos_finite hv hε

/-- The same for the moment form (mean of squares minus squared mean) of the variance. -/
theorem rsqrt_var_moment_add_eps_finite {ι : Type*} [Fintype ι] (f : ι → EReal)
    (hf : ∀ i, ∃ r : ℝ, f i = (r : EReal)) {n : ℝ} (hcard : (Fintype.card ι : ℝ) = n) (hn : n ≠ 0)
    {ε : ℝ} (hε : 0 < ε) :
    ∃ s : ℝ, 0 < s ∧
      Ideal.rsqrt ((∑ i, f i * f i) * ((1 / n : ℝ) : EReal)
                    - ((∑ i, f i) * ((1 / n : ℝ) : EReal)) * ((∑ i, f i) * ((1 / n : ℝ) : EReal))
                    + (ε : EReal)) = (s : EReal) := by
  obtain ⟨v, hv, hveq⟩ := var_moment_nonneg_finite f hf hcard hn
  rw [hveq]
  exact rsqrt_nonneg_add_pos_finite hv hε

/-! ### Regrouping a sum into blocks -/

/-- The glued index bk·t + r of row r of block t lies below nb·bk. -/
theorem glue_lt {nb bk : ℕ} (t : Fin nb) (r : Fin bk) : bk * t.val + r.val < nb * bk := by
  have h1 : bk * t.val + r.val < bk * (t.val + 1) := by
    rw [Nat.mul_succ]; exact Nat.add_lt_add_left r.isLt _
  have h2 : bk * (t.val + 1) ≤ bk * nb := Nat.mul_le_mul_left _ t.isLt
  rw [Nat.mul_comm nb bk]
  exact lt_of_lt_of_le h1 h2

/-- A sum over nb·bk indices is the sum over the nb blocks of the bk-term block sums,
    in any additive commutative monoid (no finiteness): the pairs (t, r) and the
    indices bk·t + r correspond one to one. -/
theorem sum_blocks {M : Type*} [AddCommMonoid M] (nb bk : ℕ) (g : Fin (nb * bk) → M) :
    ∑ t : Fin nb, ∑ r : Fin bk, g ⟨bk * t.val + r.val, glue_lt t r⟩ = ∑ i : Fin (nb * bk), g i := by
  rw [← Fintype.sum_prod_type', ← Equiv.sum_comp finProdFinEquiv g]
  refine Fintype.sum_congr _ _ fun p => congrArg g (Fin.ext ?_)
  simp only [finProdFinEquiv_apply_val]
  exact Nat.add_comm _ _

/-- The case of 50000 rows in 10 blocks of 5000. -/
theorem sum_blocks_50000 {M : Type*} [AddCommMonoid M] (g : Fin 50000 → M) :
    ∑ t : Fin 10, ∑ r : Fin 5000, g ⟨5000 * t.val + r.val, by have := t.isLt; have := r.isLt; omega⟩
      = ∑ i : Fin 50000, g i :=
  sum_blocks 10 5000 g

/-- A running accumulator: folding acc ↦ acc + b t over t = 0, …, nb − 1 from a
    leaves a plus the sum of the b t. -/
theorem foldl_add_eq_sum {M : Type*} [AddCommMonoid M] (nb : ℕ) (b : Fin nb → M) (a : M) :
    (List.finRange nb).foldl (fun acc t => acc + b t) a = a + ∑ t : Fin nb, b t := by
  rw [← List.sum_ofFn, List.ofFn_eq_map]
  generalize List.finRange nb = l
  induction l generalizing a with
  | nil => simp
  | cons x l ih => rw [List.foldl_cons, ih, List.map_cons, List.sum_cons, add_assoc]

/-- The same for an accumulator given by its recurrence over the natural numbers:
    if A 0 = a and A (t+1) = A t + b t for each t < nb, then A nb = a + ∑ b. -/
theorem rec_add_eq_sum {M : Type*} [AddCommMonoid M] (nb : ℕ) (b : Fin nb → M) (A : ℕ → M) (a : M)
    (h0 : A 0 = a) (hstep : ∀ t : Fin nb, A (t.val + 1) = A t.val + b t) :
    A nb = a + ∑ t : Fin nb, b t := by
  induction nb with
  | zero => simpa using h0
  | succ k ih =>
    rw [Fin.sum_univ_castSucc, ← add_assoc,
      ← ih (fun t => b t.castSucc) (fun t => by simpa using hstep t.castSucc)]
    simpa using hstep (Fin.last k)

/-- So the accumulator carried over the 10 blocks of 5000 rows, started at 0, ends at
    the sum over all 50000 rows (no finiteness needed). -/
theorem foldl_blocks_50000 {M : Type*} [AddCommMonoid M] (g : Fin 50000 → M) :
    (List.finRange 10).foldl
        (fun acc t => acc + ∑ r : Fin 5000, g ⟨5000 * t.val + r.val, by have := t.isLt; have := r.isLt; omega⟩) 0
      = ∑ i : Fin 50000, g i := by
  rw [foldl_add_eq_sum, zero_add]
  exact sum_blocks_50000 g

end Cert.Moments
-- ==== Proof.TileSum.lean ====
import proofs.«411571_j13408887898282_3_alg».proof.Proof.TileSpec
import proofs.«411571_j13408887898282_3_alg».proof.Proof.LibMoments

/-!
# The tiles of an image add up to the grouped sums

On finite channel values a quantity's difference from itself is zero, so each tile contributes exactly the sum of the
quantity over its pixels carrying the label; the 128 tiles of 8192 pixels are the image's 1048576 pixels, each once.
-/

open scoped BigOperators
open Idealize.ShloMosaic Idealize.ShloMosaic.ValueIdx

noncomputable section

namespace Cert.SegSpread

/-! ## The quantities are real numbers on finite channel values -/

/-- A line weight is the real number one or zero. -/
theorem lineW_real (t : EReal) : ∃ a : ℝ, lineW t = (a : EReal) := by
  unfold lineW
  split_ifs
  · exact ⟨1, EReal.coe_one.symm⟩
  · exact ⟨0, EReal.coe_zero.symm⟩

/-- On finite channel values each of the eleven quantities of a pixel is a real number: one, a channel value, a
    weight, a product of the two, or a finite sum of such products. -/
theorem row_real (x : Fin 8 → Fin 4 → Fin 1048576 → EReal) (v : Fin 8 → Fin 1048576 → EReal)
    (hx : ∀ b c q, ∃ r : ℝ, x b c q = (r : EReal)) (b : Fin 8) (r : Fin 11) (q : Fin 1048576) :
    ∃ a : ℝ, row x v b r q = (a : EReal) := by
  obtain ⟨w, hw⟩ := lineW_real (v b q)
  choose xr hxr using hx
  unfold row
  split_ifs
  · exact ⟨1, EReal.coe_one.symm⟩
  · exact ⟨_, hxr _ _ _⟩
  · exact ⟨w, hw⟩
  · exact ⟨w * xr _ _ _, by rw [hw, hxr, EReal.coe_mul]⟩
  · refine ⟨∑ c : Fin 4, w * xr b c q * xr b c q, ?_⟩
    rw [← Cert.Moments.coe_sum]
    refine Finset.sum_congr rfl fun c _ => ?_
    rw [hw, hxr, EReal.coe_mul, EReal.coe_mul]

/-! ## A tile's blocks read at a pixel of the tile -/

/-- Pixel `p` of tile `i`'s channel block is pixel `i * 8192 + p` of the image. -/
theorem blkX_apply (x : Fin 8 → Fin 4 → Fin 1048576 → EReal) (b : Fin 8) (i : ℕ) (c : Fin 4) (p : Fin 8192)
    (h : i * 8192 + p.val < 1048576) :
    blkX x b i (ix3 0 c p) = x b c ⟨i * 8192 + p.val, h⟩ := by
  show (if h : i * 8192 + p.val < 1048576 then x b c ⟨i * 8192 + p.val, h⟩ else 0) = _
  exact dif_pos h

/-- Pixel `p` of tile `i`'s label block is the label word of pixel `i * 8192 + p` of the image. -/
theorem blkW_apply (lw : Fin 8 → Fin 1048576 → BitVec 32) (b : Fin 8) (i : ℕ) (p : Fin 8192)
    (h : i * 8192 + p.val < 1048576) :
    blkW lw b i (ix3 0 0 p) = lw b ⟨i * 8192 + p.val, h⟩ := by
  show (if h : i * 8192 + p.val < 1048576 then lw b ⟨i * 8192 + p.val, h⟩ else 0) = _
  exact dif_pos h

/-- Pixel `p` of tile `i`'s line block is the line value of pixel `i * 8192 + p` of the image. -/
theorem blkV_apply (v : Fin 8 → Fin 1048576 → EReal) (b : Fin 8) (i : ℕ) (p : Fin 8192)
    (h : i * 8192 + p.val < 1048576) :
    blkV v b i (ix3 0 0 p) = v b ⟨i * 8192 + p.val, h⟩ := by
  show (if h : i * 8192 + p.val < 1048576 then v b ⟨i * 8192 + p.val, h⟩ else 0) = _
  exact dif_pos h

/-- The quantities of pixel `p` of tile `i` are those of pixel `i * 8192 + p` of the image. -/
theorem tileRow_blk (x : Fin 8 → Fin 4 → Fin 1048576 → EReal) (v : Fin 8 → Fin 1048576 → EReal) (b : Fin 8)
    (i : ℕ) (r : Fin 11) (p : Fin 8192) (h : i * 8192 + p.val < 1048576) :
    tileRow (blkX x b i) (blkV v b i) r p = row x v b r ⟨i * 8192 + p.val, h⟩ := by
  unfold tileRow row
  simp only [blkX_apply x b i _ p h, blkV_apply v b i p h]

/-- The hit of pixel `p` of tile `i` is the indicator that pixel `i * 8192 + p` of the image carries the label. -/
theorem tileHit_blk (lw : Fin 8 → Fin 1048576 → BitVec 32) (b : Fin 8) (i : ℕ) (g : ℕ) (p : Fin 8192)
    (h : i * 8192 + p.val < 1048576) :
    tileHit (blkW lw b i) g p = if (lw b ⟨i * 8192 + p.val, h⟩).toNat = g then 1 else 0 := by
  unfold tileHit
  rw [blkW_apply lw b i p h]

/-! ## One tile -/

/-- A pixel of one of the 128 tiles is a pixel of the image. -/
theorem tile_lt {i : ℕ} (hi : i < 128) (p : Fin 8192) : i * 8192 + p.val < 1048576 := by
  have := p.isLt
  omega

/-- On finite channel values tile `i` contributes the quantity summed over its pixels carrying the label: the
    difference of a real number from itself is zero, so the second sum vanishes. -/
theorem tilePart_blk (x : Fin 8 → Fin 4 → Fin 1048576 → EReal) (lw : Fin 8 → Fin 1048576 → BitVec 32)
    (v : Fin 8 → Fin 1048576 → EReal) (hx : ∀ b c q, ∃ r : ℝ, x b c q = (r : EReal))
    (b : Fin 8) (i : ℕ) (hi : i < 128) (r : Fin 11) (g : ℕ) :
    tilePart (blkX x b i) (blkW lw b i) (blkV v b i) r g
      = ∑ p : Fin 8192, if (lw b ⟨i * 8192 + p.val, tile_lt hi p⟩).toNat = g
          then row x v b r ⟨i * 8192 + p.val, tile_lt hi p⟩ else 0 := by
  unfold tilePart
  have h2 : ∑ p : Fin 8192, (tileRow (blkX x b i) (blkV v b i) r p - tileRow (blkX x b i) (blkV v b i) r p)
      * tileHit (blkW lw b i) g p = 0 := by
    refine Finset.sum_eq_zero fun p _ => ?_
    rw [tileRow_blk x v b i r p (tile_lt hi p)]
    obtain ⟨a, ha⟩ := row_real x v hx b r ⟨i * 8192 + p.val, tile_lt hi p⟩
    rw [ha, ← EReal.coe_sub, sub_self, EReal.coe_zero, zero_mul]
  rw [h2, add_zero]
  refine Finset.sum_congr rfl fun p _ => ?_
  rw [tileRow_blk x v b i r p (tile_lt hi p), tileHit_blk lw b i g p (tile_lt hi p), mul_ite, mul_one, mul_zero]

/-! ## All 128 tiles -/

/-- The contributions of all 128 tiles of image `b` are the grouped sum. -/
theorem tileSumUpTo_last (x : Fin 8 → Fin 4 → Fin 1048576 → EReal) (lw : Fin 8 → Fin 1048576 → BitVec 32)
    (v : Fin 8 → Fin 1048576 → EReal) (hx : ∀ b c q, ∃ r : ℝ, x b c q = (r : EReal))
    (b : Fin 8) (r : Fin 11) (g : Fin 1280) :
    tileSumUpTo x lw v b 127 r g.val = stat x (fun b q => (lw b q).toNat) v b r g := by
  unfold tileSumUpTo stat
  show ∑ i ∈ Finset.range 128, tilePart (blkX x b i) (blkW lw b i) (blkV v b i) r g.val = _
  rw [Finset.sum_range]
  refine Eq.trans ?_ (Cert.Moments.sum_blocks 128 8192
    (fun q : Fin (128 * 8192) => if (lw b q).toNat = g.val then row x v b r q else 0))
  refine Finset.sum_congr rfl fun i _ => ?_
  rw [tilePart_blk x lw v hx b i.val i.isLt r g.val]
  refine Finset.sum_congr rfl fun p _ => ?_
  have e : (⟨i.val * 8192 + p.val, tile_lt i.isLt p⟩ : Fin 1048576)
      = ⟨8192 * i.val + p.val, Cert.Moments.glue_lt i p⟩ := Fin.ext (by
        show i.val * 8192 + p.val = 8192 * i.val + p.val
        omega)
  rw [e]

end Cert.SegSpread

end
-- ==== Proof.KBlocks.lean ====
import proofs.«411571_j13408887898282_3_alg».proof.Proof.Gen.KernelIdeal.Frame
import proofs.«411571_j13408887898282_3_alg».proof.Proof.KAccum
import proofs.«411571_j13408887898282_3_alg».proof.Proof.TileSum
import Idealize.ShloMosaic.Lib.Pipeline.Value
import Idealize.ShloMosaic.Lib.StableHlo.Run

/-!
# The table of grouped sums the region leaves

The region's three input arrays are the argument arrays with each image's 1024 x 1024 pixels numbered in row-major
order; grid point `128 b + n` is given tile `n` of image `b`.  The table is written back once per image, after its
last tile, and then holds the grouped sums of that image.
-/

set_option maxRecDepth 16384

open scoped BigOperators
open Idealize.ShloMosaic Idealize.ShloMosaic.TcCoe Idealize.ShloMosaic.ValueIdx Idealize.SL.Sem
open Cert.KernelIdeal Cert.KernelIdeal.Gen Cert.SegSpread

noncomputable section

namespace Cert.KernelIdeal.KV

variable (m : (ℓ : Loc nD τ sig) → Buf (Elt Ideal) ℓ)

namespace Blocks

/-! ## The arrays the region finds: the arguments with the two pixel axes flattened -/

/-- The channel array the region finds is the channel argument reshaped from `[8, 4, 1024, 1024]` to `[8, 4, 1048576]`. -/
theorem flatX (c : Dev nD) :
    (V (F := Ideal) m c main_v0 : S8x4x1048576.Idx → EReal)
      = shapeCast S8x4x1048576 (m ((c.tc : Thread nD τ).loc main_arg0)) shapeCasts_S8x4x1024x1024_S8x4x1048576 := by
  show StableHlo.after hostOps0 (fun b => m (c, b)) (Proc.devRef .tc main_v0) = _
  after_results
  rfl

/-- Its entry `(b, ch, q)` is the argument's entry `(b, ch, q / 1024, q % 1024)`: both sit at row-major position
    `(4 b + ch) * 1048576 + q`. -/
theorem flatX_apply (c : Dev nD) (b : Fin 8) (ch : Fin 4) (q : Fin 1048576) :
    (V (F := Ideal) m c main_v0 : S8x4x1048576.Idx → EReal) (ix3 b ch q)
      = chan (m ((c.tc : Thread nD τ).loc main_arg0)) b ch q := by
  rw [flatX]
  unfold chan
  refine shapeCast_apply _ _ _ _ ?_
  show ((⟨4, ![8, 4, 1024, 1024]⟩ : Shape).rowMajor (ix4 b ch ⟨q.val / 1024, by omega⟩ ⟨q.val % 1024, by omega⟩)).val
      = ((⟨3, ![8, 4, 1048576]⟩ : Shape).rowMajor (ix3 b ch q)).val
  rw [Shape.rowMajor_val_four, Shape.rowMajor_val_three]
  show ((b.val * 4 + ch.val) * 1024 + q.val / 1024) * 1024 + q.val % 1024 = (b.val * 4 + ch.val) * 1048576 + q.val
  omega

/-- The label array the region finds is the label argument reshaped from `[8, 1, 1024, 1024]` to `[8, 1, 1048576]`. -/
theorem flatW (c : Dev nD) :
    (V (F := Ideal) m c main_v1 : S8x1x1048576.Idx → BitVec 32)
      = shapeCast S8x1x1048576 (m ((c.tc : Thread nD τ).loc main_arg1)) shapeCasts_S8x1x1024x1024_S8x1x1048576 := by
  show StableHlo.after hostOps0 (fun b => m (c, b)) (Proc.devRef .tc main_v1) = _
  after_results
  rfl

/-- Its entry `(b, 0, q)` is the argument's entry `(b, 0, q / 1024, q % 1024)`. -/
theorem flatW_apply (c : Dev nD) (b : Fin 8) (q : Fin 1048576) :
    (V (F := Ideal) m c main_v1 : S8x1x1048576.Idx → BitVec 32) (ix3 b 0 q)
      = labelWord (m ((c.tc : Thread nD τ).loc main_arg1)) b q := by
  rw [flatW]
  unfold labelWord
  refine shapeCast_apply _ _ _ _ ?_
  show ((⟨4, ![8, 1, 1024, 1024]⟩ : Shape).rowMajor (ix4 b 0 ⟨q.val / 1024, by omega⟩ ⟨q.val % 1024, by omega⟩)).val
      = ((⟨3, ![8, 1, 1048576]⟩ : Shape).rowMajor (ix3 b 0 q)).val
  rw [Shape.rowMajor_val_four, Shape.rowMajor_val_three]
  show ((b.val * 1 + 0) * 1024 + q.val / 1024) * 1024 + q.val % 1024 = (b.val * 1 + 0) * 1048576 + q.val
  omega

/-- The line array the region finds is the line argument reshaped from `[8, 1024, 1024]` to `[8, 1, 1048576]`. -/
theorem flatV (c : Dev nD) :
    (V (F := Ideal) m c main_v2 : S8x1x1048576.Idx → EReal)
      = shapeCast S8x1x1048576 (m ((c.tc : Thread nD τ).loc main_arg2)) shapeCasts_S8x1024x1024_S8x1x1048576 := by
  show StableHlo.after hostOps0 (fun b => m (c, b)) (Proc.devRef .tc main_v2) = _
  after_results
  rfl

/-- Its entry `(b, 0, q)` is the argument's entry `(b, q / 1024, q % 1024)`. -/
theorem flatV_apply (c : Dev nD) (b : Fin 8) (q : Fin 1048576) :
    (V (F := Ideal) m c main_v2 : S8x1x1048576.Idx → EReal) (ix3 b 0 q)
      = lineOf (m ((c.tc : Thread nD τ).loc main_arg2)) b q := by
  rw [flatV]
  unfold lineOf
  refine shapeCast_apply _ _ _ _ ?_
  show ((⟨3, ![8, 1024, 1024]⟩ : Shape).rowMajor (ix3 b ⟨q.val / 1024, by omega⟩ ⟨q.val % 1024, by omega⟩)).val
      = ((⟨3, ![8, 1, 1048576]⟩ : Shape).rowMajor (ix3 b 0 q)).val
  rw [Shape.rowMajor_val_three, Shape.rowMajor_val_three]
  show (b.val * 1024 + q.val / 1024) * 1024 + q.val % 1024 = (b.val * 1 + 0) * 1048576 + q.val
  omega

/-! ## Which block each grid point is given -/

/-- Grid point `t` is given block `(t / 128, 0, t % 128)` of the channel array, -/
theorem tileIdx0 : ∀ t : Fin cfg0.N, win0_0.index t 0 = t.val / 128 ∧ win0_0.index t 1 = 0 ∧ win0_0.index t 2 = t.val % 128 :=
  (by decide +kernel : ∀ t : Fin grid0.N, win0_0.index t 0 = t.val / 128 ∧ win0_0.index t 1 = 0 ∧ win0_0.index t 2 = t.val % 128)

/-- of the label array, -/
theorem tileIdx1 : ∀ t : Fin cfg0.N, win0_1.index t 0 = t.val / 128 ∧ win0_1.index t 1 = 0 ∧ win0_1.index t 2 = t.val % 128 :=
  (by decide +kernel : ∀ t : Fin grid0.N, win0_1.index t 0 = t.val / 128 ∧ win0_1.index t 1 = 0 ∧ win0_1.index t 2 = t.val % 128)

/-- and of the line array; -/
theorem tileIdx2 : ∀ t : Fin cfg0.N, win0_2.index t 0 = t.val / 128 ∧ win0_2.index t 1 = 0 ∧ win0_2.index t 2 = t.val % 128 :=
  (by decide +kernel : ∀ t : Fin grid0.N, win0_2.index t 0 = t.val / 128 ∧ win0_2.index t 1 = 0 ∧ win0_2.index t 2 = t.val % 128)

/-- and it works on block `(t / 128, 0, 0)` of the table: one block per image. -/
theorem tableIdx : ∀ t : Fin cfg0.N, win0_3.index t 0 = t.val / 128 ∧ win0_3.index t 1 = 0 ∧ win0_3.index t 2 = 0 :=
  (by decide +kernel : ∀ t : Fin grid0.N, win0_3.index t 0 = t.val / 128 ∧ win0_3.index t 1 = 0 ∧ win0_3.index t 2 = 0)

end Blocks

open Blocks

/-! ## The input blocks: entry `(0, ch, p)` of the block at point `128 b + n` is entry `(b, ch, 8192 n + p)` of the array -/

/-- Grid point `128 b + n` is given tile `n` of image `b`'s channels. -/
theorem iblk0_eq (c : Dev nD) (b : Fin 8) (n : ℕ) (hn : n < 128) (h : b.val * 128 + n < cfg0.N) :
    (iblk (F := Ideal) m c 0 ⟨b.val * 128 + n, h⟩ : (⟨3, ![1, 4, 8192]⟩ : Shape).Idx → EReal)
      = blkX (chan (m ((c.tc : Thread nD τ).loc main_arg0))) b n := by
  funext y
  have hy0 : (y 0).val < 1 := (y 0).isLt
  have hy1 : (y 1).val < 4 := (y 1).isLt
  have hy2 : (y 2).val < 8192 := (y 2).isLt
  have hq : n * 8192 + (y 2).val < 1048576 := by omega
  obtain ⟨f0, f1, f2⟩ := tileIdx0 ⟨b.val * 128 + n, h⟩
  have hb := b.isLt
  show _ = (if h : n * 8192 + (y 2).val < 1048576 then chan (m ((c.tc : Thread nD τ).loc main_arg0)) b ⟨(y 1).val, (y 1).isLt⟩ ⟨n * 8192 + (y 2).val, h⟩ else 0)
  rw [dif_pos hq, ← flatX_apply m c b ⟨(y 1).val, hy1⟩ ⟨n * 8192 + (y 2).val, hq⟩]
  unfold iblk
  rw [View.read_apply]
  show V (F := Ideal) m c main_v0 _ = V (F := Ideal) m c main_v0 _
  congr 1
  funext a
  apply Fin.ext
  match a with
  | ⟨0, _⟩ => show win0_0.index ⟨b.val * 128 + n, h⟩ 0 * 1 + 1 * (y 0).val = b.val; rw [f0]; dsimp only; omega
  | ⟨1, _⟩ => show win0_0.index ⟨b.val * 128 + n, h⟩ 1 * 4 + 1 * (y 1).val = (y 1).val; rw [f1]; omega
  | ⟨2, _⟩ => show win0_0.index ⟨b.val * 128 + n, h⟩ 2 * 8192 + 1 * (y 2).val = n * 8192 + (y 2).val; rw [f2]; dsimp only; omega

/-- … of its label words. -/
theorem iblk1_eq (c : Dev nD) (b : Fin 8) (n : ℕ) (hn : n < 128) (h : b.val * 128 + n < cfg0.N) :
    (iblk (F := Ideal) m c 1 ⟨b.val * 128 + n, h⟩ : (⟨3, ![1, 1, 8192]⟩ : Shape).Idx → BitVec 32)
      = blkW (labelWord (m ((c.tc : Thread nD τ).loc main_arg1))) b n := by
  funext y
  have hy0 : (y 0).val < 1 := (y 0).isLt
  have hy1 : (y 1).val < 1 := (y 1).isLt
  have hy2 : (y 2).val < 8192 := (y 2).isLt
  have hq : n * 8192 + (y 2).val < 1048576 := by omega
  obtain ⟨f0, f1, f2⟩ := tileIdx1 ⟨b.val * 128 + n, h⟩
  have hb := b.isLt
  show _ = (if h : n * 8192 + (y 2).val < 1048576 then labelWord (m ((c.tc : Thread nD τ).loc main_arg1)) b ⟨n * 8192 + (y 2).val, h⟩ else 0)
  rw [dif_pos hq, ← flatW_apply m c b ⟨n * 8192 + (y 2).val, hq⟩]
  unfold iblk
  rw [View.read_apply]
  show V (F := Ideal) m c main_v1 _ = V (F := Ideal) m c main_v1 _
  congr 1
  funext a
  apply Fin.ext
  match a with
  | ⟨0, _⟩ => show win0_1.index ⟨b.val * 128 + n, h⟩ 0 * 1 + 1 * (y 0).val = b.val; rw [f0]; dsimp only; omega
  | ⟨1, _⟩ => show win0_1.index ⟨b.val * 128 + n, h⟩ 1 * 1 + 1 * (y 1).val = 0; rw [f1]; omega
  | ⟨2, _⟩ => show win0_1.index ⟨b.val * 128 + n, h⟩ 2 * 8192 + 1 * (y 2).val = n * 8192 + (y 2).val; rw [f2]; dsimp only; omega

/-- … of its line values. -/
theorem iblk2_eq (c : Dev nD) (b : Fin 8) (n : ℕ) (hn : n < 128) (h : b.val * 128 + n < cfg0.N) :
    (iblk (F := Ideal) m c 2 ⟨b.val * 128 + n, h⟩ : (⟨3, ![1, 1, 8192]⟩ : Shape).Idx → EReal)
      = blkV (lineOf (m ((c.tc : Thread nD τ).loc main_arg2))) b n := by
  funext y
  have hy0 : (y 0).val < 1 := (y 0).isLt
  have hy1 : (y 1).val < 1 := (y 1).isLt
  have hy2 : (y 2).val < 8192 := (y 2).isLt
  have hq : n * 8192 + (y 2).val < 1048576 := by omega
  obtain ⟨f0, f1, f2⟩ := tileIdx2 ⟨b.val * 128 + n, h⟩
  have hb := b.isLt
  show _ = (if h : n * 8192 + (y 2).val < 1048576 then lineOf (m ((c.tc : Thread nD τ).loc main_arg2)) b ⟨n * 8192 + (y 2).val, h⟩ else 0)
  rw [dif_pos hq, ← flatV_apply m c b ⟨n * 8192 + (y 2).val, hq⟩]
  unfold iblk
  rw [View.read_apply]
  show V (F := Ideal) m c main_v2 _ = V (F := Ideal) m c main_v2 _
  congr 1
  funext a
  apply Fin.ext
  match a with
  | ⟨0, _⟩ => show win0_2.index ⟨b.val * 128 + n, h⟩ 0 * 1 + 1 * (y 0).val = b.val; rw [f0]; dsimp only; omega
  | ⟨1, _⟩ => show win0_2.index ⟨b.val * 128 + n, h⟩ 1 * 1 + 1 * (y 1).val = 0; rw [f1]; omega
  | ⟨2, _⟩ => show win0_2.index ⟨b.val * 128 + n, h⟩ 2 * 8192 + 1 * (y 2).val = n * 8192 + (y 2).val; rw [f2]; dsimp only; omega

namespace Blocks

/-! ## The table after an image's last tile, and after the region -/

/-- The contribution of grid point `128 b + i` is that of tile `i` of image `b`. -/
theorem partAt_tile (c : Dev nD) (b : Fin 8) (i : ℕ) (hi : i < 128) (r : Fin 11) (g : ℕ) :
    partAt m c (b.val * 128 + i) r g
      = tilePart (blkX (chan (m ((c.tc : Thread nD τ).loc main_arg0))) b i)
          (blkW (labelWord (m ((c.tc : Thread nD τ).loc main_arg1))) b i)
          (blkV (lineOf (m ((c.tc : Thread nD τ).loc main_arg2))) b i) r g := by
  have hb := b.isLt
  have h : b.val * 128 + i < cfg0.N := by rw [show cfg0.N = 1024 from N_0]; omega
  unfold partAt
  rw [dif_pos h, iblk0_eq m c b i hi h, iblk1_eq m c b i hi h, iblk2_eq m c b i hi h]

/-- The table of grouped sums as one function of the argument arrays: entry `(b, r, g)` is quantity `r` summed
    over the pixels of image `b` that carry label `g`. -/
def statTable (c : Dev nD) : Buf (Elt Ideal) ((c.tc : Thread nD τ).loc main_v3) :=
  fun i : (⟨3, ![8, 11, 1280]⟩ : Shape).Idx =>
    stat (chan (m ((c.tc : Thread nD τ).loc main_arg0))) (labelOf (m ((c.tc : Thread nD τ).loc main_arg1)))
      (lineOf (m ((c.tc : Thread nD τ).loc main_arg2))) ⟨(i 0).val, (i 0).isLt⟩ ⟨(i 1).val, (i 1).isLt⟩ ⟨(i 2).val, (i 2).isLt⟩

/-- That function at an index whose coordinates are `b`, `r`, `g`. -/
theorem statTable_apply (c : Dev nD) (i : (⟨3, ![8, 11, 1280]⟩ : Shape).Idx) (b : Fin 8) (r : Fin 11) (g : Fin 1280)
    (h0 : (i 0).val = b.val) (h1 : (i 1).val = r.val) (h2 : (i 2).val = g.val) :
    (statTable m c : (⟨3, ![8, 11, 1280]⟩ : Shape).Idx → EReal) i
      = stat (chan (m ((c.tc : Thread nD τ).loc main_arg0))) (labelOf (m ((c.tc : Thread nD τ).loc main_arg1)))
          (lineOf (m ((c.tc : Thread nD τ).loc main_arg2))) b r g := by
  obtain rfl : (⟨(i 0).val, (i 0).isLt⟩ : Fin 8) = b := Fin.ext h0
  obtain rfl : (⟨(i 1).val, (i 1).isLt⟩ : Fin 11) = r := Fin.ext h1
  obtain rfl : (⟨(i 2).val, (i 2).isLt⟩ : Fin 1280) = g := Fin.ext h2
  rfl

/-- After the last tile of image `b` (grid point `128 b + 127`) the table block holds the contributions of the
    image's 128 tiles, which together are the image's grouped sums (finite channel values). -/
theorem table_last (c : Dev nD) (hx : ∀ i, ∃ r : ℝ, m ((c.tc : Thread nD τ).loc main_arg0) i = (r : EReal))
    (t : Fin cfg0.N) (b : Fin 8) (hb : t.val = b.val * 128 + 127) (y : S1x11x1280.Idx) :
    outsAt0 (F := Ideal) m c t.val t.isLt y
      = stat (chan (m ((c.tc : Thread nD τ).loc main_arg0))) (labelOf (m ((c.tc : Thread nD τ).loc main_arg1)))
          (lineOf (m ((c.tc : Thread nD τ).loc main_arg2))) b ⟨(y 1).val, (y 1).isLt⟩ ⟨(y 2).val, (y 2).isLt⟩ := by
  have hbl := b.isLt
  refine (outsAt0_closed m c t y).trans ?_
  have e1 : t.val % 128 + 1 = 127 + 1 := by omega
  have e2 : t.val / 128 * 128 = b.val * 128 := by omega
  rw [e1, e2]
  refine (Finset.sum_congr rfl (fun i hi => partAt_tile m c b i (by have := Finset.mem_range.mp hi; omega) _ _)).trans ?_
  exact tileSumUpTo_last (chan (m ((c.tc : Thread nD τ).loc main_arg0))) (labelWord (m ((c.tc : Thread nD τ).loc main_arg1)))
    (lineOf (m ((c.tc : Thread nD τ).loc main_arg2))) (fun b c q => hx _) b ⟨(y 1).val, (y 1).isLt⟩ ⟨(y 2).val, (y 2).isLt⟩

/-- What a write-back writes is its block of the table of grouped sums: the write-backs happen at the points
    `128 b + 127`, and entry `(0, r, g)` of block `(b, 0, 0)` is entry `(b, r, g)` of the table. -/
theorem table_flushed (c : Dev nD) (hx : ∀ i, ∃ r : ℝ, m ((c.tc : Thread nD τ).loc main_arg0) i = (r : EReal))
    (t : Fin cfg0.N) (hf : (cfg0.win 3).flush t = true) :
    (dats (F := Ideal) m 0 c).flushed 3 t = ((cfg0.win 3).blk t).view.read (Elt Ideal) (statTable m c) := by
  have hN : cfg0.N = 1024 := N_0
  have ht := t.isLt
  have h127 : t.val % 128 = 127 := (flush0_3 t).mp hf
  obtain ⟨b, hb⟩ : ∃ b : Fin 8, t.val = b.val * 128 + 127 := ⟨⟨t.val / 128, by omega⟩, by dsimp only; omega⟩
  obtain ⟨f0, f1, f2⟩ := tableIdx t
  show (cfg0.win 3).cut (grid0.coords t) ((dats (F := Ideal) m 0 c).after 3 t) = _
  rw [after0_3]
  funext y
  have hy0 : (y 0).val < 1 := (y 0).isLt
  have hy1 : (y 1).val < 11 := (y 1).isLt
  have hy2 : (y 2).val < 1280 := (y 2).isLt
  have hbl := b.isLt
  rw [View.read_apply]
  show outsAt0 (F := Ideal) m c t.val t.isLt y = _
  refine (table_last m c hx t b hb y).trans ?_
  rw [cast_eq]
  refine (statTable_apply m c _ b ⟨(y 1).val, (y 1).isLt⟩ ⟨(y 2).val, (y 2).isLt⟩ ?_ ?_ ?_).symm
  · show win0_3.index t 0 * 1 + 1 * (y 0).val = b.val
    rw [f0]; omega
  · show win0_3.index t 1 * 11 + 1 * (y 1).val = (y 1).val
    rw [f1]; omega
  · show win0_3.index t 2 * 1280 + 1 * (y 2).val = (y 2).val
    rw [f2]; omega

/-- The eight written blocks cover the table (entry `(b, r, g)` lies in the block written at point `128 b + 127`), so
    after the region the table is the table of grouped sums. -/
theorem table_final (c : Dev nD) (hx : ∀ i, ∃ r : ℝ, m ((c.tc : Thread nD τ).loc main_arg0) i = (r : EReal)) :
    (dats (F := Ideal) m 0 c).arrAt 3 cfg0.N = statTable m c :=
  (dats (F := Ideal) m 0 c).arrAt_eq_of_cover 3 (statTable m c) (table_flushed m c hx) fun i => by
    have hN : cfg0.N = 1024 := N_0
    have hi0 : (i 0).val < 8 := (i 0).isLt
    have hi1 : (i 1).val < 11 := (i 1).isLt
    have hi2 : (i 2).val < 1280 := (i 2).isLt
    obtain ⟨t, ht⟩ : ∃ t : Fin cfg0.N, t.val = (i 0).val * 128 + 127 := ⟨⟨(i 0).val * 128 + 127, by omega⟩, rfl⟩
    obtain ⟨f0, f1, f2⟩ := tableIdx t
    refine ⟨t, (flush0_3 t).mpr (by omega), ?_⟩
    show i ∈ ((View.whole main_v3).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [f0]; omega
    | ⟨1, _⟩ =>
      show win0_3.index t 1 * 11 ≤ (i 1).val ∧ (i 1).val < win0_3.index t 1 * 11 + 11
      rw [f1]; omega
    | ⟨2, _⟩ =>
      show win0_3.index t 2 * 1280 ≤ (i 2).val ∧ (i 2).val < win0_3.index t 2 * 1280 + 1280
      rw [f2]; omega

end Blocks

/-- After the region the table holds every image's grouped sums (finite channel values). -/
theorem stats_value (c : Dev nD) (hx : ∀ i, ∃ r : ℝ, m ((c.tc : Thread nD τ).loc main_arg0) i = (r : EReal))
    (b : Fin 8) (r : Fin 11) (g : Fin 1280) :
    ((dats (F := Ideal) m 0 c).arrAt 3 cfg0.N : (⟨3, ![8, 11, 1280]⟩ : Shape).Idx → EReal) (ix3 b r g)
      = stat (chan (m ((c.tc : Thread nD τ).loc main_arg0))) (labelOf (m ((c.tc : Thread nD τ).loc main_arg1)))
          (lineOf (m ((c.tc : Thread nD τ).loc main_arg2))) b r g :=
  (congrFun (table_final m c hx) (ix3 b r g)).trans (statTable_apply m c (ix3 b r g) b r g rfl rfl rfl)

end Cert.KernelIdeal.KV

end
-- ==== Proof.KTail.lean ====
import proofs.«411571_j13408887898282_3_alg».proof.Proof.Gen.KernelIdeal.Frame
import proofs.«411571_j13408887898282_3_alg».proof.Proof.KBlocks
import Idealize.ShloMosaic.Lib.StableHlo.Run
import Idealize.ShloMosaic.Lib.Pipeline.Value
import Idealize.ShloMosaic.Lib.ValueLayout
import Idealize.ShloMosaic.PureOps.Ideal.Laws

/-!
# From the table of grouped sums to the result

After the region the program slices the table into its count, channel-sum, weight, weighted-sum and weighted-square
rows, forms each label's channel means (zero at label 0), evaluates each label's contribution, sums them over images
and labels and divides by the number of pixels.

The means' reset at label 0 is a scatter of zeros at the one index word `0` along the label axis: read as a fold of
overwrites it puts the update's value wherever some update lands — here exactly the entries with label coordinate 0 —
and keeps the operand elsewhere.  Every other operation is read entry by entry, and the two channel reductions and the
final reduction are sums over their axes, so the result is the specification's `totalG` over `npix` once each entry of
the table is the grouped sum `stat`.
-/

set_option maxRecDepth 16384

open scoped BigOperators
open Idealize.ShloMosaic Idealize.ShloMosaic.TcCoe Idealize.ShloMosaic.ValueIdx Idealize.SL.Sem
open Cert.KernelIdeal Cert.KernelIdeal.Gen Cert.SegSpread

noncomputable section

namespace Cert.KernelIdeal.KV

namespace Tail

/-! ## A scatter that overwrites: the fold read at an index -/

section Scatter
variable {α : Type}

/-- A fold of overwrites, update `n` putting `z` at `R n`: `z` where some update lands, the start value elsewhere. -/
theorem fold_set_apply {ι κ : Type} [DecidableEq ι] (R : κ → ι) (z : α) (l : List κ) (x : ι → α) (i : ι) :
    (l.foldl (fun r n => fun i' => if i' = R n then z else r i') x) i = if ∃ n ∈ l, R n = i then z else x i := by
  induction l generalizing x with
  | nil => simp
  | cons n l ih =>
    rw [List.foldl_cons, ih]
    by_cases h1 : ∃ n' ∈ l, R n' = i
    · rw [if_pos h1, if_pos]
      obtain ⟨n', hn', e⟩ := h1
      exact ⟨n', List.mem_cons_of_mem _ hn', e⟩
    · rw [if_neg h1]
      by_cases h2 : i = R n
      · rw [if_pos h2, if_pos]
        exact ⟨n, List.mem_cons_self, h2.symm⟩
      · rw [if_neg h2, if_neg]
        rintro ⟨n', hn', e⟩
        rcases List.mem_cons.mp hn' with rfl | hn'
        · exact h2 e.symm
        · exact h1 ⟨n', hn', e⟩

/-- An overwriting scatter of one value `z`, every update landing inside the operand: the result is `z` at the indices
    some update lands on and the operand elsewhere. -/
theorem scatter_const_apply {s si u : Shape} {w : Nat} (d : ScatterDims s si u) (x : s.Idx → α) (idx : IVec si w) (z : α)
    (R : u.Idx → s.Idx) (hR : ∀ j, d.resultIdx? j idx = some (R j)) (i : s.Idx) :
    Host.scatter d (fun _ b => b) x idx (fun _ => z) i = if ∃ j, R j = i then z else x i := by
  unfold Host.scatter
  simp only [hR]
  refine (fold_set_apply (fun n => R (u.rowMajor.symm n)) z _ x i).trans ?_
  have hiff : (∃ n ∈ List.finRange u.numel, R (u.rowMajor.symm n) = i) ↔ ∃ j, R j = i := by
    constructor
    · rintro ⟨n, -, e⟩; exact ⟨_, e⟩
    · rintro ⟨j, e⟩
      exact ⟨u.rowMajor j, List.mem_finRange _, by rw [Equiv.symm_apply_apply]; exact e⟩
  by_cases h : ∃ j, R j = i
  · rw [if_pos h, if_pos (hiff.mpr h)]
  · rw [if_neg h, if_neg (fun h' => h (hiff.mp h'))]

end Scatter

/-! ## The program's scatter: one index word, the updates' two axes the operand's first two -/

/-- Where update `(b, c)` lands when the index word is zero: `(b, c, 0)`. -/
abbrev landAt (j : S8x4.Idx) : S8x4x1280.Idx :=
  ix3 (n0 := 8) (n1 := 4) (n2 := 1280) ⟨(j 0).val, idx2_lt0 j⟩ ⟨(j 1).val, idx2_lt1 j⟩ ⟨0, by decide⟩

theorem land0 (idx : IVec S1 32) (j : S8x4.Idx) :
    scatter_S8x4x1280_S1_S8x4_01_2_2_0.start j idx (0 : Fin 3) + (scatter_S8x4x1280_S1_S8x4_01_2_2_0.window j (0 : Fin 3) : ℤ)
      = ((j 0).val : ℤ) := by
  unfold ScatterDims.start ScatterDims.window
  rw [dif_neg (by decide), dif_pos (by decide), zero_add]
  rfl

theorem land1 (idx : IVec S1 32) (j : S8x4.Idx) :
    scatter_S8x4x1280_S1_S8x4_01_2_2_0.start j idx (1 : Fin 3) + (scatter_S8x4x1280_S1_S8x4_01_2_2_0.window j (1 : Fin 3) : ℤ)
      = ((j 1).val : ℤ) := by
  unfold ScatterDims.start ScatterDims.window
  rw [dif_neg (by decide), dif_pos (by decide), zero_add]
  rfl

theorem land2 (idx : IVec S1 32) (hidx : ∀ k, idx k = 0#32) (j : S8x4.Idx) :
    scatter_S8x4x1280_S1_S8x4_01_2_2_0.start j idx (2 : Fin 3) + (scatter_S8x4x1280_S1_S8x4_01_2_2_0.window j (2 : Fin 3) : ℤ)
      = ((0 : ℕ) : ℤ) := by
  unfold ScatterDims.start ScatterDims.window
  rw [dif_pos (by decide), dif_neg (by decide), hidx]
  rfl

theorem resultIdx_zero (idx : IVec S1 32) (hidx : ∀ k, idx k = 0#32) (j : S8x4.Idx) :
    scatter_S8x4x1280_S1_S8x4_01_2_2_0.resultIdx? j idx = some (landAt j) := by
  have h : ∀ a : Fin S8x4x1280.rank, scatter_S8x4x1280_S1_S8x4_01_2_2_0.start j idx a
      + (scatter_S8x4x1280_S1_S8x4_01_2_2_0.window j a : ℤ) = ((landAt j a).val : ℤ) := fun a => by
    match a with
    | ⟨0, _⟩ => exact land0 idx j
    | ⟨1, _⟩ => exact land1 idx j
    | ⟨2, _⟩ => exact land2 idx hidx j
  unfold ScatterDims.resultIdx?
  rw [dif_pos (fun a => by rw [h a]; exact ⟨Int.natCast_nonneg _, by exact_mod_cast (landAt j a).isLt⟩)]
  refine congrArg some (funext fun a => Fin.ext ?_)
  show (scatter_S8x4x1280_S1_S8x4_01_2_2_0.start j idx a + (scatter_S8x4x1280_S1_S8x4_01_2_2_0.window j a : ℤ)).toNat = (landAt j a).val
  rw [h a, Int.toNat_natCast]

/-- The scatter at `(b, c, g)`: the update's value on the first label, the operand elsewhere. -/
theorem scatter_zero_apply (x : S8x4x1280.Idx → EReal) (idx : IVec S1 32) (hidx : ∀ k, idx k = 0#32) (z : EReal)
    (b : Fin 8) (c : Fin 4) (g : Fin 1280) :
    Host.scatter scatter_S8x4x1280_S1_S8x4_01_2_2_0 (fun _ b => b) x idx (fun _ => z) (ix3 b c g)
      = if g.val = 0 then z else x (ix3 b c g) := by
  rw [scatter_const_apply scatter_S8x4x1280_S1_S8x4_01_2_2_0 x idx z landAt (resultIdx_zero idx hidx)]
  by_cases hg : g.val = 0
  · rw [if_pos hg, if_pos]
    refine ⟨ix2 b c, funext fun a => ?_⟩
    match a with
    | ⟨0, _⟩ => rfl
    | ⟨1, _⟩ => rfl
    | ⟨2, _⟩ => exact Fin.ext hg.symm
  · rw [if_neg hg, if_neg]
    rintro ⟨j, e⟩
    exact hg (congrArg Fin.val (congrFun e (2 : Fin 3))).symm

/-! ## The literal words -/

theorem one_f32 : Ideal.ofBits .f32 0x3F800000#32 = 1 := by simp [Ideal.ofBits, Ideal.ieee, -EReal.coe_mul]; norm_num
theorem two_f32 : Ideal.ofBits .f32 0x40000000#32 = 2 := by
  simp [Ideal.ofBits, Ideal.ieee, -EReal.coe_mul]; norm_num
  first | rfl | norm_cast | exact EReal.coe_ofNat 2

/-! ## The operations after the region, as functions of the table -/

section Ops
variable (T : FVec Ideal S8x11x1280 .f32)

/-- Row 0 of the table: the number of pixels of each label. -/
def cntV : FVec Ideal S8x1280 .f32 :=
  shapeCast S8x1280 (extractStridedSlice S8x1x1280 ![0, 0, 0] T slices_S8x11x1280_S8x1x1280_0_0_0) shapeCasts_S8x1x1280_S8x1280
/-- Rows 1 to 4: the channel sums. -/
def sumV : FVec Ideal S8x4x1280 .f32 := extractStridedSlice S8x4x1280 ![0, 1, 0] T slices_S8x11x1280_S8x4x1280_0_1_0
/-- Row 5: the summed weights. -/
def wV : FVec Ideal S8x1280 .f32 :=
  shapeCast S8x1280 (extractStridedSlice S8x1x1280 ![0, 5, 0] T slices_S8x11x1280_S8x1x1280_0_5_0) shapeCasts_S8x1x1280_S8x1280
/-- Rows 6 to 9: the weighted channel sums. -/
def wsumV : FVec Ideal S8x4x1280 .f32 := extractStridedSlice S8x4x1280 ![0, 6, 0] T slices_S8x11x1280_S8x4x1280_0_6_0
/-- Row 10: the weighted sums of squares. -/
def wsqV : FVec Ideal S8x1280 .f32 :=
  shapeCast S8x1280 (extractStridedSlice S8x1x1280 ![0, 10, 0] T slices_S8x11x1280_S8x1x1280_0_10_0) shapeCasts_S8x1x1280_S8x1280
/-- The counts, at least one, repeated over the channels. -/
def denV : FVec Ideal S8x4x1280 .f32 :=
  broadcastInDim S8x4x1280 ![0, 1, 2] bcast_S8x1x1280_S8x4x1280_0_1_2
    (broadcastInDim S8x1x1280 ![0, 2] bcast_S8x1280_S8x1x1280_0_2
      (maximumf (cntV T) (broadcastInDim S8x1280 ![] bcast_S_S8x1280 (constant (F := Ideal) S_ .f32 0x3F800000#32))))
/-- The channel means, the first label's overwritten by zero. -/
def meanV : FVec Ideal S8x4x1280 .f32 :=
  Host.scatter scatter_S8x4x1280_S1_S8x4_01_2_2_0 (fun _ b => b) (Host.divf (F := Ideal) (sumV T) (denV T))
    (broadcastInDim S1 ![] bcast_S_S1 (constantI S_ 32 0#32))
    (broadcastInDim S8x4 ![] bcast_S_S8x4 (constant (F := Ideal) S_ .f32 0x00000000#32))
/-- Each label's contribution. -/
def spreadV : FVec Ideal S8x1280 .f32 :=
  addf
    (subf (wsqV T)
      (mulf (broadcastInDim S8x1280 ![] bcast_S_S8x1280 (constant (F := Ideal) S_ .f32 0x40000000#32))
        (Host.reduceAdd (F := Ideal) (mulf (meanV T) (wsumV T)) (constant (F := Ideal) S_ .f32 0x00000000#32) reducesTo_S8x4x1280_S8x1280_d1 h_S_)))
    (mulf (Host.reduceAdd (F := Ideal) (mulf (meanV T) (meanV T)) (constant (F := Ideal) S_ .f32 0x00000000#32) reducesTo_S8x4x1280_S8x1280_d1 h_S_)
      (wV T))
/-- The result: the contributions summed, over the number of pixels. -/
def tailOf : FVec Ideal S_ .f32 :=
  Host.divf (F := Ideal)
    (Host.reduceAdd (F := Ideal) (spreadV T) (constant (F := Ideal) S_ .f32 0x00000000#32) reducesTo_S8x1280_S_d0_1 h_S_)
    (constant (F := Ideal) S_ .f32 0x4B000000#32)

/-! ### Each of them at an index -/

/-- Dropping the middle unit axis keeps the two coordinates. -/
theorem dropMid_apply (X : FVec Ideal S8x1x1280 .f32) (b : Fin 8) (g : Fin 1280) :
    shapeCast S8x1280 X shapeCasts_S8x1x1280_S8x1280 (ix2 b g) = X (ix3 b (0 : Fin 1) g) := by
  refine shapeCast_apply X _ (ix2 b g) (ix3 b (0 : Fin 1) g) ?_
  rw [Shape.rowMajor_val_three, Shape.rowMajor_val_two]
  show (b.val * 1 + 0) * 1280 + g.val = b.val * 1280 + g.val
  omega

theorem cntV_apply (b : Fin 8) (g : Fin 1280) : cntV T (ix2 b g) = T (ix3 b (0 : Fin 11) g) := by
  unfold cntV
  rw [dropMid_apply]
  exact slice3_axis1_apply 0 T _ b (0 : Fin 1) g (0 : Fin 11) rfl

theorem wV_apply (b : Fin 8) (g : Fin 1280) : wV T (ix2 b g) = T (ix3 b (5 : Fin 11) g) := by
  unfold wV
  rw [dropMid_apply]
  exact slice3_axis1_apply 5 T _ b (0 : Fin 1) g (5 : Fin 11) rfl

theorem wsqV_apply (b : Fin 8) (g : Fin 1280) : wsqV T (ix2 b g) = T (ix3 b (10 : Fin 11) g) := by
  unfold wsqV
  rw [dropMid_apply]
  exact slice3_axis1_apply 10 T _ b (0 : Fin 1) g (10 : Fin 11) rfl

theorem sumV_apply (b : Fin 8) (c : Fin 4) (g : Fin 1280) :
    sumV T (ix3 b c g) = T (ix3 b (⟨c.val + 1, by omega⟩ : Fin 11) g) := by
  unfold sumV
  exact slice3_axis1_apply 1 T _ b c g (⟨c.val + 1, by omega⟩ : Fin 11) (Nat.add_comm _ _)

theorem wsumV_apply (b : Fin 8) (c : Fin 4) (g : Fin 1280) :
    wsumV T (ix3 b c g) = T (ix3 b (⟨c.val + 6, by omega⟩ : Fin 11) g) := by
  unfold wsumV
  exact slice3_axis1_apply 6 T _ b c g (⟨c.val + 6, by omega⟩ : Fin 11) (Nat.add_comm _ _)

theorem denV_apply (b : Fin 8) (c : Fin 4) (g : Fin 1280) :
    denV T (ix3 b c g) = max (T (ix3 b (0 : Fin 11) g)) 1 := by
  unfold denV
  refine (broadcastInDim_apply _ _ _ (ix3 b c g) (ix3 b (0 : Fin 1) g) (fun a => ?_)).trans ?_
  · match a with
    | ⟨0, _⟩ => rfl
    | ⟨1, _⟩ => rfl
    | ⟨2, _⟩ => rfl
  refine (broadcastInDim_apply _ _ _ (ix3 b (0 : Fin 1) g) (ix2 b g) (fun a => ?_)).trans ?_
  · match a with
    | ⟨0, _⟩ => rfl
    | ⟨1, _⟩ => rfl
  rw [maximumf_apply, cntV_apply]
  show max _ (Ideal.ofBits .f32 0x3F800000#32) = _
  rw [one_f32]

theorem meanV_apply (b : Fin 8) (c : Fin 4) (g : Fin 1280) :
    meanV T (ix3 b c g) = if g.val = 0 then 0
      else Ideal.div (T (ix3 b (⟨c.val + 1, by omega⟩ : Fin 11) g)) (max (T (ix3 b (0 : Fin 11) g)) 1) := by
  unfold meanV
  refine (scatter_zero_apply (Host.divf (F := Ideal) (sumV T) (denV T)) _ (fun _ => rfl) (Ideal.ofBits .f32 0x00000000#32) b c g).trans ?_
  rw [Ideal.ofBits_zero_f32]
  show (if g.val = 0 then (0 : EReal) else Ideal.div (sumV T (ix3 b c g)) (denV T (ix3 b c g))) = _
  rw [sumV_apply, denV_apply]

/-- The sum over the channel axis at `(b, g)`. -/
theorem chanSum_apply (X : FVec Ideal S8x4x1280 .f32) (b : Fin 8) (g : Fin 1280) :
    Host.reduceAdd (F := Ideal) X (constant (F := Ideal) S_ .f32 0x00000000#32) reducesTo_S8x4x1280_S8x1280_d1 h_S_ (ix2 b g)
      = 0 + ∑ c : Fin 4, X (ix3 b c g) := by
  show Ideal.hostReduceAdd reducesTo_S8x4x1280_S8x1280_d1 X (Ideal.ofBits .f32 0x00000000#32) (ix2 b g) = _
  rw [Ideal.hostReduceAdd_single reducesTo_S8x4x1280_S8x1280_d1 (by decide : S8x4x1280.Reduces [1] S8x1280), Ideal.ofBits_zero_f32]
  refine congrArg (0 + ·) (Finset.sum_congr rfl fun k _ => congrArg X (funext fun a => ?_))
  match a with
  | ⟨0, _⟩ => rfl
  | ⟨1, _⟩ => rfl
  | ⟨2, _⟩ => rfl

theorem spreadV_apply (b : Fin 8) (g : Fin 1280) :
    spreadV T (ix2 b g)
      = (T (ix3 b (10 : Fin 11) g) - 2 * (0 + ∑ c : Fin 4, meanV T (ix3 b c g) * T (ix3 b (⟨c.val + 6, by omega⟩ : Fin 11) g)))
        + (0 + ∑ c : Fin 4, meanV T (ix3 b c g) * meanV T (ix3 b c g)) * T (ix3 b (5 : Fin 11) g) := by
  unfold spreadV
  rw [addf_apply, subf_apply, mulf_apply, mulf_apply, chanSum_apply, chanSum_apply, wsqV_apply, wV_apply]
  show _ - Ideal.ofBits .f32 0x40000000#32 * _ + _ = _
  rw [two_f32]
  simp only [mulf_apply, wsumV_apply]

end Ops

/-- The operations after the region applied to a table holding the grouped sums: the grouped total over the number of
    pixels. -/
theorem tailOf_eq (T : FVec Ideal S8x11x1280 .f32) (x : Fin 8 → Fin 4 → Fin 1048576 → EReal) (lab : Fin 8 → Fin 1048576 → ℕ)
    (v : Fin 8 → Fin 1048576 → EReal) (hT : ∀ (b : Fin 8) (r : Fin 11) (g : Fin 1280), T (ix3 b r g) = stat x lab v b r g) :
    tailOf T = fun _ => Ideal.div (totalG x lab v) npix := by
  have hmean : ∀ (b : Fin 8) (c : Fin 4) (g : Fin 1280), meanV T (ix3 b c g) = meanG x lab v b c g := fun b c g => by
    rw [meanV_apply, hT, hT]; rfl
  funext j
  unfold tailOf
  show Ideal.div (Ideal.hostReduceAdd reducesTo_S8x1280_S_d0_1 (spreadV T) (Ideal.ofBits .f32 0x00000000#32) j)
    (Ideal.ofBits .f32 0x4B000000#32) = _
  rw [Ideal.hostReduceAdd_total reducesTo_S8x1280_S_d0_1 (fun a => a.elim0), Ideal.ofBits_zero_f32, sum_idx2]
  unfold totalG npix
  refine congrArg (fun t => Ideal.div (0 + t) _) (Finset.sum_congr rfl fun b _ => Finset.sum_congr rfl fun g _ => ?_)
  rw [spreadV_apply]
  simp only [hmean, hT]
  rfl

end Tail

open Tail

/-! ## The run -/

variable (m : (ℓ : Loc nD τ sig) → Buf (Elt Ideal) ℓ) (ρ : Dev nD → PrngReg)

set_option maxHeartbeats 4000000 in
/-- What the operations after the region leave in the result buffer: their composition applied to the table the
    region leaves. -/
theorem tail_eq (c : Dev nD) :
    Pipeline.afterTail₀ cfgs (dats (F := Ideal) m) 0 (V0 m) [hostOps1] c main_v30
      = tailOf ((dats (F := Ideal) m 0 c).arrAt 3 cfg0.N) := by
  unfold Pipeline.afterTail₀
  show StableHlo.after (hostOps1 (F := Ideal)) _ (Proc.devRef .tc main_v30) = _
  after_results
  rw [show Pipeline.withArrays (cfgs 0).spec c (V0 m c) (fun w => (dats (F := Ideal) m 0 c).arrAt w (cfgs 0).N)
      (Proc.devRef .tc main_v3) = (dats (F := Ideal) m 0 c).arrAt 3 cfg0.N
    from Pipeline.withArrays_arr spec0 launch0.win.arr_inj c _ _ 3]
  rfl

/-- Every execution ends with the result at the grouped total over the number of pixels, the arguments unchanged
    (finite channel values). -/
theorem run (hx : ∀ (c : Dev nD) i, ∃ r : ℝ, m ((c.tc : Thread nD τ).loc main_arg0) i = (r : EReal)) :
    θ_run defs (onTc (τ := τ) (main (F := Ideal))) ⟨m, fun _ => 0, ρ⟩ (fun r => ∀ c : Dev nD,
      r.2.mem ((c.tc : Thread nD τ).loc main_v30)
          = (fun _ => Ideal.div (totalG (chan (m ((c.tc : Thread nD τ).loc main_arg0)))
              (labelOf (m ((c.tc : Thread nD τ).loc main_arg1))) (lineOf (m ((c.tc : Thread nD τ).loc main_arg2)))) npix)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v30 (Pipeline.mem_restRefs_of main_v30 (by decide) (by decide))).trans
        ((tail_eq m c).trans (tailOf_eq _ _ _ _ (fun b r g => stats_value m c (hx c) b r g))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.RefValue.lean ====
import proofs.«411571_j13408887898282_3_alg».proof.Proof.Gen.ReferenceIdeal.Run
import proofs.«411571_j13408887898282_3_alg».proof.Proof.Gen.ReferenceIdeal.Read
import proofs.«411571_j13408887898282_3_alg».proof.Proof.Spec
import proofs.«411571_j13408887898282_3_alg».proof.Proof.LibScatterRows
import Idealize.ShloMosaic.Lib.ValueIdx
import Idealize.ShloMosaic.Lib.Pipeline.Value
import Idealize.ShloMosaic.PureOps.Ideal.Laws
import Idealize.ShloMosaic.Lib.IdealHost

/-!
# The pixel-by-pixel program's result

Every pixel of the batch is numbered `b * 1048576 + q` and its segment `b * 1025 + label`; the segment sums and counts
are accumulated by position, the means gathered back by position, and the weighted squared distances summed over
channels, then over all pixels, and divided by the number of pixels.  With labels in `0 … 1024` every segment number
lies in `0 … 8199`, so no position is dropped, wrapped or clamped.
-/

set_option maxRecDepth 16384

open scoped BigOperators
open Idealize.ShloMosaic Idealize.ShloMosaic.TcCoe Idealize.ShloMosaic.ValueIdx Idealize.SL.Sem
open Cert.ReferenceIdeal Cert.ReferenceIdeal.Gen Cert.SegSpread

noncomputable section

namespace Cert.ReferenceIdeal.RV

variable (m : (ℓ : Loc nD τ sig) → Buf (Elt Ideal) ℓ) (ρ : Dev nD → PrngReg)

/-! ## Words -/

/-- A word whose signed reading lies in 0 … 1024 reads the same unsigned. -/
theorem word_range (w : BitVec 32) (h0 : 0 ≤ w.toInt) (h1 : w.toInt < 1025) :
    w.toNat < 1025 ∧ w.toInt = (w.toNat : Int) := by
  have hlt := w.isLt
  rw [BitVec.toInt_eq_toNat_cond] at h0 h1 ⊢
  split_ifs at h0 h1 ⊢ <;> omega

/-- The segment word of image b and a label word in range, read unsigned: b * 1025 + label. -/
theorem seg_toNat (b : Fin 8) (w : BitVec 32) (hw : w.toNat < 1025) :
    (IntOp.addi (IntOp.muli (BitVec.ofNat 32 b.val) 1025#32) w).toNat = b.val * 1025 + w.toNat := by
  have hb := b.isLt
  unfold IntOp.addi IntOp.muli
  simp only [BitVec.toNat_add, BitVec.toNat_mul, BitVec.toNat_ofNat]
  omega

/-- … and read signed it is the same number. -/
theorem seg_toInt (b : Fin 8) (w : BitVec 32) (hw : w.toNat < 1025) :
    (IntOp.addi (IntOp.muli (BitVec.ofNat 32 b.val) 1025#32) w).toInt = ((b.val * 1025 + w.toNat : ℕ) : Int) := by
  have hb := b.isLt
  have h := seg_toNat b w hw
  rw [BitVec.toInt_eq_toNat_cond, h]
  split_ifs <;> omega

/-- A word that is not negative is not below zero. -/
theorem cmpi_slt_zero (w : BitVec 32) (h : 0 ≤ w.toInt) : IntOp.cmpi .slt w 0#32 = 0#1 := by
  have hs : w.slt 0#32 = false := by
    rw [BitVec.slt_eq_decide, BitVec.toInt_zero]
    exact decide_eq_false (not_lt.mpr h)
  show BitVec.ofBool (w.slt 0#32) = 0#1
  rw [hs]; rfl

/-- A label word in range is above zero exactly when its unsigned reading is positive. -/
theorem cmpi_sgt_zero (w : BitVec 32) (h : w.toInt = (w.toNat : Int)) :
    IntOp.cmpi .sgt w 0#32 = if 0 < w.toNat then 1#1 else 0#1 := by
  show BitVec.ofBool ((0#32).slt w) = _
  rw [BitVec.slt_eq_decide, BitVec.toInt_zero, h]
  by_cases hp : 0 < w.toNat
  · rw [if_pos hp, decide_eq_true (by exact_mod_cast hp)]; rfl
  · rw [if_neg hp, decide_eq_false (by exact_mod_cast hp)]; rfl

/-- A test of two natural numbers through the integers is the test of the numbers. -/
theorem ite_cast {α : Type} (a b : ℕ) (x y : α) :
    (if (a : Int) = (b : Int) then x else y) = if a = b then x else y := by
  by_cases h : a = b
  · rw [if_pos h, if_pos (by rw [h])]
  · rw [if_neg h, if_neg (by exact_mod_cast h)]

/-! ## Positions -/

/-- The flat position of pixel q of image b. -/
abbrev pos (b : Fin 8) (q : Fin 1048576) : Fin 8388608 :=
  ⟨1048576 * b.val + q.val, by have := b.isLt; have := q.isLt; omega⟩
/-- The row of pixel q. -/
abbrev prow (q : Fin 1048576) : Fin 1024 := ⟨q.val / 1024, by have := q.isLt; omega⟩
/-- The column of pixel q. -/
abbrev pcol (q : Fin 1048576) : Fin 1024 := ⟨q.val % 1024, by have := q.isLt; omega⟩

theorem idx10 (b : Fin 8) (q : Fin 1048576) :
    Read.idx_main_v10 (ix1 (pos b q)) = ix3 b (prow q) (pcol q) := by
  have hb := b.isLt; have hq := q.isLt
  funext a
  match a with
  | ⟨0, _⟩ => exact Fin.ext (by show (1048576 * b.val + q.val) / 1048576 = b.val; omega)
  | ⟨1, _⟩ => exact Fin.ext (by show (1048576 * b.val + q.val) / 1024 % 1024 = q.val / 1024; omega)
  | ⟨2, _⟩ => exact Fin.ext (by show (1048576 * b.val + q.val) % 1024 = q.val % 1024; omega)

theorem idx3 (b : Fin 8) (r c : Fin 1024) : Read.idx_main_v3 (ix3 b r c) = ix4 b 0 r c := by
  have hb := b.isLt; have hr := r.isLt; have hc := c.isLt
  funext a
  match a with
  | ⟨0, _⟩ => exact Fin.ext (by show ((b.val * 1024 + r.val) * 1024 + c.val) / 1048576 = b.val; omega)
  | ⟨1, _⟩ => rfl
  | ⟨2, _⟩ => exact Fin.ext (by show ((b.val * 1024 + r.val) * 1024 + c.val) / 1024 % 1024 = r.val; omega)
  | ⟨3, _⟩ => exact Fin.ext (by show ((b.val * 1024 + r.val) * 1024 + c.val) % 1024 = c.val; omega)

theorem idx12 (b : Fin 8) (q : Fin 1048576) (c : Fin 4) :
    Read.idx_main_v11 (Read.idx_main_v12 (ix2 (pos b q) c)) = ix4 b c (prow q) (pcol q) := by
  have hb := b.isLt; have hq := q.isLt; have hc := c.isLt
  funext a
  match a with
  | ⟨0, _⟩ => exact Fin.ext (by show ((1048576 * b.val + q.val) * 4 + c.val) / 4194304 = b.val; omega)
  | ⟨1, _⟩ => exact Fin.ext (by show ((1048576 * b.val + q.val) * 4 + c.val) % 4 = c.val; omega)
  | ⟨2, _⟩ => exact Fin.ext (by show ((1048576 * b.val + q.val) * 4 + c.val) / 4096 % 1024 = q.val / 1024; omega)
  | ⟨3, _⟩ => exact Fin.ext (by show ((1048576 * b.val + q.val) * 4 + c.val) / 4 % 1024 = q.val % 1024; omega)

theorem idx14 (e : Fin 8388608) : Read.idx_main_v14 (StableHlo.Predicate.ixP e) = ix1 e := by
  funext a; match a with | ⟨0, _⟩ => rfl
theorem idx18 (e : Fin 8388608) : Read.idx_main_v18 (StableHlo.Predicate.ixP e) = ix1 e := by
  funext a; match a with | ⟨0, _⟩ => rfl
theorem idx30 (e : Fin 8388608) : Read.idx_main_v30 (StableHlo.Predicate.ixP e) = ix1 e := by
  funext a; match a with | ⟨0, _⟩ => rfl

theorem idx23 (s : Fin 8200) (c : Fin 4) : Read.idx_main_v22 (Read.idx_main_v23 (ix2 s c)) = ix1 s := by
  funext a; match a with | ⟨0, _⟩ => rfl

theorem idx33 (b : Fin 8) (c : Fin 4) (q : Fin 1048576) :
    Read.idx_main_v32 (Read.idx_main_v33 (ix4 b c (prow q) (pcol q))) = ix2 (pos b q) c := by
  have hb := b.isLt; have hq := q.isLt; have hc := c.isLt
  funext a
  match a with
  | ⟨0, _⟩ => exact Fin.ext (by show (((b.val * 1024 + q.val / 1024) * 1024 + q.val % 1024) * 4 + c.val) / 4 = 1048576 * b.val + q.val; omega)
  | ⟨1, _⟩ => exact Fin.ext (by show (((b.val * 1024 + q.val / 1024) * 1024 + q.val % 1024) * 4 + c.val) % 4 = c.val; omega)

theorem idxc1 (b : Fin 8) (c : Fin 4) (r col : Fin 1024) : Read.idx_main_call1_v0 (ix4 b c r col) = ix4 b 0 r col := by
  funext a; match a with | ⟨0, _⟩ => rfl | ⟨1, _⟩ => rfl | ⟨2, _⟩ => rfl | ⟨3, _⟩ => rfl

theorem idx39 (b : Fin 8) (r col : Fin 1024) (k : Fin 4) : Read.idx_main_v39 (ix3 b r col) k = ix4 b k r col := by
  funext a; match a with | ⟨0, _⟩ => rfl | ⟨1, _⟩ => rfl | ⟨2, _⟩ => rfl | ⟨3, _⟩ => rfl

/-- The batch's pixels as pairs (image, pixel number). -/
def pixEquiv : S8x1024x1024.Idx ≃ Fin 8 × Fin 1048576 where
  toFun j := (⟨(j 0).val, (j 0).isLt⟩, ⟨1024 * (j 1).val + (j 2).val, by
    have h1 : (j 1).val < 1024 := (j 1).isLt; have h2 : (j 2).val < 1024 := (j 2).isLt; omega⟩)
  invFun p := ix3 p.1 (prow p.2) (pcol p.2)
  left_inv j := by
    have h1 : (j 1).val < 1024 := (j 1).isLt; have h2 : (j 2).val < 1024 := (j 2).isLt
    funext a
    match a with
    | ⟨0, _⟩ => rfl
    | ⟨1, _⟩ => exact Fin.ext (by show (1024 * (j 1).val + (j 2).val) / 1024 = (j 1).val; omega)
    | ⟨2, _⟩ => exact Fin.ext (by show (1024 * (j 1).val + (j 2).val) % 1024 = (j 2).val; omega)
  right_inv p := by
    have hq := p.2.isLt
    refine Prod.ext (Fin.ext rfl) (Fin.ext ?_)
    show 1024 * (p.2.val / 1024) + p.2.val % 1024 = p.2.val
    omega

/-- A sum over the batch's pixels is the sum over the images of the sums over their pixel numbers. -/
theorem sum_pix {M : Type*} [AddCommMonoid M] (f : S8x1024x1024.Idx → M) :
    ∑ j, f j = ∑ b : Fin 8, ∑ q : Fin 1048576, f (ix3 b (prow q) (pcol q)) := by
  rw [← Equiv.sum_comp pixEquiv.symm f, Fintype.sum_prod_type]
  rfl

/-- The batch's flat positions as pairs (image, pixel number). -/
def posEquiv : Fin 8 × Fin 1048576 ≃ Fin 8388608 where
  toFun p := pos p.1 p.2
  invFun e := (⟨e.val / 1048576, by have := e.isLt; omega⟩, ⟨e.val % 1048576, by have := e.isLt; omega⟩)
  left_inv p := by
    have hb := p.1.isLt; have hq := p.2.isLt
    refine Prod.ext (Fin.ext ?_) (Fin.ext ?_)
    · show (1048576 * p.1.val + p.2.val) / 1048576 = p.1.val; omega
    · show (1048576 * p.1.val + p.2.val) % 1048576 = p.2.val; omega
  right_inv e := by
    have he := e.isLt
    refine Fin.ext ?_
    show 1048576 * (e.val / 1048576) + e.val % 1048576 = e.val
    omega

/-- A sum over the flat positions is the sum over the images of the sums over their pixel numbers. -/
theorem sum_pos {M : Type*} [AddCommMonoid M] (g : Fin 8388608 → M) :
    ∑ e, g e = ∑ b : Fin 8, ∑ q : Fin 1048576, g (pos b q) := by
  rw [← Equiv.sum_comp posEquiv g, Fintype.sum_prod_type]
  rfl

/-! ## The stages of the program, read at a pixel -/

section Stages

variable (x0 : (⟨S8x4x1024x1024, .f32⟩ : BufTy).Contents (Elt Ideal))
  (x1 : (⟨S8x1x1024x1024, .i32⟩ : BufTy).Contents (Elt Ideal))
  (x2 : (⟨S8x1024x1024, .f32⟩ : BufTy).Contents (Elt Ideal))

/-- The segment word of pixel q of image b: the image number times 1025 plus the label word. -/
theorem seg_word (b : Fin 8) (q : Fin 1048576) :
    Read.val_main_v10 (F := Ideal) x1 (ix1 (pos b q))
      = IntOp.addi (IntOp.muli (BitVec.ofNat 32 b.val) 1025#32) (labelWord x1 b q) := by
  rw [Read.val_main_v10_apply, idx10, Read.val_main_v9_apply, Read.val_main_v8_apply, Read.val_main_v7_apply,
    Read.val_main_v5_apply, Read.val_main_v6_apply, Read.val_main_v4_apply, Read.val_main_c_apply,
    Read.val_main_v3_apply, idx3]
  rfl

/-- A choice between one and zero on "t exceeds u" is the indicator of that. -/
theorem select_ogt (t u : EReal) :
    Scalar.select (Ideal.cmp .ogt t u) (1 : EReal) 0 = if u < t then 1 else 0 := by
  by_cases h : u < t
  · have hc : Ideal.cmp .ogt t u = 1#1 := by
      show BitVec.ofBool (decide (u < t)) = 1#1
      rw [decide_eq_true h]; rfl
    rw [if_pos h, hc, select_one]
  · have hc : Ideal.cmp .ogt t u = 0#1 := by
      show BitVec.ofBool (decide (u < t)) = 0#1
      rw [decide_eq_false h]; rfl
    rw [if_neg h, hc, select_zero]

/-- The line weight of pixel q of image b. -/
theorem v2_eq (b : Fin 8) (q : Fin 1048576) :
    Read.val_main_v2 (F := Ideal) x2 (ix3 b (prow q) (pcol q)) = lineW (lineOf x2 b q) := by
  rw [Read.val_main_v2_apply, Read.val_main_v1_apply, Read.val_main_v0_apply, Read.val_main_cst_apply,
    Read.val_main_call0_v0_apply, Read.val_main_cst_0_apply, Read.val_main_call0_v1_apply, Read.val_main_cst_1_apply,
    Ideal.ofBits_def, Ideal.ofBits_def, Ideal.ofBits_def, Ideal.ofBits_zero_f32, Ideal.ofBits_one_f32, Ideal.cmpf_def]
  exact select_ogt _ _

variable (hl : ∀ i, 0 ≤ (x1 i).toInt ∧ (x1 i).toInt < 1025)
include hl

theorem lab_lt (b : Fin 8) (q : Fin 1048576) : labelOf x1 b q < 1025 :=
  (word_range _ (hl _).1 (hl _).2).1

theorem lab_toInt (b : Fin 8) (q : Fin 1048576) : (labelWord x1 b q).toInt = ((labelWord x1 b q).toNat : Int) :=
  (word_range _ (hl _).1 (hl _).2).2

/-- Read signed, the segment word is b * 1025 + label. -/
theorem seg_int (b : Fin 8) (q : Fin 1048576) :
    (Read.val_main_v10 (F := Ideal) x1 (ix1 (pos b q))).toInt = ((b.val * 1025 + labelOf x1 b q : ℕ) : Int) := by
  rw [seg_word]
  exact seg_toInt b _ (lab_lt x1 hl b q)

/-- The accumulated channel sums: row s, channel c holds the sum of channel c over the pixels of segment s. -/
theorem v15_eq (s : Fin 8200) (c : Fin 4) :
    Read.val_main_v15 (F := Ideal) x0 x1 (ix2 s c) = segSum (chan x0) (labelOf x1) s.val c := by
  unfold Read.val_main_v15
  rw [Host.scatterAdd, Ideal.hostScatterAdd_def,
    Cert.ScatterRows.hostScatterAdd_rows scatter_S8200x4_S8388608x1_S8388608x4_1_0_0_1 rfl rfl rfl rfl,
    Read.val_main_v13_apply, Read.val_main_cst_2_apply, Ideal.ofBits_def, Ideal.ofBits_zero_f32, sum_pos]
  unfold segSum
  refine congrArg (fun t => (0 : EReal) + t) (Finset.sum_congr rfl fun b _ => Finset.sum_congr rfl fun q _ => ?_)
  rw [Read.val_main_v14_apply, idx14, seg_int x1 hl, ite_cast, Read.val_main_v12_apply, Read.val_main_v11_apply, idx12]
  rfl

/-- The accumulated counts: entry s holds the number of pixels of segment s. -/
theorem v19_eq (s : Fin 8200) :
    Read.val_main_v19 (F := Ideal) x1 (ix1 s) = segCnt (labelOf x1) s.val := by
  unfold Read.val_main_v19
  rw [Host.scatterAdd, Ideal.hostScatterAdd_def,
    Cert.ScatterRows.hostScatterAdd_vec scatter_S8200_S8388608x1_S8388608_n_0_0_1 rfl rfl rfl rfl,
    Read.val_main_v17_apply, Read.val_main_cst_4_apply, Ideal.ofBits_def, Ideal.ofBits_zero_f32, sum_pos]
  unfold segCnt
  refine congrArg (fun t => (0 : EReal) + t) (Finset.sum_congr rfl fun b _ => Finset.sum_congr rfl fun q _ => ?_)
  rw [Read.val_main_v18_apply, idx18, seg_int x1 hl, ite_cast, Read.val_main_v16_apply, Read.val_main_cst_3_apply,
    Ideal.ofBits_def, Ideal.ofBits_one_f32]

/-- The segment means. -/
theorem v24_eq (s : Fin 8200) (c : Fin 4) :
    Read.val_main_v24 (F := Ideal) x0 x1 (ix2 s c) = segMean (chan x0) (labelOf x1) s.val c := by
  rw [Read.val_main_v24_apply, Ideal.hostDivf_def, v15_eq x0 x1 hl, Read.val_main_v23_apply, Read.val_main_v22_apply,
    idx23, Read.val_main_v21_apply, Ideal.maximumf_def, v19_eq x1 hl, Read.val_main_v20_apply,
    Read.val_main_cst_5_apply, Ideal.ofBits_def, Ideal.ofBits_one_f32]
  rfl

/-- The row number the gather reads for pixel q of image b, read signed: the segment number itself. -/
theorem v30_int (b : Fin 8) (q : Fin 1048576) :
    (Read.val_main_v30 (F := Ideal) x1 (StableHlo.Predicate.ixP (pos b q))).toInt = ((b.val * 1025 + labelOf x1 b q : ℕ) : Int) := by
  have h0 : 0 ≤ (Read.val_main_v10 (F := Ideal) x1 (ix1 (pos b q))).toInt := by
    rw [seg_int x1 hl]; omega
  rw [Read.val_main_v30_apply, idx30, Read.val_main_v29_apply, Read.val_main_v26_apply, Read.val_main_v25_apply,
    Read.val_main_c_6_apply, cmpi_slt_zero _ h0, select_zero, seg_int x1 hl]

/-- The gathered mean of pixel q of image b: the mean of its segment. -/
theorem v31_eq (b : Fin 8) (q : Fin 1048576) (c : Fin 4) :
    Read.val_main_v31 (F := Ideal) x0 x1 (ix2 (pos b q) c)
      = segMean (chan x0) (labelOf x1) (b.val * 1025 + labelOf x1 b q) c := by
  have hb := b.isLt
  have hlab := lab_lt x1 hl b q
  have hs : b.val * 1025 + labelOf x1 b q < 8200 := by omega
  unfold Read.val_main_v31
  rw [Cert.ScatterRows.gather_rows gather_S8200x4_S8388608x1_S8388608x4_1_0_n_n_0_1_14 rfl rfl rfl rfl rfl rfl _ _ _ _ (show 0 < 8200 by norm_num)]
  have hrow : ∀ h, (⟨min (Read.val_main_v30 (F := Ideal) x1 (StableHlo.Predicate.ixP (pos b q))).toInt.toNat (8200 - 1), h⟩ : Fin 8200)
      = ⟨b.val * 1025 + labelOf x1 b q, hs⟩ := fun h => Fin.ext (by
    show min (Read.val_main_v30 (F := Ideal) x1 (StableHlo.Predicate.ixP (pos b q))).toInt.toNat (8200 - 1) = b.val * 1025 + labelOf x1 b q
    rw [v30_int x1 hl]; omega)
  rw [hrow, v24_eq x0 x1 hl]

/-- The value pixel q of image b is compared with in channel c: its segment's mean, zero at label 0. -/
theorem v36_eq (b : Fin 8) (c : Fin 4) (q : Fin 1048576) :
    Read.val_main_v36 (F := Ideal) x0 x1 (ix4 b c (prow q) (pcol q)) = pixMean (chan x0) (labelOf x1) b c q := by
  rw [Read.val_main_v36_apply, Read.val_main_call1_v0_apply, idxc1, Read.val_main_v35_apply, Read.val_main_v34_apply,
    Read.val_main_c_8_apply, Read.val_main_v33_apply, Read.val_main_v32_apply, idx33, v31_eq x0 x1 hl,
    Read.val_main_call1_v1_apply, Read.val_main_cst_9_apply, Ideal.ofBits_def, Ideal.ofBits_zero_f32]
  show Scalar.select (IntOp.cmpi .sgt (labelWord x1 b q) 0#32) _ _ = _
  rw [cmpi_sgt_zero _ (lab_toInt x1 hl b q)]
  unfold pixMean
  by_cases hp : 0 < labelOf x1 b q
  · rw [if_pos hp, if_pos (show 0 < (labelWord x1 b q).toNat from hp), select_one]
  · rw [if_neg hp, if_neg (show ¬ 0 < (labelWord x1 b q).toNat from hp), select_zero]

/-- The squared distance of pixel q of image b to its segment's mean, summed over the channels. -/
theorem v39_eq (b : Fin 8) (q : Fin 1048576) :
    Read.val_main_v39 (F := Ideal) x0 x1 (ix3 b (prow q) (pcol q)) = pixSpread (chan x0) (labelOf x1) b q := by
  rw [Read.val_main_v39_apply, Read.val_main_cst_10_apply, Ideal.ofBits_def, Ideal.ofBits_zero_f32]
  unfold pixSpread
  refine congrArg (fun t => (0 : EReal) + t) (Finset.sum_congr rfl fun k _ => ?_)
  rw [idx39, Read.val_main_v38_apply, Read.val_main_v37_apply, v36_eq x0 x1 hl, Ideal.mulf_def, Ideal.subf_def]
  rfl

/-- The weighted distance of pixel q of image b. -/
theorem v41_eq (b : Fin 8) (q : Fin 1048576) :
    Read.val_main_v41 (F := Ideal) x0 x1 x2 (ix3 b (prow q) (pcol q))
      = lineW (lineOf x2 b q) * pixSpread (chan x0) (labelOf x1) b q := by
  rw [Read.val_main_v41_apply, Read.val_main_v40_apply, v2_eq, v39_eq x0 x1 hl, Ideal.mulf_def]

/-- The program's result: the total over all pixels divided by the number of pixels. -/
theorem v43_eq : Read.val_main_v43 (F := Ideal) x0 x1 x2
      = fun _ => Ideal.div (totalP (chan x0) (labelOf x1) (lineOf x2)) npix := by
  funext i
  rw [Read.val_main_v43_apply, Ideal.hostDivf_def, Read.val_main_v42_apply, Read.val_main_cst_11_apply,
    Read.val_main_cst_12_apply, Ideal.ofBits_def, Ideal.ofBits_def, Ideal.ofBits_zero_f32, sum_pix]
  simp only [v41_eq x0 x1 x2 hl]
  rfl

end Stages

/-- Every execution ends with the result at the pixel-by-pixel total over the number of pixels, the arguments
    unchanged (labels in their range). -/
theorem run (hlab : ∀ (c : Dev nD) i, 0 ≤ (m ((c.tc : Thread nD τ).loc main_arg1) i).toInt
      ∧ (m ((c.tc : Thread nD τ).loc main_arg1) i).toInt < 1025) :
    θ_run defs (onTc (τ := τ) (main (F := Ideal))) ⟨m, fun _ => 0, ρ⟩ (fun r => ∀ c : Dev nD,
      r.2.mem ((c.tc : Thread nD τ).loc main_v43)
          = (fun _ => Ideal.div (totalP (chan (m ((c.tc : Thread nD τ).loc main_arg0)))
              (labelOf (m ((c.tc : Thread nD τ).loc main_arg1))) (lineOf (m ((c.tc : Thread nD τ).loc main_arg2)))) npix)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨(h c).1.trans ?_, (h c).2⟩)
    (Cert.ReferenceIdeal.Value.run (F := Ideal) m ρ)
  rw [Read.val_main_v43_eq]
  exact v43_eq _ _ _ (hlab c)

end Cert.ReferenceIdeal.RV

end
-- ==== Proof.Algebra.lean ====
import proofs.«411571_j13408887898282_3_alg».proof.Proof.Spec
import proofs.«411571_j13408887898282_3_alg».proof.Proof.LibMoments
import Mathlib.Tactic.Ring

/-!
# Grouping by label first, or pixel by pixel: the same total

For finite channel values and labels below 1025, `w * sum_c (x_c - m_c)^2 = w * sum_c x_c^2 - 2 * sum_c m_c * (w * x_c)
+ (sum_c m_c^2) * w` at every pixel, with `m` the mean of the pixel's own label in its own image (zero at label 0);
summing the right side over the pixels of one label gives that label's contribution, and a segment number
`b * 1025 + g` with `g < 1025` determines `b` and `g`.
-/

open scoped BigOperators
open Idealize.ShloMosaic

noncomputable section

namespace Cert.SegSpread

/-! ## The regrouping over the reals -/

/-- One pixel: the weighted squared distance to any four numbers m, expanded. -/
theorem real_pixel (w : ℝ) (y m : Fin 4 → ℝ) :
    w * ∑ c, (y c - m c) * (y c - m c)
      = (∑ c, w * y c * y c) - 2 * ∑ c, m c * (w * y c) + (∑ c, m c * m c) * w := by
  simp only [Fin.sum_univ_four]
  ring

/-- One label: the three sums over the pixels selected by p, combined with any four numbers m, are the sum over
    those pixels of the weighted squared distances to m. -/
theorem real_label {Q : Type*} [Fintype Q] (p : Q → Prop) [DecidablePred p] (w : Q → ℝ) (y : Fin 4 → Q → ℝ)
    (m : Fin 4 → ℝ) :
    (∑ q, if p q then ∑ c, w q * y c q * y c q else 0)
        - 2 * ∑ c, m c * (∑ q, if p q then w q * y c q else 0)
        + (∑ c, m c * m c) * (∑ q, if p q then w q else 0)
      = ∑ q, if p q then w q * ∑ c, (y c q - m c) * (y c q - m c) else 0 := by
  have h : ∀ q, (if p q then w q * ∑ c, (y c q - m c) * (y c q - m c) else 0)
      = (if p q then ∑ c, w q * y c q * y c q else 0)
        - 2 * ∑ c, m c * (if p q then w q * y c q else 0)
        + (∑ c, m c * m c) * (if p q then w q else 0) := by
    intro q
    split_ifs
    · exact real_pixel (w q) (fun c => y c q) m
    · simp
  rw [Fintype.sum_congr _ _ h, Finset.sum_add_distrib, Finset.sum_sub_distrib, ← Finset.mul_sum,
    ← Finset.mul_sum, Finset.sum_comm]
  simp only [Finset.mul_sum]

/-- All labels: every pixel carries exactly one label below N, so summing the labels' contributions counts each
    pixel once, against the four numbers of its own label. -/
theorem real_regroup {Q : Type*} [Fintype Q] {N : ℕ} (l : Q → ℕ) (hl : ∀ q, l q < N) (w : Q → ℝ)
    (y : Fin 4 → Q → ℝ) (m : Fin 4 → Fin N → ℝ) :
    ∑ g : Fin N, ((∑ q, if l q = g.val then ∑ c, w q * y c q * y c q else 0)
        - 2 * ∑ c, m c g * (∑ q, if l q = g.val then w q * y c q else 0)
        + (∑ c, m c g * m c g) * (∑ q, if l q = g.val then w q else 0))
      = ∑ q, w q * ∑ c, (y c q - m c ⟨l q, hl q⟩) * (y c q - m c ⟨l q, hl q⟩) := by
  have h : ∀ g : Fin N, ((∑ q, if l q = g.val then ∑ c, w q * y c q * y c q else 0)
        - 2 * ∑ c, m c g * (∑ q, if l q = g.val then w q * y c q else 0)
        + (∑ c, m c g * m c g) * (∑ q, if l q = g.val then w q else 0))
      = ∑ q, if l q = g.val then w q * ∑ c, (y c q - m c g) * (y c q - m c g) else 0 :=
    fun g => real_label (fun q => l q = g.val) w y (fun c => m c g)
  rw [Fintype.sum_congr _ _ h, Finset.sum_comm]
  refine Finset.sum_congr rfl fun q _ => ?_
  rw [Finset.sum_eq_single (⟨l q, hl q⟩ : Fin N)]
  · rw [if_pos rfl]
  · intro g _ hg
    rw [if_neg]
    intro h'
    exact hg (Fin.ext h'.symm)
  · intro h'
    exact absurd (Finset.mem_univ _) h'

/-! ## The regrouping over finite extended reals -/

/-- A coerced real or zero is the coercion of the real or zero. -/
theorem coe_ite_zero (p : Prop) [Decidable p] (a : ℝ) :
    (if p then (a : EReal) else 0) = ((if p then a else 0 : ℝ) : EReal) := by
  split_ifs <;> rfl

/-- The regrouping for finite weights, channel values and means: every quantity is the coercion of a real, the
    coercion passes through the sums, products and differences, and the identity is the one over the reals. -/
theorem ereal_regroup {Q : Type*} [Fintype Q] {N : ℕ} (l : Q → ℕ) (hl : ∀ q, l q < N) (W : Q → EReal)
    (Y : Fin 4 → Q → EReal) (M : Fin 4 → Fin N → EReal) (hW : ∀ q, ∃ r : ℝ, W q = (r : EReal))
    (hY : ∀ c q, ∃ r : ℝ, Y c q = (r : EReal)) (hM : ∀ c g, ∃ r : ℝ, M c g = (r : EReal)) :
    ∑ g : Fin N, (((∑ q, if l q = g.val then ∑ c, W q * Y c q * Y c q else 0)
        - 2 * (0 + ∑ c, M c g * (∑ q, if l q = g.val then W q * Y c q else 0)))
        + (0 + ∑ c, M c g * M c g) * (∑ q, if l q = g.val then W q else 0))
      = ∑ q, W q * (0 + ∑ c, (Y c q - M c ⟨l q, hl q⟩) * (Y c q - M c ⟨l q, hl q⟩)) := by
  choose w hw using hW
  choose y hy using hY
  choose m hm using hM
  obtain rfl : W = fun q => (w q : EReal) := funext hw
  obtain rfl : Y = fun c q => (y c q : EReal) := funext fun c => funext (hy c)
  obtain rfl : M = fun c g => (m c g : EReal) := funext fun c => funext (hm c)
  have h2 : (2 : EReal) = ((2 : ℝ) : EReal) := rfl
  simp only [zero_add, h2, ← EReal.coe_mul, Cert.Moments.coe_sum, coe_ite_zero, ← EReal.coe_sub,
    ← EReal.coe_add]
  exact congrArg _ (real_regroup l hl w y m)

/-! ## The eleven quantities of a pixel, one by one -/

section Rows

variable (x : Fin 8 → Fin 4 → Fin 1048576 → EReal) (lab : Fin 8 → Fin 1048576 → ℕ) (v : Fin 8 → Fin 1048576 → EReal)

theorem row_one (b : Fin 8) (q : Fin 1048576) : row x v b 0 q = 1 := by
  unfold row
  rw [if_pos (by decide)]

theorem row_chan (b : Fin 8) (c : Fin 4) (q : Fin 1048576) :
    row x v b ⟨c.val + 1, by omega⟩ q = x b c q := by
  have hc := c.isLt
  unfold row
  rw [if_neg (by simp), dif_pos (by simp; omega)]
  rfl

theorem row_weight (b : Fin 8) (q : Fin 1048576) : row x v b 5 q = lineW (v b q) := by
  unfold row
  rw [if_neg (by decide), dif_neg (by decide), if_pos (by decide)]

theorem row_wchan (b : Fin 8) (c : Fin 4) (q : Fin 1048576) :
    row x v b ⟨c.val + 6, by omega⟩ q = lineW (v b q) * x b c q := by
  have hc := c.isLt
  unfold row
  rw [if_neg (by simp), dif_neg (by simp), if_neg (by simp), dif_pos (by simp; omega)]
  rfl

theorem row_squares (b : Fin 8) (q : Fin 1048576) :
    row x v b 10 q = ∑ c : Fin 4, lineW (v b q) * x b c q * x b c q := by
  unfold row
  rw [if_neg (by decide), dif_neg (by decide), if_neg (by decide), dif_neg (by decide)]

end Rows

/-! ## Every mean is finite -/

section Finite

variable (x : Fin 8 → Fin 4 → Fin 1048576 → EReal) (lab : Fin 8 → Fin 1048576 → ℕ) (v : Fin 8 → Fin 1048576 → EReal)

/-- The weight is the real 1 or the real 0. -/
theorem lineW_finite (t : EReal) : ∃ r : ℝ, lineW t = (r : EReal) := by
  unfold lineW
  split_ifs
  · exact ⟨1, rfl⟩
  · exact ⟨0, rfl⟩

/-- A real divided by the larger of a real and one: the divisor is a real at least one, so the quotient is the
    product with its reciprocal. -/
theorem div_max_one_finite (a n : ℝ) : ∃ r : ℝ, Ideal.div (a : EReal) (max (n : EReal) 1) = (r : EReal) := by
  have hne : max n 1 ≠ 0 := ne_of_gt (lt_of_lt_of_le one_pos (le_max_right n 1))
  have hmax : max (n : EReal) 1 = ((max n 1 : ℝ) : EReal) :=
    (EReal.coe_strictMono.monotone.map_max (a := n) (b := 1)).symm
  refine ⟨a * (1 / max n 1), ?_⟩
  rw [hmax, Ideal.div_coe hne, ← EReal.coe_mul]

/-- The sum of a channel over a label is a real. -/
theorem stat_chan_finite (hx : ∀ b c q, ∃ r : ℝ, x b c q = (r : EReal)) (b : Fin 8) (c : Fin 4) (g : Fin 1280) :
    ∃ r : ℝ, stat x lab v b ⟨c.val + 1, by omega⟩ g = (r : EReal) := by
  choose xr hxr using hx
  unfold stat
  simp only [row_chan, hxr, coe_ite_zero, Cert.Moments.coe_sum]
  exact ⟨_, rfl⟩

/-- The number of pixels of a label is a real. -/
theorem stat_count_finite (b : Fin 8) (g : Fin 1280) : ∃ r : ℝ, stat x lab v b 0 g = (r : EReal) := by
  unfold stat
  simp only [row_one, ← EReal.coe_one, coe_ite_zero, Cert.Moments.coe_sum]
  exact ⟨_, rfl⟩

/-- So the mean of a channel over a label is a real. -/
theorem meanG_finite (hx : ∀ b c q, ∃ r : ℝ, x b c q = (r : EReal)) (b : Fin 8) (c : Fin 4) (g : Fin 1280) :
    ∃ r : ℝ, meanG x lab v b c g = (r : EReal) := by
  unfold meanG
  split_ifs
  · exact ⟨0, rfl⟩
  · obtain ⟨a, ha⟩ := stat_chan_finite x lab v hx b c g
    obtain ⟨n, hn⟩ := stat_count_finite x lab v b g
    rw [ha, hn]
    exact div_max_one_finite a n

end Finite

/-! ## A segment number determines the image and the label -/

section Segments

variable (x : Fin 8 → Fin 4 → Fin 1048576 → EReal) (lab : Fin 8 → Fin 1048576 → ℕ) (v : Fin 8 → Fin 1048576 → EReal)

/-- With every label below 1025, the pixels of segment b * 1025 + g (g below 1025) are the pixels of image b that
    carry label g: a sum over the batch restricted to the segment is the sum over image b restricted to label g. -/
theorem seg_sum_single (hlab : ∀ b q, lab b q < 1025) (f : Fin 8 → Fin 1048576 → EReal) (b : Fin 8) (g : ℕ)
    (hg : g < 1025) :
    (∑ b' : Fin 8, ∑ q' : Fin 1048576, if b'.val * 1025 + lab b' q' = b.val * 1025 + g then f b' q' else 0)
      = ∑ q' : Fin 1048576, if lab b q' = g then f b q' else 0 := by
  rw [Finset.sum_eq_single b]
  · refine Finset.sum_congr rfl fun q' _ => ?_
    exact if_congr (by omega) rfl rfl
  · intro b' _ hb
    refine Finset.sum_eq_zero fun q' _ => ?_
    rw [if_neg]
    intro h
    have := hlab b' q'
    exact hb (Fin.ext (by omega))
  · intro h
    exact absurd (Finset.mem_univ _) h

theorem segSum_eq (hlab : ∀ b q, lab b q < 1025) (b : Fin 8) (c : Fin 4) (g : ℕ) (hg : g < 1025) :
    segSum x lab (b.val * 1025 + g) c = stat x lab v b ⟨c.val + 1, by omega⟩ ⟨g, by omega⟩ := by
  unfold segSum stat
  rw [zero_add, seg_sum_single lab hlab (fun b' q' => x b' c q') b g hg]
  simp only [row_chan, Fin.val_mk]

theorem segCnt_eq (hlab : ∀ b q, lab b q < 1025) (b : Fin 8) (g : ℕ) (hg : g < 1025) :
    segCnt lab (b.val * 1025 + g) = stat x lab v b 0 ⟨g, by omega⟩ := by
  unfold segCnt stat
  rw [zero_add, seg_sum_single lab hlab (fun _ _ => 1) b g hg]
  simp only [row_one, Fin.val_mk]

/-- The mean a pixel is compared with is the mean of its own label in its own image. -/
theorem pixMean_eq (hlab : ∀ b q, lab b q < 1025) (b : Fin 8) (c : Fin 4) (q : Fin 1048576) :
    pixMean x lab b c q = meanG x lab v b c ⟨lab b q, by have := hlab b q; omega⟩ := by
  unfold pixMean meanG
  by_cases h : lab b q = 0
  · rw [if_neg (by omega), if_pos h]
  · rw [if_pos (by omega), if_neg h]
    unfold segMean
    rw [segSum_eq x lab v hlab b c (lab b q) (hlab b q), segCnt_eq x lab v hlab b (lab b q) (hlab b q)]

end Segments

/-! ## The two totals -/

section Totals

variable (x : Fin 8 → Fin 4 → Fin 1048576 → EReal) (lab : Fin 8 → Fin 1048576 → ℕ) (v : Fin 8 → Fin 1048576 → EReal)

/-- One image: the contributions of its labels are the weighted distances of its pixels. -/
theorem sum_spreadG_eq (hx : ∀ b c q, ∃ r : ℝ, x b c q = (r : EReal)) (hlab : ∀ b q, lab b q < 1025) (b : Fin 8) :
    ∑ g : Fin 1280, spreadG x lab v b g = ∑ q : Fin 1048576, lineW (v b q) * pixSpread x lab b q := by
  have h := ereal_regroup (N := 1280) (lab b) (fun q => by have := hlab b q; omega) (fun q => lineW (v b q))
    (fun c q => x b c q) (fun c g => meanG x lab v b c g) (fun q => lineW_finite _) (fun c q => hx b c q)
    (fun c g => meanG_finite x lab v hx b c g)
  simp only [spreadG, stat, row_squares, row_wchan, row_weight, pixSpread, pixMean_eq x lab v hlab]
  exact h

end Totals

/-- The two totals agree. -/
theorem totalG_eq_totalP (x : Fin 8 → Fin 4 → Fin 1048576 → EReal) (lab : Fin 8 → Fin 1048576 → ℕ)
    (v : Fin 8 → Fin 1048576 → EReal) (hx : ∀ b c q, ∃ r : ℝ, x b c q = (r : EReal))
    (hlab : ∀ b q, lab b q < 1025) :
    totalG x lab v = totalP x lab v := by
  unfold totalG totalP
  rw [Fintype.sum_congr _ _ (sum_spreadG_eq x lab v hx hlab)]

end Cert.SegSpread

end
-- ==== Proof.PreDecode.lean ====
import proofs.«411571_j13408887898282_3_alg».proof.Proof.Gen.Pre_finite_inputs
import proofs.«411571_j13408887898282_3_alg».proof.Defs
import Idealize.ShloMosaic.Lib.ReduceAll
import Idealize.ShloMosaic.Lib.StableHlo.Predicate
import Idealize.ShloMosaic.Lib.ValueIdx

/-!
# What the precondition says of the arrays

The precondition is the conjunction of four tests over whole arrays: every channel value and every line value is
finite, every label is at least 0 and every label is below 1025 (labels compared as signed words).
-/

set_option maxRecDepth 16384

open Idealize.ShloMosaic Idealize.ShloMosaic.TcCoe Idealize.SL.Sem

noncomputable section

namespace Cert.PreRead

instance : Subsingleton Cert.Pre_finite_inputs.S_.Idx := ⟨fun a b => funext fun d => d.elim0⟩

/-- An extended real whose absolute value `max x (-x)` lies strictly below `⊤` is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The word `0x7F800000` denotes `+∞`. -/
theorem ofBits_inf : Ideal.ofBits .f32 0x7F800000#32 = (⊤ : EReal) := by
  simp [Ideal.ofBits, Ideal.ieee]

/-- One element of the finiteness test: `|x| < +∞` makes `x` a real number. -/
theorem real_of_test (x : Ideal .f32)
    (hx : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  simp only [StableHlo.Predicate.ofBool_eq_one_iff, decide_eq_true_eq] at hx
  exact real_of_abs_lt_top x hx

/-- One element of the lower test: a word that is signed-at-least `0` has a non-negative value. -/
theorem nonneg_of_test (a : BitVec 32) (ha : IntOp.cmpi .sge a 0#32 = 1#1) : 0 ≤ a.toInt := by
  unfold IntOp.cmpi at ha
  simp only [StableHlo.Predicate.ofBool_eq_one_iff, BitVec.sle, decide_eq_true_eq] at ha
  have h0 : (0#32 : BitVec 32).toInt = 0 := by decide
  rw [h0] at ha
  exact ha

/-- One element of the upper test: a word that is signed-below `1025` has a value below 1025. -/
theorem lt_of_test (a : BitVec 32) (ha : IntOp.cmpi .slt a 1025#32 = 1#1) : a.toInt < 1025 := by
  unfold IntOp.cmpi at ha
  simp only [StableHlo.Predicate.ofBool_eq_one_iff, BitVec.slt, decide_eq_true_eq] at ha
  have h0 : (1025#32 : BitVec 32).toInt = 1025 := by decide
  rw [h0] at ha
  exact ha

/-- Under the precondition every channel value is a real number and every label lies in `0 … 1024`. -/
theorem of_pre [hP : Cert.Pre_finite_inputs.Facts]
    (A0 : FVec Ideal Cert.Pre_finite_inputs.S8x4x1024x1024 .f32) (A1 : IVec Cert.Pre_finite_inputs.S8x1x1024x1024 32)
    (A2 : FVec Ideal Cert.Pre_finite_inputs.S8x1024x1024 .f32)
    (h : Cert.Pre_finite_inputs.fn (F := Ideal) A0 A1 A2 = (fun _ => 1#1)) :
    (∀ i, ∃ r : ℝ, A0 i = (r : EReal)) ∧ (∀ i, 0 ≤ (A1 i).toInt ∧ (A1 i).toInt < 1025) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ⟨?_, ?_⟩⟩
  · exact real_of_test (A0 i) (Host.reduce_andi_all _ _ _ _ _ h1 i)
  · have e := Host.reduce_andi_all _ _ _ _ _ h3 i
    exact nonneg_of_test (A1 i) e
  · have e := Host.reduce_andi_all _ _ _ _ _ h4 i
    exact lt_of_test (A1 i) e

end Cert.PreRead

end
-- ==== Proof.lean ====
/-
  A per-image, per-label variance total computed two ways.

  One program accumulates, tile by tile, eleven grouped sums per image and label (count, channel sums, weight,
  weighted channel sums, weighted sum of squares), then evaluates `S2 - 2 * sum_c mean_c * S1_c + (sum_c mean_c^2) * S0`
  per label with the label's channel means (zero at label 0), sums over images and labels and divides by the number
  of pixels.  The other forms every pixel's segment mean by position, and sums the weighted squared distances
  pixel by pixel before the same division.

  The two totals agree when the channel values are finite (the expansion of the square distributes products over
  sums) and every label lies in `0 … 1024` (a segment number `b * 1025 + g` then names one image and one label).
  The precondition says both; the label range is the one the pixel-by-pixel program's own segment numbering needs.
-/
import proofs.«411571_j13408887898282_3_alg».proof.Defs
import proofs.«411571_j13408887898282_3_alg».proof.Proof.Gen.Kernel
import proofs.«411571_j13408887898282_3_alg».proof.Proof.Gen.Kernel.Frame
import proofs.«411571_j13408887898282_3_alg».proof.Proof.Gen.KernelIdeal
import proofs.«411571_j13408887898282_3_alg».proof.Proof.Gen.KernelIdeal.Frame
import proofs.«411571_j13408887898282_3_alg».proof.Proof.Gen.ReferenceIdeal
import proofs.«411571_j13408887898282_3_alg».proof.Proof.Gen.ReferenceIdeal.Run
import proofs.«411571_j13408887898282_3_alg».proof.Proof.Gen.Pre_finite_inputs
import proofs.«411571_j13408887898282_3_alg».proof.Proof.KTail
import proofs.«411571_j13408887898282_3_alg».proof.Proof.RefValue
import proofs.«411571_j13408887898282_3_alg».proof.Proof.Algebra
import proofs.«411571_j13408887898282_3_alg».proof.Proof.PreDecode
import Idealize.ShloMosaic.Adequacy
import Idealize.ShloMosaic.Init

noncomputable section

namespace Cert.Proof

open Idealize.ShloMosaic Idealize.ShloMosaic.TcCoe Idealize.SL.Sem Cert.SegSpread

/-- The word-level program runs and leaves its arguments unchanged. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The pixel-by-pixel program runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: narrowing the table of quantities to the short format and widening it back
    is the identity on exact values. -/
theorem preserves : Cert.preserves_Kernel_KernelIdeal :=
  IdealRules.truncf_extf.statement Cert.KernelIdeal.S11x8192 .f32 .bf16

/-- Both programs end at the same total over the number of pixels. -/
theorem algebraic : Cert.algebraic_KernelIdeal_ReferenceIdeal := by
  intro m ρ m' ρ' hpre hagree
  have hdec := fun c => Cert.PreRead.of_pre _ _ _ (hpre c)
  refine ⟨fun c => fun _ => Ideal.div (totalG (chan (m ((c.tc : Thread Cert.KernelIdeal.nD Cert.KernelIdeal.τ).loc Cert.KernelIdeal.main_arg0)))
      (labelOf (m ((c.tc : Thread Cert.KernelIdeal.nD Cert.KernelIdeal.τ).loc Cert.KernelIdeal.main_arg1)))
      (lineOf (m ((c.tc : Thread Cert.KernelIdeal.nD Cert.KernelIdeal.τ).loc Cert.KernelIdeal.main_arg2)))) npix,
    Cert.KernelIdeal.KV.run m ρ (fun c => (hdec c).1), ?_⟩
  refine (θ_run Cert.ReferenceIdeal.defs _ _).mono (fun r h c => ?_)
    (Cert.ReferenceIdeal.RV.run m' ρ' (fun c i => by rw [(hagree c).2.1]; exact (hdec c).2 i))
  obtain ⟨h1, h2, h3, h4⟩ := h c
  refine ⟨h1.trans ?_, h2, h3, h4⟩
  rw [(hagree c).1, (hagree c).2.1, (hagree c).2.2]
  -- every channel value is a real number, and every label, read unsigned, is below 1025
  have hfin : ∀ b ch q, ∃ t : ℝ,
      chan (m ((c.tc : Thread Cert.KernelIdeal.nD Cert.KernelIdeal.τ).loc Cert.KernelIdeal.main_arg0)) b ch q = (t : EReal) :=
    fun b ch q => (hdec c).1 _
  have hl : ∀ b q,
      labelOf (m ((c.tc : Thread Cert.KernelIdeal.nD Cert.KernelIdeal.τ).loc Cert.KernelIdeal.main_arg1)) b q < 1025 := by
    intro b q
    have hq := (hdec c).2 (Idealize.ShloMosaic.ValueIdx.ix4 b 0 ⟨q.val / 1024, by omega⟩ ⟨q.val % 1024, by omega⟩)
    show (labelWord _ b q).toNat < 1025
    unfold labelWord
    have h0 := hq.1
    have h1 := hq.2
    rw [BitVec.toInt_eq_toNat_cond] at h0 h1
    split at h0 <;> omega
  have e := totalG_eq_totalP _ _
    (lineOf (m ((c.tc : Thread Cert.KernelIdeal.nD Cert.KernelIdeal.τ).loc Cert.KernelIdeal.main_arg2))) hfin hl
  funext _
  show Ideal.div (totalP _ _ _) npix = Ideal.div (totalG _ _ _) npix
  rw [e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
